-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : FVec F S64x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x64 .f32) (main_arg3 : FVec F S64x32 .f32) (main_arg4 : FVec F S64x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S10000x64 : Shape := ⟨2, ![10000, 64]⟩
abbrev S64x64 : Shape := ⟨2, ![64, 64]⟩
abbrev S10000x32 : Shape := ⟨2, ![10000, 32]⟩
abbrev S32x10000 : Shape := ⟨2, ![32, 10000]⟩
abbrev S2000x128 : Shape := ⟨2, ![2000, 128]⟩
abbrev S2000x64 : Shape := ⟨2, ![2000, 64]⟩
abbrev S256x10000 : Shape := ⟨2, ![256, 10000]⟩
abbrev S256x64 : Shape := ⟨2, ![256, 64]⟩
abbrev S512x32 : Shape := ⟨2, ![512, 32]⟩
abbrev S32x2048 : Shape := ⟨2, ![32, 2048]⟩
abbrev S512x2048 : Shape := ⟨2, ![512, 2048]⟩

abbrev nBuf : Space → Nat
  | .hbm => 14
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S10000x64, .bf16⟩
  | .hbm, ⟨6, _⟩ => ⟨S64x64, .f32⟩
  | .hbm, ⟨7, _⟩ => ⟨S64x64, .bf16⟩
  | .hbm, ⟨8, _⟩ => ⟨S10000x64, .bf16⟩
  | .hbm, ⟨9, _⟩ => ⟨S10000x64, .f32⟩
  | .hbm, ⟨10, _⟩ => ⟨S10000x32, .f32⟩
  | .hbm, ⟨11, _⟩ => ⟨S10000x32, .f32⟩
  | .hbm, ⟨12, _⟩ => ⟨S32x10000, .f32⟩
  | .hbm, ⟨13, _⟩ => ⟨S10000x10000, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .bf16⟩
  | .local _ .vmem, ⟨4, _⟩ => ⟨S2000x64, .bf16⟩
  | .local _ .vmem, ⟨5, _⟩ => ⟨S256x10000, .f32⟩
  | .local _ .vmem, ⟨6, _⟩ => ⟨S256x10000, .f32⟩
  | .local _ .vmem, ⟨7, _⟩ => ⟨S10000x64, .bf16⟩
  | .local _ .vmem, ⟨8, _⟩ => ⟨S64x64, .bf16⟩
  | .local _ .vmem, ⟨9, _⟩ => ⟨S256x64, .bf16⟩
  | .local _ .vmem, ⟨10, _⟩ => ⟨S256x64, .bf16⟩
  | .local _ .vmem, ⟨11, _⟩ => ⟨S256x10000, .f32⟩
  | .local _ .vmem, ⟨12, _⟩ => ⟨S256x10000, .f32⟩
  | .local _ .vmem, ⟨13, _⟩ => ⟨S10000x64, .bf16⟩
  | .local _ .vmem, ⟨14, _⟩ => ⟨S256x64, .f32⟩
  | .local _ .vmem, ⟨15, _⟩ => ⟨S256x64, .f32⟩
  | .local _ .vmem, ⟨16, _⟩ => ⟨S512x32, .f32⟩
  | .local _ .vmem, ⟨17, _⟩ => ⟨S512x32, .f32⟩
  | .local _ .vmem, ⟨18, _⟩ => ⟨S32x2048, .f32⟩
  | .local _ .vmem, ⟨19, _⟩ => ⟨S32x2048, .f32⟩
  | .local _ .vmem, ⟨20, _⟩ => ⟨S512x2048, .f32⟩
  | .local _ .vmem, ⟨21, _⟩ => ⟨S512x2048, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0_1 : Ref sig .tc := ⟨.hbm, 10, rfl⟩
abbrev main_v0_2 : Ref sig .tc := ⟨.hbm, 11, rfl⟩
abbrev main_call0_v7 : Ref sig .tc := ⟨.hbm, 12, rfl⟩
abbrev main_v0_0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![20, 5], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S32x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  concatenates_S64x32_S64x32_S64x64_d1 : Shape.Concatenates [S64x32, S64x32] S64x64 1
  bitsLt_bf16_f32 : FTy.bits .bf16 < FTy.bits .f32
  slices_S10000x64_S10000x32_0_0 : S10000x64.Slices ![0, 0] S10000x32
  slices_S10000x64_S10000x32_0_32 : S10000x64.Slices ![0, 32] S10000x32
  transposes_S10000x32_S32x10000_1_0 : S10000x32.Transposes [1, 0] S32x10000
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  inb_S256x10000_S256x10000_0_0 : ∀ a, (![0, 0] : Fin 2 → Nat) a + S256x10000.size a ≤ S256x10000.size a
  h_S256x10000 : 0 < S256x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x64_S256x64_0_0 : ∀ a, (![0, 0] : Fin 2 → Nat) a + S256x64.size a ≤ S256x64.size a
  h_S256x64 : 0 < S256x64.numel
  packedbf16_S256x64_S256x64_0_0 : (Rect.unit (s := S256x64) ![0, 0] S256x64.size inb_S256x64_S256x64_0_0).PackedRows (EltTy.packing .bf16)
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S512x2048_S512x2048_0_0 : ∀ a, (![0, 0] : Fin 2 → Nat) a + S512x2048.size a ≤ S512x2048.size a
  h_S512x2048 : 0 < S512x2048.numel
  dot_S2000x128_S128x64_S2000x64_1_0_0_1_n_n_wf : DotDims.WF S2000x128 S128x64 S2000x64 [1] [0] [0] [1] [] []
  dot_S256x10000_S10000x64_S256x64_1_0_0_1_n_n_wf : DotDims.WF S256x10000 S10000x64 S256x64 [1] [0] [0] [1] [] []
  dot_S256x64_S64x64_S256x64_1_0_0_1_n_n_wf : DotDims.WF S256x64 S64x64 S256x64 [1] [0] [0] [1] [] []
  dot_S512x32_S32x2048_S512x2048_1_0_0_1_n_n_wf : DotDims.WF S512x32 S32x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .bf16 = 32 ∨ (Rect.block (s := S10000x64) S2000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S256x10000.size a < S10000x10000.size a
  hwx1_0 : ∀ i : grid1.Coords, EltTy.bits .f32 = 32 ∨ (Rect.unit (s := S10000x10000) (fun a => cc1_transform_0 i a * S256x10000.size a) (fun a => (Pipeline.Clip.of (cc1_transform_0 i a) (S256x10000.size a) (S10000x10000.size a)).extent (S256x10000.size a)) fun a => Pipeline.Clip.inb (Pipeline.Clip.ok_of (hstart1_0 i a))).WholeWords (EltTy.packing .f32)
  hwxs1_0 : ∀ i : grid1.Coords, EltTy.bits .f32 = 32 ∨ (Rect.unit (s := S256x10000) (fun _ => 0) (fun a => (Pipeline.Clip.of (cc1_transform_0 i a) (S256x10000.size a) (S10000x10000.size a)).extent (S256x10000.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S256x64.size a < S10000x64.size a
  hwx1_3 : ∀ i : grid1.Coords, EltTy.bits .bf16 = 32 ∨ (Rect.unit (s := S10000x64) (fun a => cc1_transform_3 i a * S256x64.size a) (fun a => (Pipeline.Clip.of (cc1_transform_3 i a) (S256x64.size a) (S10000x64.size a)).extent (S256x64.size a)) fun a => Pipeline.Clip.inb (Pipeline.Clip.ok_of (hstart1_3 i a))).WholeWords (EltTy.packing .bf16)
  hwxs1_3 : ∀ i : grid1.Coords, EltTy.bits .bf16 = 32 ∨ (Rect.unit (s := S256x64) (fun _ => 0) (fun a => (Pipeline.Clip.of (cc1_transform_3 i a) (S256x64.size a) (S10000x64.size a)).extent (S256x64.size a)) fun a => (Nat.zero_add _).trans_le (Pipeline.Clip.extent_le (Pipeline.Clip.ok_of (hstart1_3 i a)))).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S256x10000.size a < S10000x10000.size a
  hwx2_0 : ∀ i : grid2.Coords, EltTy.bits .f32 = 32 ∨ (Rect.unit (s := S10000x10000) (fun a => cc2_transform_0 i a * S256x10000.size a) (fun a => (Pipeline.Clip.of (cc2_transform_0 i a) (S256x10000.size a) (S10000x10000.size a)).extent (S256x10000.size a)) fun a => Pipeline.Clip.inb (Pipeline.Clip.ok_of (hstart2_0 i a))).WholeWords (EltTy.packing .f32)
  hwxs2_0 : ∀ i : grid2.Coords, EltTy.bits .f32 = 32 ∨ (Rect.unit (s := S256x10000) (fun _ => 0) (fun a => (Pipeline.Clip.of (cc2_transform_0 i a) (S256x10000.size a) (S10000x10000.size a)).extent (S256x10000.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S256x64.size a < S10000x64.size a
  hwx2_2 : ∀ i : grid2.Coords, EltTy.bits .f32 = 32 ∨ (Rect.unit (s := S10000x64) (fun a => cc2_transform_2 i a * S256x64.size a) (fun a => (Pipeline.Clip.of (cc2_transform_2 i a) (S256x64.size a) (S10000x64.size a)).extent (S256x64.size a)) fun a => Pipeline.Clip.inb (Pipeline.Clip.ok_of (hstart2_2 i a))).WholeWords (EltTy.packing .f32)
  hwxs2_2 : ∀ i : grid2.Coords, EltTy.bits .f32 = 32 ∨ (Rect.unit (s := S256x64) (fun _ => 0) (fun a => (Pipeline.Clip.of (cc2_transform_2 i a) (S256x64.size a) (S10000x64.size a)).extent (S256x64.size a)) fun a => (Nat.zero_add _).trans_le (Pipeline.Clip.extent_le (Pipeline.Clip.ok_of (hstart2_2 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S512x32.size a < S10000x32.size a
  hwx3_0 : ∀ i : grid3.Coords, EltTy.bits .f32 = 32 ∨ (Rect.unit (s := S10000x32) (fun a => cc3_transform_0 i a * S512x32.size a) (fun a => (Pipeline.Clip.of (cc3_transform_0 i a) (S512x32.size a) (S10000x32.size a)).extent (S512x32.size a)) fun a => Pipeline.Clip.inb (Pipeline.Clip.ok_of (hstart3_0 i a))).WholeWords (EltTy.packing .f32)
  hwxs3_0 : ∀ i : grid3.Coords, EltTy.bits .f32 = 32 ∨ (Rect.unit (s := S512x32) (fun _ => 0) (fun a => (Pipeline.Clip.of (cc3_transform_0 i a) (S512x32.size a) (S10000x32.size a)).extent (S512x32.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S32x2048.size a < S32x10000.size a
  hwx3_1 : ∀ i : grid3.Coords, EltTy.bits .f32 = 32 ∨ (Rect.unit (s := S32x10000) (fun a => cc3_transform_1 i a * S32x2048.size a) (fun a => (Pipeline.Clip.of (cc3_transform_1 i a) (S32x2048.size a) (S32x10000.size a)).extent (S32x2048.size a)) fun a => Pipeline.Clip.inb (Pipeline.Clip.ok_of (hstart3_1 i a))).WholeWords (EltTy.packing .f32)
  hwxs3_1 : ∀ i : grid3.Coords, EltTy.bits .f32 = 32 ∨ (Rect.unit (s := S32x2048) (fun _ => 0) (fun a => (Pipeline.Clip.of (cc3_transform_1 i a) (S32x2048.size a) (S32x10000.size a)).extent (S32x2048.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S512x2048.size a < S10000x10000.size a
  hwx3_2 : ∀ i : grid3.Coords, EltTy.bits .f32 = 32 ∨ (Rect.unit (s := S10000x10000) (fun a => cc3_transform_2 i a * S512x2048.size a) (fun a => (Pipeline.Clip.of (cc3_transform_2 i a) (S512x2048.size a) (S10000x10000.size a)).extent (S512x2048.size a)) fun a => Pipeline.Clip.inb (Pipeline.Clip.ok_of (hstart3_2 i a))).WholeWords (EltTy.packing .f32)
  hwxs3_2 : ∀ i : grid3.Coords, EltTy.bits .f32 = 32 ∨ (Rect.unit (s := S512x2048) (fun _ => 0) (fun a => (Pipeline.Clip.of (cc3_transform_2 i a) (S512x2048.size a) (S10000x10000.size a)).extent (S512x2048.size a)) fun a => (Nat.zero_add _).trans_le (Pipeline.Clip.extent_le (Pipeline.Clip.ok_of (hstart3_2 i a)))).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S256x10000_S10000x64_S256x64_1_0_0_1_n_n : DotDims S256x10000 S10000x64 S256x64 where
  lhsContracting := [1]
  rhsContracting := [0]
  lhsNonContracting := [0]
  rhsNonContracting := [1]
  lhsBatch := []
  rhsBatch := []
  wf := dot_S256x10000_S10000x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S512x32_S32x2048_S512x2048_1_0_0_1_n_n : DotDims S512x32 S32x2048 S512x2048 where
  lhsContracting := [1]
  rhsContracting := [0]
  lhsNonContracting := [0]
  rhsNonContracting := [1]
  lhsBatch := []
  rhsBatch := []
  wf := dot_S512x32_S32x2048_S512x2048_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg1) S256x10000.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_call0_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_call0_v3) S256x64.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpecClip (Memref.whole main_arg1) S256x10000.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_call0_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_call0_v4) S256x64.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpecClip (Memref.whole main_v0_1) S512x32.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_call0_v7) S32x2048.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v0_0) S512x2048.size cc3_transform_2 reads3_2 true false 2 stage3_2 sem3_2
    hrank3 hreads3_2 hstart3_2 nbuf3_2 (Memref.isWhole_whole _) hwx3_2 hwxs3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S32x10000 : Shape := ⟨2, ![32, 10000]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S10000x64, .f32⟩
  | .hbm, ⟨6, _⟩ => ⟨S10000x64, .f32⟩
  | .hbm, ⟨7, _⟩ => ⟨S_, .f32⟩
  | .hbm, ⟨8, _⟩ => ⟨S10000x64, .f32⟩
  | .hbm, ⟨9, _⟩ => ⟨S10000x64, .f32⟩
  | .hbm, ⟨10, _⟩ => ⟨S10000x32, .f32⟩
  | .hbm, ⟨11, _⟩ => ⟨S10000x32, .f32⟩
  | .hbm, ⟨12, _⟩ => ⟨S10000x32, .f32⟩
  | .hbm, ⟨13, _⟩ => ⟨S10000x32, .f32⟩
  | .hbm, ⟨14, _⟩ => ⟨S32x10000, .f32⟩
  | .hbm, ⟨15, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  transposes_S10000x32_S32x10000_1_0 : S10000x32.Transposes [1, 0] S32x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.KBody.lean ====
import proofs.«130511_g42314017800419_cont_8to1_b_959_3_alg».proof.Proof.Gen.Kernel.Launch
import proofs.«130511_g42314017800419_cont_8to1_b_959_3_alg».proof.Proof.Gen.Kernel.Skeleton
import proofs.«130511_g42314017800419_cont_8to1_b_959_3_alg».proof.Proof.Gen.Kernel.Points
import Idealize.ShloMosaic.Lib.Pipeline.FrameBody
import Idealize.ShloMosaic.Lib.Pipeline.Value
import Idealize.ShloMosaic.Lib.Tactic

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! Each kernel body reads its input staging buffers whole, computes one value from them and stores it over
    the whole output staging buffer: from the inputs at any contents and the output at anything, it leaves
    the inputs as they were and the output at that value of the inputs' contents. -/

theorem sound_kernel0 (c : Dev nD) (E : Set ℕ) (i : grid0.Coords)
    (a1 : Memref sig .tc .vmem S2000x128 .f32) (h1 : a1.IsWhole) (a2 : Memref sig .tc .vmem S128x64 .f32) (h2 : a2.IsWhole)
    (a3 : Memref sig .tc .vmem S2000x64 .bf16) (h3 : a3.IsWhole)
    (x1 : Vec F S2000x128 .f32) (x2 : Vec F S128x64 .f32) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k0_pay1 x1 x2)) -∗ K ⟨⟩))
      ⊢ wp frame (wpE (defs₀ (F := F)) Variants.none c none) E (cc0__small_matmul_body i a1 h1 a2 h2 a3 h3) K := by
  simp only [cc0__small_matmul_body_eq_skeleton]; unfold cc0__small_matmul_body_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S2000x64) hz inb_S2000x64_S2000x64_0_0 y⟩
  rw [View.canon_unit_zero (S := S2000x64) hz]
  rw [View.readAt_eq_ld, View.ld_unit_zero (S := S2000x128) hz]
  rw [View.readAt_eq_ld, View.ld_unit_zero (S := S128x64) hz]

theorem sound_kernel1 (c : Dev nD) (E : Set ℕ) (i : grid1.Coords)
    (a1 : Memref sig .tc .vmem S256x10000 .f32) (h1 : a1.IsWhole) (a2 : Memref sig .tc .vmem S10000x64 .bf16) (h2 : a2.IsWhole)
    (a3 : Memref sig .tc .vmem S64x64 .bf16) (h3 : a3.IsWhole) (a4 : Memref sig .tc .vmem S256x64 .bf16) (h4 : a4.IsWhole)
    (x1 : Vec F S256x10000 .f32) (x2 : Vec F S10000x64 .bf16) (x3 : Vec F S64x64 .bf16) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (k1_pay1 x1 x2 x3)) -∗ K ⟨⟩))
      ⊢ wp frame (wpE (defs₀ (F := F)) Variants.none c none) E (cc1__adj_pass1_body i a1 h1 a2 h2 a3 h3 a4 h4) K := by
  simp only [cc1__adj_pass1_body_eq_skeleton]; unfold cc1__adj_pass1_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S256x64) hz inb_S256x64_S256x64_0_0 y⟩
  rw [View.canon_unit_zero (S := S256x64) hz]
  rw [View.readAt_eq_ld, View.ld_unit_zero (S := S256x10000) hz]
  rw [View.readAt_eq_ld, View.ld_unit_zero (S := S10000x64) hz]
  rw [View.readAt_eq_ld, View.ld_unit_zero (S := S64x64) hz]

theorem sound_kernel2 (c : Dev nD) (E : Set ℕ) (i : grid2.Coords)
    (a1 : Memref sig .tc .vmem S256x10000 .f32) (h1 : a1.IsWhole) (a2 : Memref sig .tc .vmem S10000x64 .bf16) (h2 : a2.IsWhole)
    (a3 : Memref sig .tc .vmem S256x64 .f32) (h3 : a3.IsWhole)
    (x1 : Vec F S256x10000 .f32) (x2 : Vec F S10000x64 .bf16) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k2_pay1 x1 x2)) -∗ K ⟨⟩))
      ⊢ wp frame (wpE (defs₀ (F := F)) Variants.none c none) E (cc2__adj_pass2_body i a1 h1 a2 h2 a3 h3) K := by
  simp only [cc2__adj_pass2_body_eq_skeleton]; unfold cc2__adj_pass2_body_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S256x64) hz inb_S256x64_S256x64_0_0 y⟩
  rw [View.canon_unit_zero (S := S256x64) hz]
  rw [View.readAt_eq_ld, View.ld_unit_zero (S := S256x10000) hz]
  rw [View.readAt_eq_ld, View.ld_unit_zero (S := S10000x64) hz]

theorem sound_kernel3 (c : Dev nD) (E : Set ℕ) (i : grid3.Coords)
    (a1 : Memref sig .tc .vmem S512x32 .f32) (h1 : a1.IsWhole) (a2 : Memref sig .tc .vmem S32x2048 .f32) (h2 : a2.IsWhole)
    (a3 : Memref sig .tc .vmem S512x2048 .f32) (h3 : a3.IsWhole)
    (x1 : Vec F S512x32 .f32) (x2 : Vec F S32x2048 .f32) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k3_pay1 x1 x2)) -∗ K ⟨⟩))
      ⊢ wp frame (wpE (defs₀ (F := F)) Variants.none c none) E (cc3__recon_body i a1 h1 a2 h2 a3 h3) K := by
  simp only [cc3__recon_body_eq_skeleton]; unfold cc3__recon_body_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S512x2048) hz inb_S512x2048_S512x2048_0_0 y⟩
  rw [View.canon_unit_zero (S := S512x2048) hz]
  rw [View.readAt_eq_ld, View.ld_unit_zero (S := S512x32) hz]
  rw [View.readAt_eq_ld, View.ld_unit_zero (S := S32x2048) hz]

end Cert.Kernel.Body

end
-- ==== Proof.KReg0.lean ====
import proofs.«130511_g42314017800419_cont_8to1_b_959_3_alg».proof.Proof.Gen.Kernel.Launch
import proofs.«130511_g42314017800419_cont_8to1_b_959_3_alg».proof.Proof.Gen.Kernel.Skeleton
import proofs.«130511_g42314017800419_cont_8to1_b_959_3_alg».proof.Proof.Gen.Kernel.Points
import proofs.«130511_g42314017800419_cont_8to1_b_959_3_alg».proof.Proof.KBody
import Idealize.ShloMosaic.Lib.Pipeline.FrameBody
import Idealize.ShloMosaic.Lib.Pipeline.Frame
import Idealize.ShloMosaic.Lib.Pipeline.Value
import Idealize.ShloMosaic.Lib.Tactic

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Body

variable {F : FTy → Type} [FloatOps F]

local notation "𝕄" => MT nD τ sig Unit (Elt F) ℕ (UR sig nD τ) ℕ

/-! Region 0 at any float instance: 5 blocks of 2000 rows of `x`, which tile the array. Point `t` leaves in
    the output's staging buffer the body's value of its block of `x` and of the whole `W1`. -/

variable (V : (c : Dev nD) → (b : Ref sig .tc) → Buf (Elt F) ((c : Thread nD τ).loc b))

/-- Window `w`'s block at point `t`, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body the inputs' buffers at their blocks and
    the output's at the body's value of them. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

/-- What the body leaves, window by window: the proof data's `match` reduced. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = k0_pay1 (iblk V c 0 t) (iblk V c 1 t) := by dsimp only [dat]

/-- The block of `x` is in its staging buffer at every point: it is fetched there, and the body leaves it in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The whole `W1` is fetched at the first point only; its block index never moves and the body leaves the
    buffer as it was, so every later point still finds it there. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' buffers hold their blocks, the output's buffer holds anything, so the
    body's triple applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel0 c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat V c) (defs₀ (F := F)) Variants.none () Set.univ := fun t => by
  rw [bigSep_W0, bigSep_W0]
  exact sound_body V c t

end Cert.Kernel.Reg0

end
-- ==== Proof.KRegions.lean ====
import proofs.«130511_g42314017800419_cont_8to1_b_959_3_alg».proof.Proof.Gen.Kernel.Launch
import proofs.«130511_g42314017800419_cont_8to1_b_959_3_alg».proof.Proof.Gen.Kernel.Skeleton
import proofs.«130511_g42314017800419_cont_8to1_b_959_3_alg».proof.Proof.Gen.Kernel.Points
import proofs.«130511_g42314017800419_cont_8to1_b_959_3_alg».proof.Proof.Gen.Kernel.Regions
import proofs.«130511_g42314017800419_cont_8to1_b_959_3_alg».proof.Proof.KBody
import proofs.«130511_g42314017800419_cont_8to1_b_959_3_alg».proof.Proof.KReg0
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Body
open Idealize.ShloMosaic.Pipeline (RDat)

variable {F : FTy → Type} [FloatOps F]

local notation "𝕄" => MT nD τ sig Unit (Elt F) ℕ (UR sig nD τ) ℕ

/-! The word-level program's regions 1 to 3 with NOTHING said of what a body leaves in a staging buffer: a
    block that reaches past its array's end is fetched into a buffer whose tail holds words nothing names, and
    the matrix product of such a buffer is, word for word, a function of all of it. That the program runs to
    its end, faults nowhere and leaves its arguments as they were needs none of those words. -/

abbrev 𝒱₀ : Variants := Variants.none
abbrev L : GSem nD τ sig → Finset Unit := fun _ => ∅
abbrev lv : GSem nD τ sig → Unit → ℕ := fun _ _ => 0

section Data

variable (V : (c : Dev nD) → (b : Ref sig .tc) → Buf (Elt F) ((c : Thread nD τ).loc b))

/-- Region 1's data at the entry contents `V`: any contents may be left in any staging buffer. -/
def rdat1 (c : Dev nD) : RDat τ (Elt F) Unit ℕ (UR sig nD τ) ℕ cfg1 c where
  A w := V c (Pipeline.arrRef spec1 w)
  after _ _ _ _ := True
  Φ _ := Pipeline.ΦA spec1 c
  q _ := fullShare
  owed _ := 0

/-- Region 2's data at the entry contents `V`: any contents may be left in any staging buffer. -/
def rdat2 (c : Dev nD) : RDat τ (Elt F) Unit ℕ (UR sig nD τ) ℕ cfg2 c where
  A w := V c (Pipeline.arrRef spec2 w)
  after _ _ _ _ := True
  Φ _ := Pipeline.ΦA spec2 c
  q _ := fullShare
  owed _ := 0

/-- Region 3's data at the entry contents `V`: any contents may be left in any staging buffer. -/
def rdat3 (c : Dev nD) : RDat τ (Elt F) Unit ℕ (UR sig nD τ) ℕ cfg3 c where
  A w := V c (Pipeline.arrRef spec3 w)
  after _ _ _ _ := True
  Φ _ := Pipeline.ΦA spec3 c
  q _ := fullShare
  owed _ := 0

/-- The body of region 1 runs from any contents of its staging buffers and leaves them at some contents. -/
theorem rbody1 (c : Dev nD) : (rdat1 V c).BodyObligation (defs₀ (F := F)) 𝒱₀ () Set.univ := by
  intro t Y _
  rw [bigSep_W1, bigSep_W1]
  rw [show (rdat1 V c).Φ t.succ = (rdat1 V c).Φ t.castSucc from rfl,
    show (rdat1 V c).owesAt () t.succ = (rdat1 V c).owesAt () t.castSucc from rfl]
  show _ ⊢ wp frame _ _ (bodyAt1 t) _
  unfold bodyAt1
  iintro ⟨HΦ, Ho, H0, H1, H2, H3⟩
  iapply (sound_kernel1 c Set.univ (grid1.coords t) _ _ _ _ _ _ _ _ (Y 0) (Y 1) (Y 2) _)
  isplitl [H0]; · iexact H0
  isplitl [H1]; · iexact H1
  isplitl [H2]; · iexact H2
  isplitl [H3]; · iexists (Y 3); iexact H3
  iintro ⟨H0, H1, H2, H3⟩
  isplitl [HΦ]; · iexact HΦ
  isplitl [Ho]; · iexact Ho
  isplitl [H0]
  · iexists (Y 0); isplitr
    · ipureintro; trivial
    iexact H0
  isplitl [H1]
  · iexists (Y 1); isplitr
    · ipureintro; trivial
    iexact H1
  isplitl [H2]
  · iexists (Y 2); isplitr
    · ipureintro; trivial
    iexact H2
  iexists (k1_pay1 (Y 0) (Y 1) (Y 2)); isplitr
  · ipureintro; trivial
  iexact H3

/-- The body of region 2 runs from any contents of its staging buffers and leaves them at some contents. -/
theorem rbody2 (c : Dev nD) : (rdat2 V c).BodyObligation (defs₀ (F := F)) 𝒱₀ () Set.univ := by
  intro t Y _
  rw [bigSep_W2, bigSep_W2]
  rw [show (rdat2 V c).Φ t.succ = (rdat2 V c).Φ t.castSucc from rfl,
    show (rdat2 V c).owesAt () t.succ = (rdat2 V c).owesAt () t.castSucc from rfl]
  show _ ⊢ wp frame _ _ (bodyAt2 t) _
  unfold bodyAt2
  iintro ⟨HΦ, Ho, H0, H1, H2⟩
  iapply (sound_kernel2 c Set.univ (grid2.coords t) _ _ _ _ _ _ (Y 0) (Y 1) _)
  isplitl [H0]; · iexact H0
  isplitl [H1]; · iexact H1
  isplitl [H2]; · iexists (Y 2); iexact H2
  iintro ⟨H0, H1, H2⟩
  isplitl [HΦ]; · iexact HΦ
  isplitl [Ho]; · iexact Ho
  isplitl [H0]
  · iexists (Y 0); isplitr
    · ipureintro; trivial
    iexact H0
  isplitl [H1]
  · iexists (Y 1); isplitr
    · ipureintro; trivial
    iexact H1
  iexists (k2_pay1 (Y 0) (Y 1)); isplitr
  · ipureintro; trivial
  iexact H2

/-- The body of region 3 runs from any contents of its staging buffers and leaves them at some contents. -/
theorem rbody3 (c : Dev nD) : (rdat3 V c).BodyObligation (defs₀ (F := F)) 𝒱₀ () Set.univ := by
  intro t Y _
  rw [bigSep_W3, bigSep_W3]
  rw [show (rdat3 V c).Φ t.succ = (rdat3 V c).Φ t.castSucc from rfl,
    show (rdat3 V c).owesAt () t.succ = (rdat3 V c).owesAt () t.castSucc from rfl]
  show _ ⊢ wp frame _ _ (bodyAt3 t) _
  unfold bodyAt3
  iintro ⟨HΦ, Ho, H0, H1, H2⟩
  iapply (sound_kernel3 c Set.univ (grid3.coords t) _ _ _ _ _ _ (Y 0) (Y 1) _)
  isplitl [H0]; · iexact H0
  isplitl [H1]; · iexact H1
  isplitl [H2]; · iexists (Y 2); iexact H2
  iintro ⟨H0, H1, H2⟩
  isplitl [HΦ]; · iexact HΦ
  isplitl [Ho]; · iexact Ho
  isplitl [H0]
  · iexists (Y 0); isplitr
    · ipureintro; trivial
    iexact H0
  isplitl [H1]
  · iexists (Y 1); isplitr
    · ipureintro; trivial
    iexact H1
  iexists (k3_pay1 (Y 0) (Y 1)); isplitr
  · ipureintro; trivial
  iexact H2

end Data

section Records

/-- What rides beside the buffers through every item: the generator register at some state, and the core owing nothing. -/
abbrev R (c : Dev nD) : sProp 𝕄 := iprop((∃ r, prngReg c r) ∗ ∃ Wt, owes (c : Thread nD τ) (0 : CellTallies nD τ sig Unit) Wt)

/-- `W'` holds the five arguments and region 0's result as `W₀` does. -/
def Keeps (W' W₀ : Valuation τ sig (Elt F)) : Prop :=
  W' (Proc.devRef .tc main_arg0) = W₀ (Proc.devRef .tc main_arg0)
  ∧ W' (Proc.devRef .tc main_arg1) = W₀ (Proc.devRef .tc main_arg1)
  ∧ W' (Proc.devRef .tc main_arg2) = W₀ (Proc.devRef .tc main_arg2)
  ∧ W' (Proc.devRef .tc main_arg3) = W₀ (Proc.devRef .tc main_arg3)
  ∧ W' (Proc.devRef .tc main_arg4) = W₀ (Proc.devRef .tc main_arg4)
  ∧ W' (Proc.devRef .tc main_call0_v0) = W₀ (Proc.devRef .tc main_call0_v0)

theorem Keeps.refl (W₀ : Valuation τ sig (Elt F)) : Keeps W₀ W₀ := ⟨rfl, rfl, rfl, rfl, rfl, rfl⟩
theorem Keeps.trans {W₂ W₁ W₀ : Valuation τ sig (Elt F)} (h : Keeps W₂ W₁) (h' : Keeps W₁ W₀) : Keeps W₂ W₀ :=
  ⟨h.1.trans h'.1, h.2.1.trans h'.2.1, h.2.2.1.trans h'.2.2.1, h.2.2.2.1.trans h'.2.2.2.1, h.2.2.2.2.1.trans h'.2.2.2.2.1, h.2.2.2.2.2.trans h'.2.2.2.2.2⟩

variable (W : Dev nD → Valuation τ sig (Elt F))

/-- Every pipeline's data at ONE valuation of the unscoped buffers: region 0's exact, the others' saying nothing. -/
def rdats : (p : Fin 4) → (c : Dev nD) → RDat τ (Elt F) Unit ℕ (UR sig nD τ) ℕ (Pipeline.pin (pcfgs (F := F)) adm p) c
  | ⟨0, _⟩ => fun c => (Cert.Kernel.Reg0.dat (fun c b => W c b) c).toR
  | ⟨1, _⟩ => fun c => rdat1 (fun c b => W c b) c
  | ⟨2, _⟩ => fun c => rdat2 (fun c b => W c b) c
  | ⟨3, _⟩ => fun c => rdat3 (fun c b => W c b) c

/-- A pipeline's arrays at contents `A` and the unscoped rest at `V` are the core's unscoped buffers at any
    valuation that has the arrays at `A` and agrees with `V` off them. -/
theorem unscopedBufs_of_rarrays {p : Fin 4} (hw : Pipeline.WinFacts (Pipeline.pin (pcfgs (F := F)) adm p).spec)
    (harr : ∀ w, ((Pipeline.pin (pcfgs (F := F)) adm p).spec w).arr.IsWhole) (c : Dev nD)
    (hshare : ∀ w, (rdats W p c).share w = fullShare)
    (V V' : (b : Ref sig .tc) → Buf (Elt F) ((c : Thread nD τ).loc b))
    (A : (w : Fin (Pipeline.pin (pcfgs (F := F)) adm p).W) → Buf (Elt F) (((Pipeline.pin (pcfgs (F := F)) adm p).spec w).arr.view.loc (c : Thread nD τ)))
    (hA : ∀ w, A w = V' (Pipeline.arrRef (Pipeline.pin (pcfgs (F := F)) adm p).spec w))
    (hrest : ∀ b, b ∉ Finset.univ.image (Pipeline.arrRef (Pipeline.pin (pcfgs (F := F)) adm p).spec) → V' b = V b) :
    iprop((rdats W p c).arrays A ∗ Pipeline.unscopedRest (Ix := Unit) (Name := ℕ) (U := UR sig nD τ) (Lvl := ℕ) (Pipeline.pin (pcfgs (F := F)) adm p).spec c V)
      ⊢ (unscopedBufs c V' : sProp 𝕄) := by
  rw [Pipeline.unscopedBufs_split (Pipeline.pin (pcfgs (F := F)) adm) p hw.arr_unscoped hw.arr_inj c V',
    Pipeline.RDat.arrays_eq (pcfgs (F := F)) adm (rdats W) p c harr hshare]
  refine sep_mono (Entails.of_eq (bigSep_congr fun w _ => by rw [hA])) (Entails.of_eq ?_)
  unfold Pipeline.unscopedRest
  exact bigSep_congr fun b hb => by rw [hrest b (Finset.mem_sdiff.mp hb).2]

set_option backward.isDefEq.respectTransparency.types false in
/-- Region 1 as a segment: entered with every unscoped buffer at `W`, left with them at SOME valuation that
    keeps the arguments and region 0's result as they were. -/
def rreg1 : Pipeline.RDat.RegionSeg (pcfgs (F := F)) adm (rdats W) () defs₀ 𝒱₀ L lv 1 where
  win := launch1.win.to₀
  block_pos := launch1.block_pos
  stage_whole := launch1.stage_whole
  K := PEmpty
  osem k := k.elim
  ho := Pipeline.OwnSemFacts.none _
  hbody c := rbody1 (fun c b => W c b) c
  hwaits := Pipeline.RDat.hwaits_of_owed_zero _ _ _ _ L lv 1 fun _ _ => rfl
  pre c := iprop(StableHlo.held (c : Thread nD τ) (Pipeline.ucRefs τ sig) (W c) ∗ R c)
  post c := iprop(∃ W' : Valuation τ sig (Elt F), ⌜Keeps W' (W c)⌝ ∗ StableHlo.held (c : Thread nD τ) (Pipeline.ucRefs τ sig) W' ∗ R c)
  X c := iprop(∃ r, prngReg c r)
  Y c := iprop(∃ r, prngReg c r)
  Z c := Pipeline.unscopedRest (Ix := Unit) (Name := ℕ) (U := UR sig nD τ) (Lvl := ℕ) spec1 c (fun b => W c b)
  hentry c := by
    rw [Pipeline.ownSems0_none]
    have hsplit := Pipeline.RDat.arrays_of_unscopedBufs (p := 1) (pcfgs (F := F)) adm (rdats W) launch1.win launch1.arr_whole c
      ((rdats W 1 c).share_full fun _ => rfl) (fun b => W c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wt, HO⟩; iexists Wt; isplitr; · ipureintro; exact fun _ _ => Or.inl trivial
      iexact HO
    isplitl [Hp]; · iexact Hp
    iexact Hrest
  hin c := by
    rw [show (rdats W 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats W 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    rw [bigSep_W1]
    iintro ⟨⟨⟨%A0, %h0, H0⟩, ⟨%A1, %h1, H1⟩, ⟨%A2, %h2, H2⟩, ⟨%A3, %h3, H3⟩⟩, HO, HY, Hrest⟩
    let A : (w : Fin cfg1.W) → Buf (Elt F) ((cfg1.win w).arr.view.loc (c : Thread nD τ)) := fun w => match w with
      | ⟨0, _⟩ => A0 | ⟨1, _⟩ => A1 | ⟨2, _⟩ => A2 | ⟨3, _⟩ => A3
    have hjoin := unscopedBufs_of_rarrays W (p := 1) launch1.win launch1.arr_whole c ((rdats W 1 c).share_full fun _ => rfl)
      (fun b => W c b) (fun b => Pipeline.withArrays spec1 c (W c) A b) A
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    have e0 : A0 = W c (Proc.devRef .tc (Pipeline.arrRef spec1 0)) := by
      have := h0; rw [Pipeline.RDat.ArrAt_in _ 0 rfl] at this; exact this
    have e1 : A1 = W c (Proc.devRef .tc (Pipeline.arrRef spec1 1)) := by
      have := h1; rw [Pipeline.RDat.ArrAt_in _ 1 rfl] at this; exact this
    imodintro
    iexists (Pipeline.withArrays spec1 c (W c) A)
    isplitr
    · ipureintro
      exact ⟨Pipeline.withArrays_of_ne spec1 c _ _ main_arg0 (by decide),
        (Pipeline.withArrays_arr spec1 launch1.win.arr_inj c _ _ 0).trans e0,
        Pipeline.withArrays_of_ne spec1 c _ _ main_arg2 (by decide),
        Pipeline.withArrays_of_ne spec1 c _ _ main_arg3 (by decide),
        Pipeline.withArrays_of_ne spec1 c _ _ main_arg4 (by decide),
        (Pipeline.withArrays_arr spec1 launch1.win.arr_inj c _ _ 1).trans e1⟩
    isplitl [H0 H1 H2 H3 Hrest]
    · iapply hjoin
      isplitl [H0 H1 H2 H3]
      · unfold Pipeline.RDat.arrays
        rw [bigSep_W1]
        isplitl [H0]; · iexact H0
        isplitl [H1]; · iexact H1
        isplitl [H2]; · iexact H2
        iexact H3
      iexact Hrest
    isplitl [HY]; · iexact HY
    unfold Pipeline.RDat.owesAt Pipeline.owesWithin
    icases HO with ⟨%Wt, -, HO⟩; iexists Wt; iexact HO

set_option backward.isDefEq.respectTransparency.types false in
/-- Region 1 from the unscoped buffers at any valuation, under any continuation: it leaves them at SOME
    valuation that keeps the arguments (the region rule at this record, the pipeline's ghost state spent). -/
theorem region_step1 (c : Dev nD) {α : Type}
    (k : PUnit → Prog (TpuEff nD τ sig (Elt F) (Pipeline.Sig Λ₀ (Fin 4) fun p => (pcfgs (F := F) p).Adm) .tc) α) (Q : α → sProp 𝕄) :
    iprop((iprop(boundary (c : Thread nD τ) ∗ (∃ W' : Valuation τ sig (Elt F), ⌜Keeps W' (W c)⌝ ∗ StableHlo.held (c : Thread nD τ) (Pipeline.ucRefs τ sig) W' ∗ R c))
            -∗ wp frame (wpE (Pipeline.defs (pcfgs (F := F)) defs₀) (Variants.lift 𝒱₀) (c : Thread nD τ) none) Set.univ (k ⟨⟩) Q)
        ∗ boundary (c : Thread nD τ) ∗ (StableHlo.held (c : Thread nD τ) (Pipeline.ucRefs τ sig) (W c) ∗ R c) ∗ levAts L lv
        ∗ Pipeline.cellsGhost (Pipeline.pin (pcfgs (F := F)) adm) emb₁ 1 c ∗ Pipeline.toksInit (Pipeline.pin (pcfgs (F := F)) adm) emb₁ 1 c)
      ⊢ wp frame (wpE (Pipeline.defs (pcfgs (F := F)) defs₀) (Variants.lift 𝒱₀) (c : Thread nD τ) none) Set.univ (.op (.customCall (Pipeline.entry 1) ()) k) Q :=
  Pipeline.RDat.RegionSeg.wp (pcfgs (F := F)) adm (rdats W) () cellOf_inj emb₁ defs₀ 𝒱₀ L lv (rreg1 W) c none (fun u h => nomatch h) k Q

set_option backward.isDefEq.respectTransparency.types false in
/-- Region 2 as a segment: entered with every unscoped buffer at `W`, left with them at SOME valuation that
    keeps the arguments and region 0's result as they were. -/
def rreg2 : Pipeline.RDat.RegionSeg (pcfgs (F := F)) adm (rdats W) () defs₀ 𝒱₀ L lv 2 where
  win := launch2.win.to₀
  block_pos := launch2.block_pos
  stage_whole := launch2.stage_whole
  K := PEmpty
  osem k := k.elim
  ho := Pipeline.OwnSemFacts.none _
  hbody c := rbody2 (fun c b => W c b) c
  hwaits := Pipeline.RDat.hwaits_of_owed_zero _ _ _ _ L lv 2 fun _ _ => rfl
  pre c := iprop(StableHlo.held (c : Thread nD τ) (Pipeline.ucRefs τ sig) (W c) ∗ R c)
  post c := iprop(∃ W' : Valuation τ sig (Elt F), ⌜Keeps W' (W c)⌝ ∗ StableHlo.held (c : Thread nD τ) (Pipeline.ucRefs τ sig) W' ∗ R c)
  X c := iprop(∃ r, prngReg c r)
  Y c := iprop(∃ r, prngReg c r)
  Z c := Pipeline.unscopedRest (Ix := Unit) (Name := ℕ) (U := UR sig nD τ) (Lvl := ℕ) spec2 c (fun b => W c b)
  hentry c := by
    rw [Pipeline.ownSems0_none]
    have hsplit := Pipeline.RDat.arrays_of_unscopedBufs (p := 2) (pcfgs (F := F)) adm (rdats W) launch2.win launch2.arr_whole c
      ((rdats W 2 c).share_full fun _ => rfl) (fun b => W c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wt, HO⟩; iexists Wt; isplitr; · ipureintro; exact fun _ _ => Or.inl trivial
      iexact HO
    isplitl [Hp]; · iexact Hp
    iexact Hrest
  hin c := by
    rw [show (rdats W 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats W 2 c).Φ (Fin.last _) = Pipeline.ΦA spec2 c from rfl]; unfold Pipeline.ΦA
    iintro ⟨Hr, Hp⟩
    isplitl [Hp]; · iexact Hp
    isplitr; · iempintro
    iexact Hr
  hexit c := by
    unfold Pipeline.RDat.arraysAt
    rw [bigSep_W2]
    iintro ⟨⟨⟨%A0, %h0, H0⟩, ⟨%A1, %h1, H1⟩, ⟨%A2, %h2, H2⟩⟩, HO, HY, Hrest⟩
    let A : (w : Fin cfg2.W) → Buf (Elt F) ((cfg2.win w).arr.view.loc (c : Thread nD τ)) := fun w => match w with
      | ⟨0, _⟩ => A0 | ⟨1, _⟩ => A1 | ⟨2, _⟩ => A2
    have hjoin := unscopedBufs_of_rarrays W (p := 2) launch2.win launch2.arr_whole c ((rdats W 2 c).share_full fun _ => rfl)
      (fun b => W c b) (fun b => Pipeline.withArrays spec2 c (W c) A b) A
      (fun w => (Pipeline.withArrays_arr spec2 launch2.win.arr_inj c _ _ w).symm)
      (fun b hb => Pipeline.withArrays_of_ne spec2 c _ _ b fun w e => hb (Finset.mem_image.mpr ⟨w, Finset.mem_univ _, e⟩))
    rw [Pipeline.unscopedBufs_held] at hjoin
    have e0 : A0 = W c (Proc.devRef .tc (Pipeline.arrRef spec2 0)) := by
      have := h0; rw [Pipeline.RDat.ArrAt_in _ 0 rfl] at this; exact this
    imodintro
    iexists (Pipeline.withArrays spec2 c (W c) A)
    isplitr
    · ipureintro
      exact ⟨Pipeline.withArrays_of_ne spec2 c _ _ main_arg0 (by decide),
        (Pipeline.withArrays_arr spec2 launch2.win.arr_inj c _ _ 0).trans e0,
        Pipeline.withArrays_of_ne spec2 c _ _ main_arg2 (by decide),
        Pipeline.withArrays_of_ne spec2 c _ _ main_arg3 (by decide),
        Pipeline.withArrays_of_ne spec2 c _ _ main_arg4 (by decide),
        Pipeline.withArrays_of_ne spec2 c _ _ main_call0_v0 (by decide)⟩
    isplitl [H0 H1 H2 Hrest]
    · iapply hjoin
      isplitl [H0 H1 H2]
      · unfold Pipeline.RDat.arrays
        rw [bigSep_W2]
        isplitl [H0]; · iexact H0
        isplitl [H1]; · iexact H1
        iexact H2
      iexact Hrest
    isplitl [HY]; · iexact HY
    unfold Pipeline.RDat.owesAt Pipeline.owesWithin
    icases HO with ⟨%Wt, -, HO⟩; iexists Wt; iexact HO

set_option backward.isDefEq.respectTransparency.types false in
/-- Region 2 from the unscoped buffers at any valuation, under any continuation: it leaves them at SOME
    valuation that keeps the arguments (the region rule at this record, the pipeline's ghost state spent). -/
theorem region_step2 (c : Dev nD) {α : Type}
    (k : PUnit → Prog (TpuEff nD τ sig (Elt F) (Pipeline.Sig Λ₀ (Fin 4) fun p => (pcfgs (F := F) p).Adm) .tc) α) (Q : α → sProp 𝕄) :
    iprop((iprop(boundary (c : Thread nD τ) ∗ (∃ W' : Valuation τ sig (Elt F), ⌜Keeps W' (W c)⌝ ∗ StableHlo.held (c : Thread nD τ) (Pipeline.ucRefs τ sig) W' ∗ R c))
            -∗ wp frame (wpE (Pipeline.defs (pcfgs (F := F)) defs₀) (Variants.lift 𝒱₀) (c : Thread nD τ) none) Set.univ (k ⟨⟩) Q)
        ∗ boundary (c : Thread nD τ) ∗ (StableHlo.held (c : Thread nD τ) (Pipeline.ucRefs τ sig) (W c) ∗ R c) ∗ levAts L lv
        ∗ Pipeline.cellsGhost (Pipeline.pin (pcfgs (F := F)) adm) emb₁ 2 c ∗ Pipeline.toksInit (Pipeline.pin (pcfgs (F := F)) adm) emb₁ 2 c)
      ⊢ wp frame (wpE (Pipeline.defs (pcfgs (F := F)) defs₀) (Variants.lift 𝒱₀) (c : Thread nD τ) none) Set.univ (.op (.customCall (Pipeline.entry 2) ()) k) Q :=
  Pipeline.RDat.RegionSeg.wp (pcfgs (F := F)) adm (rdats W) () cellOf_inj emb₁ defs₀ 𝒱₀ L lv (rreg2 W) c none (fun u h => nomatch h) k Q

set_option backward.isDefEq.respectTransparency.types false in
/-- Region 3 as a segment: entered with every unscoped buffer at `W`, left with them at SOME valuation that
    keeps the arguments and region 0's result as they were. -/
def rreg3 : Pipeline.RDat.RegionSeg (pcfgs (F := F)) adm (rdats W) () defs₀ 𝒱₀ L lv 3 where
  win := launch3.win.to₀
  block_pos := launch3.block_pos
  stage_whole := launch3.stage_whole
  K := PEmpty
  osem k := k.elim
  ho := Pipeline.OwnSemFacts.none _
  hbody c := rbody3 (fun c b => W c b) c
  hwaits := Pipeline.RDat.hwaits_of_owed_zero _ _ _ _ L lv 3 fun _ _ => rfl
  pre c := iprop(StableHlo.held (c : Thread nD τ) (Pipeline.ucRefs τ sig) (W c) ∗ R c)
  post c := iprop(∃ W' : Valuation τ sig (Elt F), ⌜Keeps W' (W c)⌝ ∗ StableHlo.held (c : Thread nD τ) (Pipeline.ucRefs τ sig) W' ∗ R c)
  X c := iprop(∃ r, prngReg c r)
  Y c := iprop(∃ r, prngReg c r)
  Z c := Pipeline.unscopedRest (Ix := Unit) (Name := ℕ) (U := UR sig nD τ) (Lvl := ℕ) spec3 c (fun b => W c b)
  hentry c := by
    rw [Pipeline.ownSems0_none]
    have hsplit := Pipeline.RDat.arrays_of_unscopedBufs (p := 3) (pcfgs (F := F)) adm (rdats W) launch3.win launch3.arr_whole c
      ((rdats W 3 c).share_full fun _ => rfl) (fun b => W c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%Wt, HO⟩; iexists Wt; isplitr; · ipureintro; exact fun _ _ => Or.inl trivial
      iexact HO
    isplitl [Hp]; · iexact Hp
    iexact Hrest
  hin c := by
    rw [show (rdats W 3 c).Φ 0 = Pipeline.ΦA spec3 c from rfl]; unfold Pipeline.ΦA
    iintro ⟨Hp, -, Hr⟩
    isplitl [Hr]; · iexact Hr
    iexact Hp
  hout c := by
    rw [Pipeline.ownSems0_none, show (rdats W 3 c).Φ (Fin.last _) = Pipeline.ΦA spec3 c from rfl]; unfold Pipeline.ΦA
    iintro ⟨Hr, Hp⟩
    isplitl [Hp]; · iexact Hp
    isplitr; · iempintro
    iexact Hr
  hexit c := by
    unfold Pipeline.RDat.arraysAt
    rw [bigSep_W3]
    iintro ⟨⟨⟨%A0, %h0, H0⟩, ⟨%A1, %h1, H1⟩, ⟨%A2, %h2, H2⟩⟩, HO, HY, Hrest⟩
    let A : (w : Fin cfg3.W) → Buf (Elt F) ((cfg3.win w).arr.view.loc (c : Thread nD τ)) := fun w => match w with
      | ⟨0, _⟩ => A0 | ⟨1, _⟩ => A1 | ⟨2, _⟩ => A2
    have hjoin := unscopedBufs_of_rarrays W (p := 3) launch3.win launch3.arr_whole c ((rdats W 3 c).share_full fun _ => rfl)
      (fun b => W c b) (fun b => Pipeline.withArrays spec3 c (W c) A b) A
      (fun w => (Pipeline.withArrays_arr spec3 launch3.win.arr_inj c _ _ w).symm)
      (fun b hb => Pipeline.withArrays_of_ne spec3 c _ _ b fun w e => hb (Finset.mem_image.mpr ⟨w, Finset.mem_univ _, e⟩))
    rw [Pipeline.unscopedBufs_held] at hjoin

    imodintro
    iexists (Pipeline.withArrays spec3 c (W c) A)
    isplitr
    · ipureintro
      exact ⟨Pipeline.withArrays_of_ne spec3 c _ _ main_arg0 (by decide),
        Pipeline.withArrays_of_ne spec3 c _ _ main_arg1 (by decide),
        Pipeline.withArrays_of_ne spec3 c _ _ main_arg2 (by decide),
        Pipeline.withArrays_of_ne spec3 c _ _ main_arg3 (by decide),
        Pipeline.withArrays_of_ne spec3 c _ _ main_arg4 (by decide),
        Pipeline.withArrays_of_ne spec3 c _ _ main_call0_v0 (by decide)⟩
    isplitl [H0 H1 H2 Hrest]
    · iapply hjoin
      isplitl [H0 H1 H2]
      · unfold Pipeline.RDat.arrays
        rw [bigSep_W3]
        isplitl [H0]; · iexact H0
        isplitl [H1]; · iexact H1
        iexact H2
      iexact Hrest
    isplitl [HY]; · iexact HY
    unfold Pipeline.RDat.owesAt Pipeline.owesWithin
    icases HO with ⟨%Wt, -, HO⟩; iexists Wt; iexact HO

set_option backward.isDefEq.respectTransparency.types false in
/-- Region 3 from the unscoped buffers at any valuation, under any continuation: it leaves them at SOME
    valuation that keeps the arguments (the region rule at this record, the pipeline's ghost state spent). -/
theorem region_step3 (c : Dev nD) {α : Type}
    (k : PUnit → Prog (TpuEff nD τ sig (Elt F) (Pipeline.Sig Λ₀ (Fin 4) fun p => (pcfgs (F := F) p).Adm) .tc) α) (Q : α → sProp 𝕄) :
    iprop((iprop(boundary (c : Thread nD τ) ∗ (∃ W' : Valuation τ sig (Elt F), ⌜Keeps W' (W c)⌝ ∗ StableHlo.held (c : Thread nD τ) (Pipeline.ucRefs τ sig) W' ∗ R c))
            -∗ wp frame (wpE (Pipeline.defs (pcfgs (F := F)) defs₀) (Variants.lift 𝒱₀) (c : Thread nD τ) none) Set.univ (k ⟨⟩) Q)
        ∗ boundary (c : Thread nD τ) ∗ (StableHlo.held (c : Thread nD τ) (Pipeline.ucRefs τ sig) (W c) ∗ R c) ∗ levAts L lv
        ∗ Pipeline.cellsGhost (Pipeline.pin (pcfgs (F := F)) adm) emb₁ 3 c ∗ Pipeline.toksInit (Pipeline.pin (pcfgs (F := F)) adm) emb₁ 3 c)
      ⊢ wp frame (wpE (Pipeline.defs (pcfgs (F := F)) defs₀) (Variants.lift 𝒱₀) (c : Thread nD τ) none) Set.univ (.op (.customCall (Pipeline.entry 3) ()) k) Q :=
  Pipeline.RDat.RegionSeg.wp (pcfgs (F := F)) adm (rdats W) () cellOf_inj emb₁ defs₀ 𝒱₀ L lv (rreg3 W) c none (fun u h => nomatch h) k Q

end Records

end Cert.Kernel.Frame

end
-- ==== Proof.KFrame.lean ====
import proofs.«130511_g42314017800419_cont_8to1_b_959_3_alg».proof.Proof.Gen.Kernel.Launch
import proofs.«130511_g42314017800419_cont_8to1_b_959_3_alg».proof.Proof.Gen.Kernel.Skeleton
import proofs.«130511_g42314017800419_cont_8to1_b_959_3_alg».proof.Proof.Gen.Kernel.Points
import proofs.«130511_g42314017800419_cont_8to1_b_959_3_alg».proof.Proof.KRegions

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Body
open Idealize.ShloMosaic.Pipeline (RDat)

variable {F : FTy → Type} [FloatOps F]

local notation "𝕄" => MT nD τ sig Unit (Elt F) ℕ (UR sig nD τ) ℕ

/-! The word-level program runs to its end, faults nowhere and leaves its five arguments as they were.
    Region 0's blocks tile its arrays, so what it leaves is named and it is the launch's region; each later region is
    entered with the unscoped buffers at whatever the items before it left — contents that exist only once those have
    run —, so the regions and host stretches after region 0 are composed one by one in the program logic, each region's
    data chosen when its entry contents are in hand. -/

variable (m : (ℓ : Loc nD τ sig) → Buf (Elt F) ℓ) (ρ : Dev nD → PrngReg)

local notation "𝔻" => Pipeline.defs (pcfgs (F := F)) defs₀
local notation "𝕍" => Variants.lift 𝒱₀

/-- Core `c`'s unscoped buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After region 0: its arrays at what its write-backs leave, every other buffer as launched. -/
def W1 (c : Dev nD) : Valuation τ sig (Elt F) :=
  Pipeline.withArrays spec0 c (W0 m c) fun w => (Cert.Kernel.Reg0.dat (V0 m) c).arrAt w cfg0.N

/-- The launch's data: region 0's exact; the launch reads no other pipeline's entry. -/
def pdats0 : (p : Fin 4) → (c : Dev nD) → Dat τ (Elt F) Unit ℕ (UR sig nD τ) ℕ (Pipeline.pin (pcfgs (F := F)) adm p) c
  | ⟨0, _⟩ => fun c => Cert.Kernel.Reg0.dat (V0 m) c
  | ⟨1, _⟩ => fun c => { A := fun w => V0 m c (Pipeline.arrRef spec1 w), after := fun _ _ => Classical.arbitrary _, Φ := fun _ => Pipeline.ΦA spec1 c, q := fun _ => fullShare, owed := fun _ => 0 }
  | ⟨2, _⟩ => fun c => { A := fun w => V0 m c (Pipeline.arrRef spec2 w), after := fun _ _ => Classical.arbitrary _, Φ := fun _ => Pipeline.ΦA spec2 c, q := fun _ => fullShare, owed := fun _ => 0 }
  | ⟨3, _⟩ => fun c => { A := fun w => V0 m c (Pipeline.arrRef spec3 w), after := fun _ _ => Classical.arbitrary _, Φ := fun _ => Pipeline.ΦA spec3 c, q := fun _ => fullShare, owed := fun _ => 0 }

/-- What follows region 0 in @main. -/
abbrev rest : Prog (TpuEff nD τ sig (Elt F) (Pipeline.Sig Λ₀ (Fin 4) fun p => (pcfgs (F := F) p).Adm) .tc) PUnit :=
  Pipeline.chain [StableHlo.seq hostOps1, Prog.lift (.customCall (Pipeline.entry 1) ()), Prog.lift (.customCall (Pipeline.entry 2) ()),
    StableHlo.seq hostOps3, Prog.lift (.customCall (Pipeline.entry 3) ())]

theorem main_eq (c : Dev nD) : main (F := F) c = .op (.customCall (Pipeline.entry 0) ()) fun _ => rest := by
  rw [main_chain]; rfl

/-! ## One item at a time -/

set_option backward.isDefEq.respectTransparency.types false in
/-- A host stretch, from the unscoped buffers at any valuation to them at the stretch's result. -/
theorem host_step (ops : List (HloOp τ sig (Elt F))) (hsub : ops.Forall fun op => op.bufs ⊆ StableHlo.tcRefs τ sig)
    (hfresh : ops.Forall fun op => op.fresh = ∅) (Wc : Valuation τ sig (Elt F)) (c : Dev nD) {β : Type}
    (k : PUnit → Prog (TpuEff nD τ sig (Elt F) (Pipeline.Sig Λ₀ (Fin 4) fun p => (pcfgs (F := F) p).Adm) .tc) β) (K : β → sProp 𝕄) :
    iprop((iprop(boundary (c : Thread nD τ) ∗ StableHlo.held (c : Thread nD τ) (Pipeline.ucRefs τ sig) (StableHlo.after ops Wc) ∗ R c)
            -∗ wp frame (wpE 𝔻 𝕍 (c : Thread nD τ) none) Set.univ (k ⟨⟩) K)
        ∗ boundary (c : Thread nD τ) ∗ (StableHlo.held (c : Thread nD τ) (Pipeline.ucRefs τ sig) Wc ∗ R c) ∗ levAts L lv)
      ⊢ wp frame (wpE 𝔻 𝕍 (c : Thread nD τ) none) Set.univ (StableHlo.seq ops >>= k) K :=
  (Pipeline.HostSeg.ofOps (pcfgs (F := F)) defs₀ 𝒱₀ L lv (Pipeline.ucRefs τ sig) ops
    (fun op h => Pipeline.sub_ucRefs op ((List.forall_iff_forall_mem.mp hsub) op h))
    (fun op h => (List.forall_iff_forall_mem.mp hfresh) op h) (fun _ => Wc) R).run c k K

/-- The other three pipelines' ghost state, one by one. -/
theorem restGhost_eq (c : Dev nD) :
    (Pipeline.restGhost (pcfgs (F := F)) adm 0 (emb₁ : Emb (UR sig nD τ) 𝕄) c : sProp 𝕄)
      = iprop((Pipeline.cellsGhost (Pipeline.pin (pcfgs (F := F)) adm) emb₁ 1 c ∗ Pipeline.toksInit (Pipeline.pin (pcfgs (F := F)) adm) emb₁ 1 c)
          ∗ (Pipeline.cellsGhost (Pipeline.pin (pcfgs (F := F)) adm) emb₁ 2 c ∗ Pipeline.toksInit (Pipeline.pin (pcfgs (F := F)) adm) emb₁ 2 c)
          ∗ (Pipeline.cellsGhost (Pipeline.pin (pcfgs (F := F)) adm) emb₁ 3 c ∗ Pipeline.toksInit (Pipeline.pin (pcfgs (F := F)) adm) emb₁ 3 c)) := by
  unfold Pipeline.restGhost Pipeline.PerCore.restGhost
  rw [bigSep_eq_bigSepL_of_eq [(1 : Fin 4), 2, 3] (by decide) (by decide)]
  rfl

/-! ## After region 0 -/

/-- The three arguments that are no array of region 0, at a valuation, are the launch's. -/
def ArgsAt (c : Dev nD) (W' : Valuation τ sig (Elt F)) : Prop :=
  W' (Proc.devRef .tc main_arg1) = m ((c : Thread nD τ).loc main_arg1)
  ∧ W' (Proc.devRef .tc main_arg3) = m ((c : Thread nD τ).loc main_arg3)
  ∧ W' (Proc.devRef .tc main_arg4) = m ((c : Thread nD τ).loc main_arg4)

/-- What is read at the end beside region 0's arrays: the buffers that are none of them, at some valuation that has
    the three arguments among them as launched. -/
abbrev Zend (c : Dev nD) : sProp 𝕄 :=
  iprop(∃ W' : Valuation τ sig (Elt F), ⌜ArgsAt m c W'⌝
    ∗ Pipeline.unscopedRest (Ix := Unit) (Name := ℕ) (U := UR sig nD τ) (Lvl := ℕ) spec0 c (fun b => W' b))

theorem W1_arr (c : Dev nD) (w : Fin cfg0.W) :
    W1 m c (Proc.devRef .tc (Pipeline.arrRef spec0 w)) = (Cert.Kernel.Reg0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- Region 0's arrays at what it left and the other buffers as launched are every unscoped buffer at `W1`. -/
theorem held_W1 (c : Dev nD) :
    iprop((bigSep Finset.univ fun w => (((c : Thread nD τ).loc (Pipeline.arrRef spec0 w)) ↦{fullShare} (pdats0 m 0 c).arrAt w cfg0.N : sProp 𝕄))
        ∗ Pipeline.unscopedRest (Ix := Unit) (Name := ℕ) (U := UR sig nD τ) (Lvl := ℕ) spec0 c (V0 m c))
      ⊢ (StableHlo.held (c : Thread nD τ) (Pipeline.ucRefs τ sig) (W1 m c) : sProp 𝕄) := by
  rw [← Pipeline.unscopedBufs_held c (W1 m c),
    Pipeline.unscopedBufs_split (Pipeline.pin (pcfgs (F := F)) adm) 0 launch0.win.arr_unscoped launch0.win.arr_inj c (fun b => W1 m c b)]
  refine sep_mono (Entails.of_eq (bigSep_congr fun w _ =>
    congrArg (fun v => (((c : Thread nD τ).loc (Pipeline.arrRef spec0 w)) ↦{fullShare} v : sProp 𝕄)) (W1_arr m c w).symm)) (Entails.of_eq ?_)
  unfold Pipeline.unscopedRest
  exact bigSep_congr fun b hb =>
    congrArg (fun v => (((c : Thread nD τ).loc b) ↦{fullShare} v : sProp 𝕄))
      (W1_of_ne m c b fun w e => (Finset.mem_sdiff.mp hb).2 (Finset.mem_image.mpr ⟨w, Finset.mem_univ _, e⟩)).symm

/-- Every unscoped buffer at a valuation that keeps region 0's arrays is those arrays at what region 0 left and the
    other buffers at that valuation. -/
theorem split_end (c : Dev nD) (W' : Valuation τ sig (Elt F)) (hk : Keeps W' (W1 m c)) :
    (StableHlo.held (c : Thread nD τ) (Pipeline.ucRefs τ sig) W' : sProp 𝕄)
      ⊢ iprop((bigSep Finset.univ fun w => (((c : Thread nD τ).loc (Pipeline.arrRef spec0 w)) ↦{fullShare} (pdats0 m 0 c).arrAt w cfg0.N : sProp 𝕄))
          ∗ Pipeline.unscopedRest (Ix := Unit) (Name := ℕ) (U := UR sig nD τ) (Lvl := ℕ) spec0 c (fun b => W' b)) := by
  have e : ∀ w : Fin cfg0.W, W' (Proc.devRef .tc (Pipeline.arrRef spec0 w)) = (pdats0 m 0 c).arrAt w cfg0.N := fun w => match w with
    | ⟨0, _⟩ => hk.1.trans (W1_arr m c 0)
    | ⟨1, _⟩ => hk.2.2.1.trans (W1_arr m c 1)
    | ⟨2, _⟩ => hk.2.2.2.2.2.trans (W1_arr m c 2)
  rw [← Pipeline.unscopedBufs_held c W',
    Pipeline.unscopedBufs_split (Pipeline.pin (pcfgs (F := F)) adm) 0 launch0.win.arr_unscoped launch0.win.arr_inj c (fun b => W' b)]
  exact sep_mono (Entails.of_eq (bigSep_congr fun w _ =>
    congrArg (fun v => (((c : Thread nD τ).loc (Pipeline.arrRef spec0 w)) ↦{fullShare} v : sProp 𝕄)) (e w))) .rfl

/-- Neither host stretch writes an argument or region 0's result. -/
theorem keeps_host1 (Wc : Valuation τ sig (Elt F)) : Keeps (StableHlo.after hostOps1 Wc) Wc :=
  ⟨StableHlo.after_of_writes_sub hostOps1 _ hostOps1_writes (r := main_arg0) (by decide),
    StableHlo.after_of_writes_sub hostOps1 _ hostOps1_writes (r := main_arg1) (by decide),
    StableHlo.after_of_writes_sub hostOps1 _ hostOps1_writes (r := main_arg2) (by decide),
    StableHlo.after_of_writes_sub hostOps1 _ hostOps1_writes (r := main_arg3) (by decide),
    StableHlo.after_of_writes_sub hostOps1 _ hostOps1_writes (r := main_arg4) (by decide),
    StableHlo.after_of_writes_sub hostOps1 _ hostOps1_writes (r := main_call0_v0) (by decide)⟩
theorem keeps_host3 (Wc : Valuation τ sig (Elt F)) : Keeps (StableHlo.after hostOps3 Wc) Wc :=
  ⟨StableHlo.after_of_writes_sub hostOps3 _ hostOps3_writes (r := main_arg0) (by decide),
    StableHlo.after_of_writes_sub hostOps3 _ hostOps3_writes (r := main_arg1) (by decide),
    StableHlo.after_of_writes_sub hostOps3 _ hostOps3_writes (r := main_arg2) (by decide),
    StableHlo.after_of_writes_sub hostOps3 _ hostOps3_writes (r := main_arg3) (by decide),
    StableHlo.after_of_writes_sub hostOps3 _ hostOps3_writes (r := main_arg4) (by decide),
    StableHlo.after_of_writes_sub hostOps3 _ hostOps3_writes (r := main_call0_v0) (by decide)⟩

/-- What follows region 0, item by item: each region's call continued by the items after it. -/
theorem rest_eq : (rest (F := F)) = (StableHlo.seq hostOps1 >>= fun _ => Prog.op (.customCall (Pipeline.entry 1) ()) fun _ =>
    Prog.op (.customCall (Pipeline.entry 2) ()) fun _ => (StableHlo.seq hostOps3 >>= fun _ =>
      Prog.op (.customCall (Pipeline.entry 3) ()) fun _ => Prog.ret ⟨⟩)) := by
  chain_rfl

set_option backward.isDefEq.respectTransparency.types false in
set_option maxHeartbeats 1000000 in
/-- From region 0's exit — its arrays at what it left, the other unscoped buffers as launched, the other pipelines'
    ghost state — the rest of @main runs, and hands back region 0's arrays as they were, the other buffers at some
    valuation with the arguments as launched, and the core owing nothing. -/
theorem tail (c : Dev nD) (Q' : PUnit → sProp 𝕄) :
    iprop((iprop((bigSep Finset.univ fun w => (((c : Thread nD τ).loc (Pipeline.arrRef spec0 w)) ↦{fullShare} (pdats0 m 0 c).arrAt w cfg0.N : sProp 𝕄))
              ∗ (∃ r, prngReg c r) ∗ Zend m c ∗ (∃ Wt, owes (c : Thread nD τ) (0 : CellTallies nD τ sig Unit) Wt)) -∗ Q' ⟨⟩)
          ∗ boundary (c : Thread nD τ)
          ∗ (bigSep Finset.univ fun w => (((c : Thread nD τ).loc (Pipeline.arrRef spec0 w)) ↦{fullShare} (pdats0 m 0 c).arrAt w cfg0.N : sProp 𝕄))
          ∗ (∃ r, prngReg c r)
          ∗ Pipeline.unscopedRest (Ix := Unit) (Name := ℕ) (U := UR sig nD τ) (Lvl := ℕ) spec0 c (V0 m c)
          ∗ (pdats0 m 0 c).owesAt () (Fin.last cfg0.N) ∗ levAts L lv ∗ Pipeline.restGhost (pcfgs (F := F)) adm 0 emb₁ c)
      ⊢ wp frame (wpE 𝔻 𝕍 (c : Thread nD τ) none) Set.univ (rest (F := F)) Q' := by
  rw [restGhost_eq]
  iintro ⟨Hk, Hbd, Harr, HY, HZ, HO, #Hla, ⟨Hg1, Ht1⟩, ⟨Hg2, Ht2⟩, ⟨Hg3, Ht3⟩⟩
  ihave Hh := (held_W1 m c) $$ [Harr HZ]
  · isplitl [Harr] <;> iassumption
  ihave HO' := (show (pdats0 m 0 c).owesAt () (Fin.last cfg0.N) ⊢ (iprop(∃ Wt, owes (c : Thread nD τ) (0 : CellTallies nD τ sig Unit) Wt) : sProp 𝕄) from by
      unfold Pipeline.Dat.owesAt Pipeline.owesWithin; iintro ⟨%Wt, -, HO⟩; iexists Wt; iexact HO) $$ HO
  rw [rest_eq]
  -- the first host stretch, from W1
  iapply (host_step hostOps1 hostOps1_sub hostOps1_fresh (W1 m c) c _ Q')
  isplitr [Hbd Hh HY HO']
  swap
  · isplitl [Hbd]; · iexact Hbd
    isplitl [Hh HY HO']
    · isplitl [Hh]; · iexact Hh
      isplitl [HY]; · iexact HY
      iexact HO'
    iexact Hla
  iintro ⟨Hbd, Hh, HR⟩
  -- region 1, entered at what the stretch left
  iapply (region_step1 (fun _ => StableHlo.after hostOps1 (W1 m c)) c _ Q')
  isplitr [Hbd Hh HR Hg1 Ht1]
  swap
  · isplitl [Hbd]; · iexact Hbd
    isplitl [Hh HR]; · isplitl [Hh] <;> iassumption
    isplitr; · iexact Hla
    isplitl [Hg1] <;> iassumption
  iintro ⟨Hbd, %W3, %hk3, Hh, HR⟩
  -- region 2, entered at what region 1 left
  iapply (region_step2 (fun _ => W3) c _ Q')
  isplitr [Hbd Hh HR Hg2 Ht2]
  swap
  · isplitl [Hbd]; · iexact Hbd
    isplitl [Hh HR]; · isplitl [Hh] <;> iassumption
    isplitr; · iexact Hla
    isplitl [Hg2] <;> iassumption
  iintro ⟨Hbd, %W4, %hk4, Hh, HR⟩
  -- the second host stretch
  iapply (host_step hostOps3 hostOps3_sub hostOps3_fresh W4 c _ Q')
  isplitr [Hbd Hh HR]
  swap
  · isplitl [Hbd]; · iexact Hbd
    isplitl [Hh HR]; · isplitl [Hh] <;> iassumption
    iexact Hla
  iintro ⟨Hbd, Hh, HR⟩
  -- region 3
  iapply (region_step3 (fun _ => StableHlo.after hostOps3 W4) c _ Q')
  isplitr [Hbd Hh HR Hg3 Ht3]
  swap
  · isplitl [Hbd]; · iexact Hbd
    isplitl [Hh HR]; · isplitl [Hh] <;> iassumption
    isplitr; · iexact Hla
    isplitl [Hg3] <;> iassumption
  iintro ⟨Hbd, %W6, %hk6, Hh, HR⟩
  -- the return: region 0's arrays are as it left them, the arguments as launched
  have hk : Keeps W6 (W1 m c) :=
    hk6.trans ((keeps_host3 W4).trans (hk4.trans (hk3.trans (keeps_host1 (W1 m c)))))
  rw [wp_ret]
  imodintro
  iapply Hk
  ihave Hs := (split_end m c W6 hk) $$ Hh
  icases Hs with ⟨Harr, Hrest⟩
  icases HR with ⟨HY, HO⟩
  isplitl [Harr]; · iexact Harr
  isplitl [HY]; · iexact HY
  isplitl [Hrest]
  · iexists W6
    isplitr
    · ipureintro
      exact ⟨hk.2.1.trans (W1_of_ne m c main_arg1 (by decide)), hk.2.2.2.1.trans (W1_of_ne m c main_arg3 (by decide)),
        hk.2.2.2.2.1.trans (W1_of_ne m c main_arg4 (by decide))⟩
    iexact Hrest
  iexact HO

/-! ## The launch -/

set_option backward.isDefEq.respectTransparency.types false in
set_option maxHeartbeats 1000000 in
/-- THE FRAME: from any memory with zero counters, every weakly fair execution of @main terminates, nothing
    faulting, and every final memory holds the five arguments as launched. Region 0 is the launch's region (its
    arrays named); what follows it is `tail`; `x` and `W1` are region 0's input arrays, read back through what it
    leaves, and `adj`, `W2`, `W3` are among the buffers the tail hands back at a valuation that keeps them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_owing_pf_tail (pcfgs (F := F)) adm (pdats0 m) () cellOf_inj (0 : Fin 4) launch0.win.to₀
    (Pipeline.OwnSemFacts.none _) (Pipeline.PreFacts.none _) emb₁ defs₀ 𝒱₀ m ρ main (fun _ => rest)
    (hmain := main_eq)
    (hbody := fun c => (Cert.Kernel.Reg0.body_obligation (V0 m) c).loose)
    (hne := launch0.block_pos) (harr := launch0.arr_whole) (hstage := launch0.stage_whole)
    (hshare := fun c => (pdats0 m 0 c).share_full fun _ => rfl) (hdistinct := launch0.win.arr_inj)
    (O₀ := fun _ => 0) (howed₀ := fun _ => rfl) (L := L) (lv := lv) (hL := fun _ _ => rfl)
    (hwaits := Pipeline.hwaits_of_owed_zero _ _ _ _ L lv 0 fun _ _ => rfl)
    (G := fun _ => iprop(emp)) (G' := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (hglob := by
      iintro -; imodintro
      iapply (show (BI.emp : sProp 𝕄) ⊢ bigSep Finset.univ (fun _ : Dev nD => (BI.emp : sProp 𝕄)) from by rw [BI.bigSep_emp_const])
      iempintro)
    (hA := fun _ _ => rfl) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V0 m c))
    (Y' := fun c => iprop(∃ r, prngReg c r)) (Z' := Zend m)
    (hX := fun c => by
      rw [Pipeline.unscopedRestP_none]
      iintro ⟨Hr, -, -, -, Hp, -⟩
      imodintro
      isplitl [Hp]; · iexists _; iexact Hp
      iexact Hr)
    (hin := fun c => by
      rw [show (pdats0 m 0 c).Φ 0 = Pipeline.ΦA spec0 c from rfl]; unfold Pipeline.ΦA
      iintro ⟨Hp, -, Hr⟩
      isplitl [Hr]; · iexact Hr
      iexact Hp)
    (hout := fun c => by
      rw [Pipeline.ownSems0_none, show (pdats0 m 0 c).Φ (Fin.last _) = Pipeline.ΦA spec0 c from rfl]; unfold Pipeline.ΦA
      iintro ⟨Hr, Hp⟩
      isplitl [Hp]; · iexact Hp
      isplitr; · iempintro
      iexact Hr)
    (htail := fun c Q' => tail m c Q')
    (QY := fun c s => s.mem ((c.tc : Thread nD τ).loc main_arg1) = m ((c.tc : Thread nD τ).loc main_arg1)
      ∧ s.mem ((c.tc : Thread nD τ).loc main_arg3) = m ((c.tc : Thread nD τ).loc main_arg3)
      ∧ s.mem ((c.tc : Thread nD τ).loc main_arg4) = m ((c.tc : Thread nD τ).loc main_arg4))
    (hY := fun c s' => by
      iintro ⟨-, ⟨%W', %ha, Hrest⟩, HSI⟩
      unfold Pipeline.unscopedRest
      ihave Hr := (pointsTo_read_all _ (fun b : Ref sig .tc => (c : Thread nD τ).loc b) (fun b => W' b) s') $$ [Hrest HSI]
      · isplitl [Hrest] <;> iassumption
      icases Hr with ⟨%h, HSI⟩
      imodintro
      isplitr
      · ipureintro
        exact ⟨(h main_arg1 (by decide)).trans ha.1, (h main_arg3 (by decide)).trans ha.2.1, (h main_arg4 (by decide)).trans ha.2.2⟩
      iexact HSI)
    (hQ := fun s h c =>
      ⟨((h c).1 0).trans ((Cert.Kernel.Reg0.dat (V0 m) c).arrAt_in 0 rfl _), (h c).2.2.1,
        ((h c).1 1).trans ((Cert.Kernel.Reg0.dat (V0 m) c).arrAt_in 1 rfl _), (h c).2.2.2.1, (h c).2.2.2.2⟩)

end Cert.Kernel.Frame

end
-- ==== Proof.Body.lean ====
import proofs.«130511_g42314017800419_cont_8to1_b_959_3_alg».proof.Proof.Gen.KernelIdeal.Launch
import proofs.«130511_g42314017800419_cont_8to1_b_959_3_alg».proof.Proof.Gen.KernelIdeal.Skeleton
import proofs.«130511_g42314017800419_cont_8to1_b_959_3_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! Each kernel body reads its input staging buffers whole, computes one value from them and stores it over
    the whole output staging buffer: from the inputs at any contents and the output at anything, it leaves
    the inputs as they were and the output at that value of the inputs' contents. -/

theorem sound_kernel0 (c : Dev nD) (E : Set ℕ) (i : grid0.Coords)
    (a1 : Memref sig .tc .vmem S2000x128 .f32) (h1 : a1.IsWhole) (a2 : Memref sig .tc .vmem S128x64 .f32) (h2 : a2.IsWhole)
    (a3 : Memref sig .tc .vmem S2000x64 .bf16) (h3 : a3.IsWhole)
    (x1 : Vec F S2000x128 .f32) (x2 : Vec F S128x64 .f32) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k0_pay1 x1 x2)) -∗ K ⟨⟩))
      ⊢ wp frame (wpE (defs₀ (F := F)) Variants.none c none) E (cc0__small_matmul_body i a1 h1 a2 h2 a3 h3) K := by
  simp only [cc0__small_matmul_body_eq_skeleton]; unfold cc0__small_matmul_body_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S2000x64) hz inb_S2000x64_S2000x64_0_0 y⟩
  rw [View.canon_unit_zero (S := S2000x64) hz]
  rw [View.readAt_eq_ld, View.ld_unit_zero (S := S2000x128) hz]
  rw [View.readAt_eq_ld, View.ld_unit_zero (S := S128x64) hz]

theorem sound_kernel1 (c : Dev nD) (E : Set ℕ) (i : grid1.Coords)
    (a1 : Memref sig .tc .vmem S256x10000 .f32) (h1 : a1.IsWhole) (a2 : Memref sig .tc .vmem S10000x64 .bf16) (h2 : a2.IsWhole)
    (a3 : Memref sig .tc .vmem S64x64 .bf16) (h3 : a3.IsWhole) (a4 : Memref sig .tc .vmem S256x64 .bf16) (h4 : a4.IsWhole)
    (x1 : Vec F S256x10000 .f32) (x2 : Vec F S10000x64 .bf16) (x3 : Vec F S64x64 .bf16) (K : PUnit → sProp 𝕄) :
    iprop(owns (c : Thread nD τ) a1 fullShare x1 ∗ owns (c : Thread nD τ) a2 fullShare x2 ∗ owns (c : Thread nD τ) a3 fullShare x3
        ∗ (∃ d, owns (c : Thread nD τ) a4 fullShare d)
        ∗ (iprop(owns (c : Thread nD τ) a1 fullShare x1 ∗ owns (c : Thread nD τ) a2 fullShare x2 ∗ owns (c : Thread nD τ) a3 fullShare x3
            ∗ owns (c : Thread nD τ) a4 fullShare (k1_pay1 x1 x2 x3)) -∗ K ⟨⟩))
      ⊢ wp frame (wpE (defs₀ (F := F)) Variants.none c none) E (cc1__adj_pass1_body i a1 h1 a2 h2 a3 h3 a4 h4) K := by
  simp only [cc1__adj_pass1_body_eq_skeleton]; unfold cc1__adj_pass1_body_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S256x64) hz inb_S256x64_S256x64_0_0 y⟩
  rw [View.canon_unit_zero (S := S256x64) hz]
  rw [View.readAt_eq_ld, View.ld_unit_zero (S := S256x10000) hz]
  rw [View.readAt_eq_ld, View.ld_unit_zero (S := S10000x64) hz]
  rw [View.readAt_eq_ld, View.ld_unit_zero (S := S64x64) hz]

theorem sound_kernel2 (c : Dev nD) (E : Set ℕ) (i : grid2.Coords)
    (a1 : Memref sig .tc .vmem S256x10000 .f32) (h1 : a1.IsWhole) (a2 : Memref sig .tc .vmem S10000x64 .bf16) (h2 : a2.IsWhole)
    (a3 : Memref sig .tc .vmem S256x64 .f32) (h3 : a3.IsWhole)
    (x1 : Vec F S256x10000 .f32) (x2 : Vec F S10000x64 .bf16) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k2_pay1 x1 x2)) -∗ K ⟨⟩))
      ⊢ wp frame (wpE (defs₀ (F := F)) Variants.none c none) E (cc2__adj_pass2_body i a1 h1 a2 h2 a3 h3) K := by
  simp only [cc2__adj_pass2_body_eq_skeleton]; unfold cc2__adj_pass2_body_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S256x64) hz inb_S256x64_S256x64_0_0 y⟩
  rw [View.canon_unit_zero (S := S256x64) hz]
  rw [View.readAt_eq_ld, View.ld_unit_zero (S := S256x10000) hz]
  rw [View.readAt_eq_ld, View.ld_unit_zero (S := S10000x64) hz]

theorem sound_kernel3 (c : Dev nD) (E : Set ℕ) (i : grid3.Coords)
    (a1 : Memref sig .tc .vmem S512x32 .f32) (h1 : a1.IsWhole) (a2 : Memref sig .tc .vmem S32x2048 .f32) (h2 : a2.IsWhole)
    (a3 : Memref sig .tc .vmem S512x2048 .f32) (h3 : a3.IsWhole)
    (x1 : Vec F S512x32 .f32) (x2 : Vec F S32x2048 .f32) (K : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2
            ∗ owns (c : Thread nD τ) a3 fullShare (k3_pay1 x1 x2)) -∗ K ⟨⟩))
      ⊢ wp frame (wpE (defs₀ (F := F)) Variants.none c none) E (cc3__recon_body i a1 h1 a2 h2 a3 h3) K := by
  simp only [cc3__recon_body_eq_skeleton]; unfold cc3__recon_body_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := by funext a; fin_cases a <;> rfl
  refine (View.read_writes_eq_canon _ _ _ ?_).trans ?_
  · intro y
    exact ⟨_, List.mem_singleton_self _, View.mem_set_unit_zero (S := S512x2048) hz inb_S512x2048_S512x2048_0_0 y⟩
  rw [View.canon_unit_zero (S := S512x2048) hz]
  rw [View.readAt_eq_ld, View.ld_unit_zero (S := S512x32) hz]
  rw [View.readAt_eq_ld, View.ld_unit_zero (S := S32x2048) hz]

end Cert.KernelIdeal.Body

end
-- ==== Proof.Reg0.lean ====
import proofs.«130511_g42314017800419_cont_8to1_b_959_3_alg».proof.Proof.Gen.KernelIdeal.Launch
import proofs.«130511_g42314017800419_cont_8to1_b_959_3_alg».proof.Proof.Gen.KernelIdeal.Skeleton
import proofs.«130511_g42314017800419_cont_8to1_b_959_3_alg».proof.Proof.Gen.KernelIdeal.Points
import proofs.«130511_g42314017800419_cont_8to1_b_959_3_alg».proof.Proof.Body
import Idealize.ShloMosaic.Lib.Pipeline.FrameBody
import Idealize.ShloMosaic.Lib.Pipeline.Frame
import Idealize.ShloMosaic.Lib.Pipeline.Value
import Idealize.ShloMosaic.Lib.Tactic

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Body

variable {F : FTy → Type} [FloatOps F]

local notation "𝕄" => MT nD τ sig Unit (Elt F) ℕ (UR sig nD τ) ℕ

/-! Region 0 at any float instance: 5 blocks of 2000 rows of `x`, which tile the array. Point `t` leaves in
    the output's staging buffer the body's value of its block of `x` and of the whole `W1`. -/

variable (V : (c : Dev nD) → (b : Ref sig .tc) → Buf (Elt F) ((c : Thread nD τ).loc b))

/-- Window `w`'s block at point `t`, read off the array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data: the arrays as the region finds them; after the body the inputs' buffers at their blocks and
    the output's at the body's value of them. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

/-- What the body leaves, window by window: the proof data's `match` reduced. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = k0_pay1 (iblk V c 0 t) (iblk V c 1 t) := by dsimp only [dat]

/-- The block of `x` is in its staging buffer at every point: it is fetched there, and the body leaves it in place. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-- The whole `W1` is fetched at the first point only; its block index never moves and the body leaves the
    buffer as it was, so every later point still finds it there. -/
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the two inputs' buffers hold their blocks, the output's buffer holds anything, so the
    body's triple applies; the invariant and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel0 c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dat V c) (defs₀ (F := F)) Variants.none () Set.univ := fun t => by
  rw [bigSep_W0, bigSep_W0]
  exact sound_body V c t

end Cert.KernelIdeal.Reg0

end
-- ==== Proof.Spec.lean ====
import Idealize.ShloMosaic.PureOps.Ideal
import Idealize.ShloMosaic.Lib.ValueIdx

/-!
  The graph auto-encoder as whole-array functions over the extended reals, index by index:
  the hidden features `h = relu (adj · (x · W1))`, the two heads `adj · (h · W2)` and `adj · (h · W3)`
  (carried side by side as the 64 columns of `adj · (h · [W2 | W3])`), and the decoder `mu · muᵀ`.
  Every product is the plain sum over the contracted axis; nothing here is evaluated.
-/

noncomputable section

namespace Cert.Spec

open Idealize.ShloMosaic Idealize.ShloMosaic.ValueIdx

abbrev A10000x128 := (⟨2, ![10000, 128]⟩ : Shape).Idx → EReal
abbrev A10000x10000 := (⟨2, ![10000, 10000]⟩ : Shape).Idx → EReal
abbrev A128x64 := (⟨2, ![128, 64]⟩ : Shape).Idx → EReal
abbrev A64x32 := (⟨2, ![64, 32]⟩ : Shape).Idx → EReal
abbrev A64x64 := (⟨2, ![64, 64]⟩ : Shape).Idx → EReal
abbrev A10000x64 := (⟨2, ![10000, 64]⟩ : Shape).Idx → EReal
abbrev A10000x32 := (⟨2, ![10000, 32]⟩ : Shape).Idx → EReal
abbrev A32x10000 := (⟨2, ![32, 10000]⟩ : Shape).Idx → EReal

/-- The support `x · W1`: entry (p, q) is the sum over the 128 input features. -/
def support (x : A10000x128) (w1 : A128x64) : A10000x64 :=
  fun i => ∑ k : Fin 128, x (ix2 (i 0) k) * w1 (ix2 k (i 1))

/-- The two heads' weights side by side: columns 0‥31 are `W2`'s, columns 32‥63 are `W3`'s. -/
def heads (w2 w3 : A64x32) : A64x64 :=
  fun i =>
    have hq : (i 1).val < 64 := (i 1).isLt
    if h : (i 1).val < 32 then w2 (ix2 (i 0) ⟨(i 1).val, h⟩)
    else w3 (ix2 (i 0) ⟨(i 1).val - 32, by omega⟩)

/-- The hidden layer `relu (adj · s)`: the larger of the aggregated support and zero. -/
def hidden (adj : A10000x10000) (s : A10000x64) : A10000x64 :=
  fun i => max (∑ k : Fin 10000, adj (ix2 (i 0) k) * s (ix2 k (i 1))) 0

/-- The hidden layer through a 64-column weight: `h · W`. -/
def project (h : A10000x64) (w : A64x64) : A10000x64 :=
  fun i => ∑ k : Fin 64, h (ix2 (i 0) k) * w (ix2 k (i 1))

/-- Aggregation over the graph: `adj · s` for a 64-column `s`. -/
def aggregate (adj : A10000x10000) (s : A10000x64) : A10000x64 :=
  fun i => ∑ k : Fin 10000, adj (ix2 (i 0) k) * s (ix2 k (i 1))

/-- The first head: columns 0‥31. -/
def headMu (ml : A10000x64) : A10000x32 :=
  fun i =>
    have hq : (i 1).val < 32 := (i 1).isLt
    ml (ix2 (i 0) ⟨(i 1).val, by omega⟩)

/-- The second head: columns 32‥63. -/
def headLogvar (ml : A10000x64) : A10000x32 :=
  fun i =>
    have hq : (i 1).val < 32 := (i 1).isLt
    ml (ix2 (i 0) ⟨32 + (i 1).val, by omega⟩)

/-- The transposed first head. -/
def transposed (mu : A10000x32) : A32x10000 :=
  fun i => mu (ix2 (i 1) (i 0))

/-- The decoder `mu · mut`, a sum over the 32 latent coordinates. -/
def decode (mu : A10000x32) (mt : A32x10000) : A10000x10000 :=
  fun i => ∑ k : Fin 32, mu (ix2 (i 0) k) * mt (ix2 k (i 1))

/-- The pre-activation both programs aggregate twice: `relu (adj · (x · W1)) · [W2 | W3]`. -/
def latentSupport (x : A10000x128) (adj : A10000x10000) (w1 : A128x64) (w2 w3 : A64x32) : A10000x64 :=
  project (hidden adj (support x w1)) (heads w2 w3)

/-- Both heads, as 64 columns. -/
def latent (x : A10000x128) (adj : A10000x10000) (w1 : A128x64) (w2 w3 : A64x32) : A10000x64 :=
  aggregate adj (latentSupport x adj w1 w2 w3)

def mu (x : A10000x128) (adj : A10000x10000) (w1 : A128x64) (w2 w3 : A64x32) : A10000x32 :=
  headMu (latent x adj w1 w2 w3)

def logvar (x : A10000x128) (adj : A10000x10000) (w1 : A128x64) (w2 w3 : A64x32) : A10000x32 :=
  headLogvar (latent x adj w1 w2 w3)

def recon (x : A10000x128) (adj : A10000x10000) (w1 : A128x64) (w2 w3 : A64x32) : A10000x10000 :=
  decode (mu x adj w1 w2 w3) (transposed (mu x adj w1 w2 w3))

end Cert.Spec

end
-- ==== Proof.Reg0Value.lean ====
import proofs.«130511_g42314017800419_cont_8to1_b_959_3_alg».proof.Proof.Reg0
import proofs.«130511_g42314017800419_cont_8to1_b_959_3_alg».proof.Proof.Spec
import Idealize.ShloMosaic.Lib.ValueIdx
import Idealize.ShloMosaic.PureOps.Ideal.Laws

/-! Region 0's output array over the extended reals: the five blocks of `x · W1` piece the whole product together. -/

noncomputable section

namespace Cert.KernelIdeal.Reg0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index

The product contracts the left operand's axis 1 against the right operand's axis 0: at output index `(p, q)` and
contraction coordinate `k` the operands are read at `(p, k)` and `(k, q)`. -/

theorem lhs_dot0_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_dot0_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_dot0_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_dot0_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The body's value at `(p, q)`: over the extended reals the narrowings to the 16-bit format are the identity and the
    product into the zero accumulator is the plain sum over the 128 contracted coordinates. -/
theorem pay_apply (x1 : Vec Ideal S2000x128 .f32) (x2 : Vec Ideal S128x64 .f32) (p : Fin 2000) (q : Fin 64) :
    k0_pay1 (F := Ideal) x1 x2 (ix2 p q) = ∑ k : Fin 128, x1 (ix2 p k) * x2 (ix2 k q) := by
  unfold k0_pay1
  simp only [truncf_apply, matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_dot0_0 _ _
    | ⟨1, _⟩ => exact (lhs_dot0_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_dot0_0 _ _).trans hk
    | ⟨1, _⟩ => exact rhs_dot0_1 _ _)
  rw [truncf_apply, truncf_apply, el, er]

/-! ## The blocks, and where they sit in the arrays -/

/-- The index maps, decided over the five points: the blocks of `x` and of the output are the point's own, on the
    rows; `W1` has the one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is its block of `x · W1`: row `p` of the block is row `2000 t + p` of `x`, against the
    whole `W1`. -/
theorem flushed_eq (c : Dev nD) (t : Fin cfg0.N) :
    (dat (F := Ideal) V c).flushed 2 t
      = ((cfg0.win 2).blk t).view.read (Elt Ideal) (Cert.Spec.support (V c main_arg0) (V c main_arg2)) := by
  show (cfg0.win 2).cut (grid0.coords t) ((dat V c).after 2 t) = _
  rw [after_2]
  obtain ⟨e0, e1, e2, e3, e4, e5⟩ := idx_facts t
  funext y
  obtain ⟨p, q, rfl⟩ : ∃ (p : Fin 2000) (q : Fin 64), y = ix2 p q := ⟨y 0, y 1, eq_ix2 y⟩
  show k0_pay1 (iblk V c 0 t) (iblk V c 1 t) (ix2 p q)
    = Cert.Spec.support (V c main_arg0) (V c main_arg2) (((cfg0.win 2).blk t).view.emb (ix2 p q))
  rw [pay_apply]
  unfold Cert.Spec.support
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  refine congrArg₂ (fun a b : EReal => a * b) ?_ ?_
  · exact congrArg (V c main_arg0) h0
  · exact congrArg (V c main_arg2) h1

/-- An index of the output array lies in point `t`'s block iff each coordinate lies in the block's range. -/
theorem mem_blk (t : Fin cfg0.N) (i : S10000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_call0_v0).slice (win0_2.rect t)).set ↔ _
  rw [View.set_slice_whole, Rect.mem_set_unit]
  exact Iff.rfl

/-- Row `r` of the output lies in the block of point `r / 2000`: the five blocks tile the 10000 rows. -/
theorem cover (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  have hN : cfg0.N = 5 := N_0
  let t : Fin cfg0.N := ⟨(i 0).val / 2000, by rw [hN]; omega⟩
  obtain ⟨e0, e1, e2, e3, e4, e5⟩ := idx_facts t
  have ht : t.val = (i 0).val / 2000 := rfl
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 64 ≤ (i 1).val ∧ (i 1).val < win0_2.index t (1 : Fin 2) * 64 + 64
    omega

/-- The output array after the last write-back: `x · W1` of the arrays the region was entered with. -/
theorem arrAt_out (c : Dev nD) :
    (dat (F := Ideal) V c).arrAt 2 cfg0.N = Cert.Spec.support (V c main_arg0) (V c main_arg2) :=
  (dat (F := Ideal) V c).arrAt_eq_of_cover 2 _ (fun t _ => flushed_eq V c t) cover

end Cert.KernelIdeal.Reg0

end
-- ==== Proof.Reg1.lean ====
import proofs.«130511_g42314017800419_cont_8to1_b_959_3_alg».proof.Proof.Gen.KernelIdeal.Launch
import proofs.«130511_g42314017800419_cont_8to1_b_959_3_alg».proof.Proof.Gen.KernelIdeal.Skeleton
import proofs.«130511_g42314017800419_cont_8to1_b_959_3_alg».proof.Proof.Gen.KernelIdeal.Points
import proofs.«130511_g42314017800419_cont_8to1_b_959_3_alg».proof.Proof.Body
import proofs.«130511_g42314017800419_cont_8to1_b_959_3_alg».proof.Proof.Spec
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Body

local notation "𝕄" => MT nD τ sig Unit (Elt Ideal) ℕ (UR sig nD τ) ℕ

/-! Region 1 over the extended reals: 40 blocks of 256 rows of `adj`, the last reaching 240 rows past the
    array's end. Point `t` leaves in the output's staging buffer `relu (adj_t · s) · w` of its block of
    `adj`; a row of that product reads only the same row of the block, so the 16 rows of the last block that lie
    inside the array do not depend on what fills the buffer past the array's end. -/

variable (V : (c : Dev nD) → (b : Ref sig .tc) → Buf (Elt Ideal) ((c : Thread nD τ).loc b))

/-- Window `w`'s block at point `t`, its part inside the array, read off the array as the region finds it. -/
def iblk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The block of `adj` at point `t` filled out to the staging buffer's 256 rows with zeros. -/
def adjBlk (c : Dev nD) (t : Fin cfg1.N) : Vec Ideal S256x10000 .f32 :=
  win1_0.fill (grid1.coords t) (fun _ => (0 : EReal)) (iblk V c 0 t)

/-- The proof data: the arrays as the region finds them; after the body the inputs' buffers at their blocks and
    the output's at the body's value of them. -/
def dat (c : Dev nD) : Dat τ (Elt Ideal) Unit ℕ (UR sig nD τ) ℕ cfg1 c where
  A w := V c (Pipeline.arrRef spec1 w)
  after w t := match w with
    | ⟨0, _⟩ => adjBlk V c t
    | ⟨1, _⟩ => iblk V c 1 t
    | ⟨2, _⟩ => iblk V c 2 t
    | ⟨3, _⟩ => k1_pay1 (adjBlk V c t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]

section
open Idealize.ShloMosaic.ValueIdx

/-! ## The body's value at an index

    Over the extended reals the two format changes and the two same-shape casts are the identity, a product into
    the zero accumulator is the sum over the contracted axis, and the maximum with the zero splat is `max · 0`. -/

/-! The first product `X · s` contracts the block's 10000 columns with the support's 10000 rows; the second,
    `h · w`, the 64 hidden features. Each operand index of either product, axis by axis: -/

theorem lhsA_0 (i : S256x64.Idx) (q : dot_S256x10000_S10000x64_S256x64_1_0_0_1_n_n.contr.Idx) :
    (dot_S256x10000_S10000x64_S256x64_1_0_0_1_n_n.lhsIdx i q 0).val = (i 0).val := by
  unfold DotDims.lhsIdx
  rw [dif_neg (show ¬(0 : Fin S256x10000.rank) ∈ dot_S256x10000_S10000x64_S256x64_1_0_0_1_n_n.lhsBatch by decide),
    dif_pos (show (0 : Fin S256x10000.rank) ∈ dot_S256x10000_S10000x64_S256x64_1_0_0_1_n_n.lhsNonContracting by decide)]
  rfl
theorem lhsA_1 (i : S256x64.Idx) (q : dot_S256x10000_S10000x64_S256x64_1_0_0_1_n_n.contr.Idx) :
    (dot_S256x10000_S10000x64_S256x64_1_0_0_1_n_n.lhsIdx i q 1).val = (q ⟨0, by decide⟩).val :=
  dot_S256x10000_S10000x64_S256x64_1_0_0_1_n_n.lhsIdx_val_of_single rfl i q
theorem rhsA_0 (i : S256x64.Idx) (q : dot_S256x10000_S10000x64_S256x64_1_0_0_1_n_n.contr.Idx) :
    (dot_S256x10000_S10000x64_S256x64_1_0_0_1_n_n.rhsIdx i q 0).val = (q ⟨0, by decide⟩).val :=
  dot_S256x10000_S10000x64_S256x64_1_0_0_1_n_n.rhsIdx_val_of_single rfl i q
theorem rhsA_1 (i : S256x64.Idx) (q : dot_S256x10000_S10000x64_S256x64_1_0_0_1_n_n.contr.Idx) :
    (dot_S256x10000_S10000x64_S256x64_1_0_0_1_n_n.rhsIdx i q 1).val = (i 1).val := by
  unfold DotDims.rhsIdx
  rw [dif_neg (show ¬(1 : Fin S10000x64.rank) ∈ dot_S256x10000_S10000x64_S256x64_1_0_0_1_n_n.rhsBatch by decide),
    dif_pos (show (1 : Fin S10000x64.rank) ∈ dot_S256x10000_S10000x64_S256x64_1_0_0_1_n_n.rhsNonContracting by decide)]
  rfl

theorem lhsB_0 (i : S256x64.Idx) (q : dot_S256x64_S64x64_S256x64_1_0_0_1_n_n.contr.Idx) :
    (dot_S256x64_S64x64_S256x64_1_0_0_1_n_n.lhsIdx i q 0).val = (i 0).val := by
  unfold DotDims.lhsIdx
  rw [dif_neg (show ¬(0 : Fin S256x64.rank) ∈ dot_S256x64_S64x64_S256x64_1_0_0_1_n_n.lhsBatch by decide),
    dif_pos (show (0 : Fin S256x64.rank) ∈ dot_S256x64_S64x64_S256x64_1_0_0_1_n_n.lhsNonContracting by decide)]
  rfl
theorem lhsB_1 (i : S256x64.Idx) (q : dot_S256x64_S64x64_S256x64_1_0_0_1_n_n.contr.Idx) :
    (dot_S256x64_S64x64_S256x64_1_0_0_1_n_n.lhsIdx i q 1).val = (q ⟨0, by decide⟩).val :=
  dot_S256x64_S64x64_S256x64_1_0_0_1_n_n.lhsIdx_val_of_single rfl i q
theorem rhsB_0 (i : S256x64.Idx) (q : dot_S256x64_S64x64_S256x64_1_0_0_1_n_n.contr.Idx) :
    (dot_S256x64_S64x64_S256x64_1_0_0_1_n_n.rhsIdx i q 0).val = (q ⟨0, by decide⟩).val :=
  dot_S256x64_S64x64_S256x64_1_0_0_1_n_n.rhsIdx_val_of_single rfl i q
theorem rhsB_1 (i : S256x64.Idx) (q : dot_S256x64_S64x64_S256x64_1_0_0_1_n_n.contr.Idx) :
    (dot_S256x64_S64x64_S256x64_1_0_0_1_n_n.rhsIdx i q 1).val = (i 1).val := by
  unfold DotDims.rhsIdx
  rw [dif_neg (show ¬(1 : Fin S64x64.rank) ∈ dot_S256x64_S64x64_S256x64_1_0_0_1_n_n.rhsBatch by decide),
    dif_pos (show (1 : Fin S64x64.rank) ∈ dot_S256x64_S64x64_S256x64_1_0_0_1_n_n.rhsNonContracting by decide)]
  rfl

/-- The first product at an index: row `p` of the block against column `h` of the support. -/
theorem matA_apply (X : FVec Ideal S256x10000 .bf16) (s : FVec Ideal S10000x64 .bf16) (p : Fin 256) (h : Fin 64) :
    matmul (F := Ideal) dot_S256x10000_S10000x64_S256x64_1_0_0_1_n_n none X s (constant S256x64 .f32 0x00000000#32) (ix2 p h)
      = ∑ k : Fin 10000, X (ix2 p k) * s (ix2 k h) := by
  unfold matmul
  rw [Ideal.matmul_constant_zero_apply,
    ← Equiv.sum_comp (contrEquiv1 dot_S256x10000_S10000x64_S256x64_1_0_0_1_n_n 10000 rfl rfl).symm]
  refine Finset.sum_congr rfl fun k _ => ?_
  have hk := contrEquiv1_symm_val dot_S256x10000_S10000x64_S256x64_1_0_0_1_n_n 10000 rfl rfl k
  have el : dot_S256x10000_S10000x64_S256x64_1_0_0_1_n_n.lhsIdx (ix2 p h)
      ((contrEquiv1 dot_S256x10000_S10000x64_S256x64_1_0_0_1_n_n 10000 rfl rfl).symm k) = ix2 p k :=
    funext fun a => Fin.ext (by
      match a with
      | ⟨0, _⟩ => exact lhsA_0 _ _
      | ⟨1, _⟩ => exact (lhsA_1 _ _).trans hk)
  have er : dot_S256x10000_S10000x64_S256x64_1_0_0_1_n_n.rhsIdx (ix2 p h)
      ((contrEquiv1 dot_S256x10000_S10000x64_S256x64_1_0_0_1_n_n 10000 rfl rfl).symm k) = ix2 k h :=
    funext fun a => Fin.ext (by
      match a with
      | ⟨0, _⟩ => exact (rhsA_0 _ _).trans hk
      | ⟨1, _⟩ => exact rhsA_1 _ _)
  rw [el, er]

/-- The second product at an index: row `p` of the hidden block against column `q` of the weights. -/
theorem matB_apply (H : FVec Ideal S256x64 .bf16) (w : FVec Ideal S64x64 .bf16) (p : Fin 256) (q : Fin 64) :
    matmul (F := Ideal) dot_S256x64_S64x64_S256x64_1_0_0_1_n_n none H w (constant S256x64 .f32 0x00000000#32) (ix2 p q)
      = ∑ h : Fin 64, H (ix2 p h) * w (ix2 h q) := by
  unfold matmul
  rw [Ideal.matmul_constant_zero_apply,
    ← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 p q)
      ((contrEquiv1 dot_S256x64_S64x64_S256x64_1_0_0_1_n_n 64 rfl rfl).symm k) = ix2 p k :=
    funext fun a => Fin.ext (by
      match a with
      | ⟨0, _⟩ => exact lhsB_0 _ _
      | ⟨1, _⟩ => exact (lhsB_1 _ _).trans hk)
  have er : dot_S256x64_S64x64_S256x64_1_0_0_1_n_n.rhsIdx (ix2 p q)
      ((contrEquiv1 dot_S256x64_S64x64_S256x64_1_0_0_1_n_n 64 rfl rfl).symm k) = ix2 k q :=
    funext fun a => Fin.ext (by
      match a with
      | ⟨0, _⟩ => exact (rhsB_0 _ _).trans hk
      | ⟨1, _⟩ => exact rhsB_1 _ _)
  rw [el, er]

/-- The body's value at row `p`, column `q`: `∑ₕ max (∑ₖ X[p,k] · s[k,h]) 0 · w[h,q]`. Row `p` of the result reads
    row `p` of the block `X` and no other. -/
theorem pay_apply (X : Vec Ideal S256x10000 .f32) (s : Vec Ideal S10000x64 .bf16) (w : Vec Ideal S64x64 .bf16)
    (p : Fin 256) (q : Fin 64) :
    k1_pay1 (F := Ideal) X s w (ix2 p q)
      = ∑ h : Fin 64, max (∑ k : Fin 10000, X (ix2 p k) * s (ix2 k h)) 0 * w (ix2 h q) := by
  unfold k1_pay1
  simp only [shapeCast_self]
  rw [truncf_apply, matB_apply]
  refine Finset.sum_congr rfl fun h _ => ?_
  rw [truncf_apply, maximumf_apply, matA_apply, broadcast_apply]
  show max _ (Ideal.ofBits .f32 0x00000000#32) * _ = _
  rw [Ideal.ofBits_zero_f32]
  rfl

/-! ## What the body finds in each window's buffer, and what the proof data say it leaves -/

theorem after_0 (c : Dev nD) (t : Fin cfg1.N) : (dat V c).after 0 t = adjBlk V c t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = k1_pay1 (adjBlk V c t) (iblk V c 1 t) (iblk V c 2 t) := by dsimp only [dat]

/-- The output window is never fetched. -/
theorem fetch_3 (t : Fin cfg1.N) : (cfg1.win 3).fetch t = false := rfl

/-- The block of `adj` is fetched at every point: the buffer holds the block on the rows inside the array and
    whatever it held (`d`) past the array's end. -/
theorem before_0 (c : Dev nD) (t : Fin cfg1.N) (d) :
    (dat V c).before 0 t d = win1_0.fill (grid1.coords t) d (iblk V c 0 t) := by
  unfold Dat.before; rw [if_pos (fetch1_0 t)]; rfl

/-- The support is one whole-array block, fetched once and left in place: the buffer holds it at every point. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- So are the weights. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The output's buffer is written back at every point and never fetched: the body finds it at anything. -/
theorem before_3 (c : Dev nD) (t : Fin cfg1.N) (d) : (dat V c).before 3 t d = d := by
  unfold Dat.before
  rw [if_neg (by rw [fetch_3 t]; exact Bool.false_ne_true)]
  by_cases h : t.val = 0
  · rw [if_pos h]
  · rw [if_neg h]; exact if_pos (flush1_3 _)

/-! ## The cut blocks: which rows and columns the transfers move -/

/-- The block indices and cut sizes over the grid: the block of `adj` and the output's block are at the point's
    own row index and are cut alike on the rows; the block of `adj` spans all 10000 columns, the output's all 64; the
    support and the weights are whole. The cut leaves the rows of the array that the block holds: 256, or at
    the last point what is left of the 10000. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_0.xsize (grid1.coords t) (0 : Fin 2) = win1_3.xsize (grid1.coords t) (0 : Fin 2)
    ∧ win1_0.xsize (grid1.coords t) (1 : Fin 2) = 10000
    ∧ win1_3.xsize (grid1.coords t) (1 : Fin 2) = 64
    ∧ ((win1_3.xsize (grid1.coords t) (0 : Fin 2) = 256 ∧ (t.val + 1) * 256 ≤ 10000)
        ∨ t.val * 256 + win1_3.xsize (grid1.coords t) (0 : Fin 2) = 10000) :=
  (by decide +kernel : ∀ t : Fin grid1.N, _)

/-- An entry of the filled block of `adj` on a row the transfer moves is the block's entry, whatever fills the rest. -/
theorem fill_adj_congr (t : Fin cfg1.N) (d d' : S256x10000.Idx → EReal)
    (blk : (win1_0.xblock (grid1.coords t)).Idx → EReal) (p : Fin 256) (k : Fin 10000)
    (hp : p.val < win1_3.xsize (grid1.coords t) (0 : Fin 2)) :
    win1_0.fill (grid1.coords t) d blk (ix2 p k) = win1_0.fill (grid1.coords t) d' blk (ix2 p k) := by
  obtain ⟨-, -, -, -, -, -, -, -, e0, e1, -, -⟩ := idx_facts t
  have hm : win1_0.moved (grid1.coords t) (ix2 p k) = true :=
    (win1_0.moved_iff _ _).mpr fun a => by
      match a with
      | ⟨0, _⟩ => show p.val < win1_0.xsize (grid1.coords t) (0 : Fin 2); omega
      | ⟨1, _⟩ => show k.val < win1_0.xsize (grid1.coords t) (1 : Fin 2); have := k.isLt; omega
  unfold Window.fill
  rw [dif_pos hm, dif_pos hm]

/-- Row-locality: on the rows inside the array the body's value does not depend on what fills the block of
    `adj` past the array's end. -/
theorem cut_pay_congr (t : Fin cfg1.N) (d d' : S256x10000.Idx → EReal)
    (blk : (win1_0.xblock (grid1.coords t)).Idx → EReal) (s : Vec Ideal S10000x64 .bf16) (w : Vec Ideal S64x64 .bf16) :
    win1_3.cut (grid1.coords t) (k1_pay1 (F := Ideal) (win1_0.fill (grid1.coords t) d blk) s w)
      = win1_3.cut (grid1.coords t) (k1_pay1 (F := Ideal) (win1_0.fill (grid1.coords t) d' blk) s w) := by
  funext j
  have hj0 : (j 0).val < win1_3.xsize (grid1.coords t) (0 : Fin 2) := (j 0).isLt
  have hj1 : (j 1).val < win1_3.xsize (grid1.coords t) (1 : Fin 2) := (j 1).isLt
  have hle0 : win1_3.xsize (grid1.coords t) (0 : Fin 2) ≤ 256 := win1_3.xsize_le _ _
  have hle1 : win1_3.xsize (grid1.coords t) (1 : Fin 2) ≤ 64 := win1_3.xsize_le _ _
  have e : (win1_3.xinj (grid1.coords t) j : S256x64.Idx)
      = ix2 (⟨(j 0).val, by omega⟩ : Fin 256) (⟨(j 1).val, by omega⟩ : Fin 64) := by
    funext a
    match a with
    | ⟨0, _⟩ => rfl
    | ⟨1, _⟩ => rfl
  show k1_pay1 (F := Ideal) (win1_0.fill (grid1.coords t) d blk) s w (win1_3.xinj (grid1.coords t) j)
    = k1_pay1 (F := Ideal) (win1_0.fill (grid1.coords t) d' blk) s w (win1_3.xinj (grid1.coords t) j)
  rw [e, pay_apply, pay_apply]
  refine Finset.sum_congr rfl fun h _ => ?_
  congr 2
  refine Finset.sum_congr rfl fun k _ => ?_
  rw [fill_adj_congr t d d' blk _ k hj0]

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it hands back: the two cut windows' buffers stated on the rows inside the array. -/
def bodyPost (c : Dev nD) (t : Fin cfg1.N) : sProp 𝕄 :=
  iprop((dat V c).Φ t.succ ∗ (dat V c).owesAt () t.succ
    ∗ (∃ d, owns (c : Thread nD τ) (st1_0 t) fullShare
        ((cfg1.win 0).fill (cfg1.grid.coords t) d ((cfg1.win 0).cut (cfg1.grid.coords t) ((dat V c).after 0 t))))
    ∗ owns (c : Thread nD τ) (st1_1 t) fullShare ((dat V c).after 1 t)
    ∗ owns (c : Thread nD τ) (st1_2 t) fullShare ((dat V c).after 2 t)
    ∗ (∃ d, owns (c : Thread nD τ) (st1_3 t) fullShare
        ((cfg1.win 3).fill (cfg1.grid.coords t) d ((cfg1.win 3).cut (cfg1.grid.coords t) ((dat V c).after 3 t)))))

/-- The body at any point. It finds the block of `adj` filled out past the array's end with some `d`, the support and
    the weights whole, and leaves the inputs as they were and the output's buffer at its value of them. On the rows
    inside the array that value is the proof data's (row-locality), which is all the two cut windows' posts ask. -/
theorem sound_body (c : Dev nD) (t : Fin cfg1.N) :
    bodyPre V c t ⊢ wp frame (wpE (defs₀ (F := Ideal)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel1 (F := Ideal) c Set.univ _ _ _ _ _ _ _ _ _
    (win1_0.fill (grid1.coords t) d0 (iblk V c 0 t)) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win1_0.cut (grid1.coords t) (adjBlk V c t) = iblk V c 0 t := win1_0.cut_fill _ _ _
  have hy : win1_3.fill (α := Elt Ideal .bf16) (grid1.coords t)
        (k1_pay1 (F := Ideal) (win1_0.fill (grid1.coords t) d0 (iblk V c 0 t)) (iblk V c 1 t) (iblk V c 2 t))
        (win1_3.cut (α := Elt Ideal .bf16) (grid1.coords t) (k1_pay1 (F := Ideal) (adjBlk V c t) (iblk V c 1 t) (iblk V c 2 t)))
      = k1_pay1 (F := Ideal) (win1_0.fill (grid1.coords t) d0 (iblk V c 0 t)) (iblk V c 1 t) (iblk V c 2 t) :=
    win1_3.fill_congr_cut _ (cut_pay_congr t d0 (fun _ => (0 : EReal)) (iblk V c 0 t) (iblk V c 1 t) (iblk V c 2 t))
  isplitl [H0]
  · iexists d0
    change _ ⊢ owns (c : Thread nD τ) (st1_0 t) fullShare
      (win1_0.fill (grid1.coords t) d0 (win1_0.cut (grid1.coords t) (adjBlk V c t)))
    rw [hx]; try iexact H0
  isplitl [H1]; · iexact H1
  isplitl [H2]; · iexact H2
  iexists k1_pay1 (F := Ideal) (win1_0.fill (grid1.coords t) d0 (iblk V c 0 t)) (iblk V c 1 t) (iblk V c 2 t)
  change _ ⊢ owns (c : Thread nD τ) (st1_3 t) fullShare
    (win1_3.fill (α := Elt Ideal .bf16) (grid1.coords t)
      (k1_pay1 (F := Ideal) (win1_0.fill (grid1.coords t) d0 (iblk V c 0 t)) (iblk V c 1 t) (iblk V c 2 t))
      (win1_3.cut (α := Elt Ideal .bf16) (grid1.coords t) (k1_pay1 (F := Ideal) (adjBlk V c t) (iblk V c 1 t) (iblk V c 2 t))))
  rw [hy]; try iexact H3

/-- The obligation at every point, window by window: no point is idle, and windows 0 and 3 are the cut ones. -/
theorem body_obligation_all (c : Dev nD) :
    BodyObligationLoose (dat V c) (defs₀ (F := Ideal)) Variants.none () Set.univ := fun t => by
  rw [bigSep_W1, bigSep_W1]
  exact sound_body V c t

/-! ## The output array after the last write-back -/

/-- The whole-array value the region leaves: `relu (adj · s) · w` of the arrays it was entered with. -/
abbrev G (c : Dev nD) : Cert.Spec.A10000x64 :=
  Cert.Spec.project (Cert.Spec.hidden (V c main_arg1) (V c main_call0_v0)) (V c main_call0_v2)

/-- `G` at row `r`, column `q`. -/
theorem G_apply (A : Cert.Spec.A10000x10000) (S : Cert.Spec.A10000x64) (W : Cert.Spec.A64x64) (r : Fin 10000) (q : Fin 64) :
    Cert.Spec.project (Cert.Spec.hidden A S) W (ix2 r q)
      = ∑ h : Fin 64, max (∑ k : Fin 10000, A (ix2 r k) * S (ix2 k h)) 0 * W (ix2 h q) := rfl

/-- The zero-filled block of `adj` on a row inside the array is the array's row `t · 256 + p`. -/
theorem adjBlk_apply (c : Dev nD) (t : Fin cfg1.N) (p : Fin 256) (k : Fin 10000)
    (hp : p.val < win1_3.xsize (grid1.coords t) (0 : Fin 2)) (r : Fin 10000) (hr : r.val = t.val * 256 + p.val) :
    adjBlk V c t (ix2 p k) = V c main_arg1 (ix2 r k) := by
  obtain ⟨i00, i01, -, -, -, -, -, -, e0, e1, -, -⟩ := idx_facts t
  have hm : win1_0.moved (grid1.coords t) (ix2 p k) = true :=
    (win1_0.moved_iff _ _).mpr fun a => by
      match a with
      | ⟨0, _⟩ => show p.val < win1_0.xsize (grid1.coords t) (0 : Fin 2); omega
      | ⟨1, _⟩ => show k.val < win1_0.xsize (grid1.coords t) (1 : Fin 2); have := k.isLt; omega
  unfold adjBlk Window.fill
  rw [dif_pos hm]
  unfold iblk
  show V c main_arg1 ((win1_0.blk t).view.emb _) = _
  congr 1
  funext a; apply Fin.ext
  match a with
  | ⟨0, _⟩ => show win1_0.index t (0 : Fin 2) * 256 + 1 * p.val = r.val; omega
  | ⟨1, _⟩ => show win1_0.index t (1 : Fin 2) * 10000 + 1 * k.val = k.val; omega

/-- The support's block is the whole array. -/
theorem sBlk_apply (c : Dev nD) (t : Fin cfg1.N) (k : Fin 10000) (h : Fin 64) :
    iblk V c 1 t (ix2 k h) = V c main_call0_v0 (ix2 k h) := by
  obtain ⟨-, -, i10, i11, -, -, -, -, -, -, -, -⟩ := idx_facts t
  unfold iblk
  show V c main_call0_v0 ((win1_1.blk t).view.emb _) = _
  congr 1
  funext a; apply Fin.ext
  match a with
  | ⟨0, _⟩ => show win1_1.index t (0 : Fin 2) * 10000 + 1 * k.val = k.val; omega
  | ⟨1, _⟩ => show win1_1.index t (1 : Fin 2) * 64 + 1 * h.val = h.val; omega

/-- So is the weights'. -/
theorem wBlk_apply (c : Dev nD) (t : Fin cfg1.N) (h : Fin 64) (q : Fin 64) :
    iblk V c 2 t (ix2 h q) = V c main_call0_v2 (ix2 h q) := by
  obtain ⟨-, -, -, -, i20, i21, -, -, -, -, -, -⟩ := idx_facts t
  unfold iblk
  show V c main_call0_v2 ((win1_2.blk t).view.emb _) = _
  congr 1
  funext a; apply Fin.ext
  match a with
  | ⟨0, _⟩ => show win1_2.index t (0 : Fin 2) * 64 + 1 * h.val = h.val; omega
  | ⟨1, _⟩ => show win1_2.index t (1 : Fin 2) * 64 + 1 * q.val = q.val; omega

/-- What point `t` writes back is block `t` of `G`: row `p` of the body's value reads row `t · 256 + p` of `adj`. -/
theorem flushed_eq (c : Dev nD) (t : Fin cfg1.N) :
    (dat V c).flushed 3 t = ((cfg1.win 3).blk t).view.read (Elt Ideal) (G V c) := by
  show (cfg1.win 3).cut (grid1.coords t) ((dat V c).after 3 t) = _
  rw [after_3]
  funext y
  obtain ⟨-, -, -, -, -, -, i30, i31, -, -, e31, e30⟩ := idx_facts t
  have hy0 : (y 0).val < win1_3.xsize (grid1.coords t) (0 : Fin 2) := (y 0).isLt
  have hy1 : (y 1).val < win1_3.xsize (grid1.coords t) (1 : Fin 2) := (y 1).isLt
  have hle0 : win1_3.xsize (grid1.coords t) (0 : Fin 2) ≤ 256 := win1_3.xsize_le _ _
  have hr : t.val * 256 + (y 0).val < 10000 := by omega
  have e : (win1_3.xinj (grid1.coords t) y : S256x64.Idx)
      = ix2 (⟨(y 0).val, by omega⟩ : Fin 256) (⟨(y 1).val, by omega⟩ : Fin 64) := by
    funext a
    match a with
    | ⟨0, _⟩ => rfl
    | ⟨1, _⟩ => rfl
  have eR : ((win1_3.blk t).view.emb y : S10000x64.Idx)
      = ix2 (⟨t.val * 256 + (y 0).val, hr⟩ : Fin 10000) (⟨(y 1).val, by omega⟩ : Fin 64) := by
    funext a; apply Fin.ext
    match a with
    | ⟨0, _⟩ => show win1_3.index t (0 : Fin 2) * 256 + 1 * (y 0).val = t.val * 256 + (y 0).val; omega
    | ⟨1, _⟩ => show win1_3.index t (1 : Fin 2) * 64 + 1 * (y 1).val = (y 1).val; omega
  show k1_pay1 (F := Ideal) (adjBlk V c t) (iblk V c 1 t) (iblk V c 2 t) (win1_3.xinj (grid1.coords t) y)
    = Cert.Spec.project (Cert.Spec.hidden (V c main_arg1) (V c main_call0_v0)) (V c main_call0_v2)
        ((win1_3.blk t).view.emb y)
  rw [e, eR, pay_apply, G_apply]
  refine Finset.sum_congr rfl fun h _ => ?_
  rw [wBlk_apply]
  congr 2
  refine Finset.sum_congr rfl fun k _ => ?_
  rw [adjBlk_apply V c t _ k hy0 ⟨t.val * 256 + (y 0).val, hr⟩ rfl, sBlk_apply]

/-- An index of the output array is in point `t`'s block iff each coordinate is among the block's coordinates that
    lie inside the array. -/
theorem mem_blk3 (t : Fin cfg1.N) (i : S10000x64.Idx) :
    i ∈ ((cfg1.win 3).blk t).view.set ↔ ∀ a : Fin 2, win1_3.index t a * S256x64.size a ≤ (i a).val
        ∧ (i a).val < win1_3.index t a * S256x64.size a + win1_3.xsize (grid1.coords t) a := by
  show i ∈ ((View.whole main_call0_v3).slice (win1_3.rect t)).set ↔ _
  rw [View.set_slice_whole, Rect.mem_set_unit]
  exact Iff.rfl

/-- Every row `r` of the array is in the block of point `r / 256`: the 40 blocks' rows inside the array are the
    array's 10000 rows. -/
theorem covered (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  have hN : (i 0).val / 256 < grid1.N := by rw [N_1]; omega
  obtain ⟨t, ht⟩ : ∃ t : Fin cfg1.N, t.val = (i 0).val / 256 := ⟨⟨_, hN⟩, rfl⟩
  obtain ⟨-, -, -, -, -, -, i30, i31, -, -, e31, e30⟩ := idx_facts t
  refine ⟨t, flush1_3 t, ?_⟩
  rw [mem_blk3]
  intro a
  match a with
  | ⟨0, _⟩ =>
    show win1_3.index t (0 : Fin 2) * 256 ≤ (i 0).val
      ∧ (i 0).val < win1_3.index t (0 : Fin 2) * 256 + win1_3.xsize (grid1.coords t) (0 : Fin 2)
    omega
  | ⟨1, _⟩ =>
    show win1_3.index t (1 : Fin 2) * 64 ≤ (i 1).val
      ∧ (i 1).val < win1_3.index t (1 : Fin 2) * 64 + win1_3.xsize (grid1.coords t) (1 : Fin 2)
    omega

/-- The output array ends at `G`: every point writes its block of `G`, and the blocks cover the array. -/
theorem arrAt_out_all (c : Dev nD) : (dat V c).arrAt 3 cfg1.N = G V c :=
  (dat V c).arrAt_eq_of_cover 3 (G V c) (fun t _ => flushed_eq V c t) covered

end

/-- The body obligation at every point, each cut window stated on the rows inside the array. -/
theorem body_obligation (c : Dev nD) : BodyObligationLoose (dat V c) (defs₀ (F := Ideal)) Variants.none () Set.univ :=
  body_obligation_all V c

/-- The output array after the last write-back: `relu (adj · s) · w` of the arrays the region was entered with. -/
theorem arrAt_out (c : Dev nD) :
    (dat V c).arrAt 3 cfg1.N = Cert.Spec.project (Cert.Spec.hidden (V c main_arg1) (V c main_call0_v0)) (V c main_call0_v2) :=
  arrAt_out_all V c

end Cert.KernelIdeal.Reg1

end
-- ==== Proof.Reg2.lean ====
import proofs.«130511_g42314017800419_cont_8to1_b_959_3_alg».proof.Proof.Gen.KernelIdeal.Launch
import proofs.«130511_g42314017800419_cont_8to1_b_959_3_alg».proof.Proof.Gen.KernelIdeal.Skeleton
import proofs.«130511_g42314017800419_cont_8to1_b_959_3_alg».proof.Proof.Gen.KernelIdeal.Points
import proofs.«130511_g42314017800419_cont_8to1_b_959_3_alg».proof.Proof.Body
import proofs.«130511_g42314017800419_cont_8to1_b_959_3_alg».proof.Proof.Spec
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Body

local notation "𝕄" => MT nD τ sig Unit (Elt Ideal) ℕ (UR sig nD τ) ℕ

/-! Region 2 over the extended reals: 40 blocks of 256 rows of `adj`, the last reaching 240 rows past the
    array's end. Point `t` leaves in the output's staging buffer `adj_t · s` of its block of `adj`; a row of
    that product reads only the same row of the block, so the 16 rows of the last block that lie inside the
    array do not depend on what fills the buffer past the array's end. -/

variable (V : (c : Dev nD) → (b : Ref sig .tc) → Buf (Elt Ideal) ((c : Thread nD τ).loc b))

/-- Window `w`'s block at point `t`, its part inside the array, read off the array as the region finds it. -/
def iblk (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The block of `adj` at point `t` filled out to the staging buffer's 256 rows with zeros. -/
def adjBlk (c : Dev nD) (t : Fin cfg2.N) : Vec Ideal S256x10000 .f32 :=
  win2_0.fill (grid2.coords t) (fun _ => (0 : EReal)) (iblk V c 0 t)

/-- The proof data: the arrays as the region finds them; after the body the inputs' buffers at their blocks and
    the output's at the body's value of them. -/
def dat (c : Dev nD) : Dat τ (Elt Ideal) Unit ℕ (UR sig nD τ) ℕ cfg2 c where
  A w := V c (Pipeline.arrRef spec2 w)
  after w t := match w with
    | ⟨0, _⟩ => adjBlk V c t
    | ⟨1, _⟩ => iblk V c 1 t
    | ⟨2, _⟩ => k2_pay1 (adjBlk V c t) (iblk V c 1 t)
  Φ _ := Pipeline.ΦA spec2 c
  q _ := fullShare
  owed _ := 0

/-! ### The body's value at an index

Over the extended reals the rounding to bf16 and the same-shape cast are the identity and the product into the
zero accumulator is the plain sum over the contracted axis: entry (p, q) of the body's value is the sum over k of
entry (p, k) of the left operand times entry (k, q) of the right. -/

theorem lhs_pay_0 (i : S256x64.Idx) (q : Cert.KernelIdeal.dot_S256x10000_S10000x64_S256x64_1_0_0_1_n_n.contr.Idx) :
    (Cert.KernelIdeal.dot_S256x10000_S10000x64_S256x64_1_0_0_1_n_n.lhsIdx i q 0).val = (i 0).val := by
  unfold DotDims.lhsIdx
  rw [dif_neg (show ¬(0 : Fin S256x10000.rank) ∈ Cert.KernelIdeal.dot_S256x10000_S10000x64_S256x64_1_0_0_1_n_n.lhsBatch by decide),
    dif_pos (show (0 : Fin S256x10000.rank) ∈ Cert.KernelIdeal.dot_S256x10000_S10000x64_S256x64_1_0_0_1_n_n.lhsNonContracting by decide)]
  rfl
theorem lhs_pay_1 (i : S256x64.Idx) (q : Cert.KernelIdeal.dot_S256x10000_S10000x64_S256x64_1_0_0_1_n_n.contr.Idx) :
    (Cert.KernelIdeal.dot_S256x10000_S10000x64_S256x64_1_0_0_1_n_n.lhsIdx i q 1).val = (q ⟨0, by decide⟩).val :=
  Cert.KernelIdeal.dot_S256x10000_S10000x64_S256x64_1_0_0_1_n_n.lhsIdx_val_of_single rfl i q
theorem rhs_pay_0 (i : S256x64.Idx) (q : Cert.KernelIdeal.dot_S256x10000_S10000x64_S256x64_1_0_0_1_n_n.contr.Idx) :
    (Cert.KernelIdeal.dot_S256x10000_S10000x64_S256x64_1_0_0_1_n_n.rhsIdx i q 0).val = (q ⟨0, by decide⟩).val :=
  Cert.KernelIdeal.dot_S256x10000_S10000x64_S256x64_1_0_0_1_n_n.rhsIdx_val_of_single rfl i q
theorem rhs_pay_1 (i : S256x64.Idx) (q : Cert.KernelIdeal.dot_S256x10000_S10000x64_S256x64_1_0_0_1_n_n.contr.Idx) :
    (Cert.KernelIdeal.dot_S256x10000_S10000x64_S256x64_1_0_0_1_n_n.rhsIdx i q 1).val = (i 1).val := by
  unfold DotDims.rhsIdx
  rw [dif_neg (show ¬(1 : Fin S10000x64.rank) ∈ Cert.KernelIdeal.dot_S256x10000_S10000x64_S256x64_1_0_0_1_n_n.rhsBatch by decide),
    dif_pos (show (1 : Fin S10000x64.rank) ∈ Cert.KernelIdeal.dot_S256x10000_S10000x64_S256x64_1_0_0_1_n_n.rhsNonContracting by decide)]
  rfl

/-- Entry (p, q) of the body's value: row p of the left operand against column q of the right. -/
theorem pay_apply (X : Vec Ideal S256x10000 .f32) (s : Vec Ideal S10000x64 .bf16) (p : Fin 256) (q : Fin 64) :
    k2_pay1 (F := Ideal) X s (ValueIdx.ix2 p q) = ∑ k : Fin 10000, X (ValueIdx.ix2 p k) * s (ValueIdx.ix2 k q) := by
  unfold k2_pay1
  simp only [shapeCast_self, matmul]
  rw [Ideal.matmul_constant_zero_apply,
    ← Equiv.sum_comp (ValueIdx.contrEquiv1 Cert.KernelIdeal.dot_S256x10000_S10000x64_S256x64_1_0_0_1_n_n 10000 rfl rfl).symm]
  refine Finset.sum_congr rfl fun k _ => ?_
  have hk := ValueIdx.contrEquiv1_symm_val Cert.KernelIdeal.dot_S256x10000_S10000x64_S256x64_1_0_0_1_n_n 10000 rfl rfl k
  have el : Cert.KernelIdeal.dot_S256x10000_S10000x64_S256x64_1_0_0_1_n_n.lhsIdx (ValueIdx.ix2 p q)
      ((ValueIdx.contrEquiv1 Cert.KernelIdeal.dot_S256x10000_S10000x64_S256x64_1_0_0_1_n_n 10000 rfl rfl).symm k) = ValueIdx.ix2 p k :=
    funext fun a => Fin.ext (by
      match a with
      | ⟨0, _⟩ => exact lhs_pay_0 _ _
      | ⟨1, _⟩ => exact (lhs_pay_1 _ _).trans hk)
  have er : Cert.KernelIdeal.dot_S256x10000_S10000x64_S256x64_1_0_0_1_n_n.rhsIdx (ValueIdx.ix2 p q)
      ((ValueIdx.contrEquiv1 Cert.KernelIdeal.dot_S256x10000_S10000x64_S256x64_1_0_0_1_n_n 10000 rfl rfl).symm k) = ValueIdx.ix2 k q :=
    funext fun a => Fin.ext (by
      match a with
      | ⟨0, _⟩ => exact (rhs_pay_0 _ _).trans hk
      | ⟨1, _⟩ => exact rhs_pay_1 _ _)
  rw [el, er]
  rfl

theorem A_eq (c : Dev nD) (w : Fin cfg2.W) : (dat V c).A w = V c (Pipeline.arrRef spec2 w) := by
  dsimp only [dat]

/-! ### What the body leaves and what it finds, window by window -/

theorem after_0 (c : Dev nD) (t : Fin cfg2.N) : (dat V c).after 0 t = adjBlk V c t := by dsimp only [dat]
theorem after_1 (c : Dev nD) (t : Fin cfg2.N) : (dat V c).after 1 t = iblk V c 1 t := by dsimp only [dat]
theorem after_2 (c : Dev nD) (t : Fin cfg2.N) : (dat V c).after 2 t = k2_pay1 (adjBlk V c t) (iblk V c 1 t) := by dsimp only [dat]

/-- The block of `adj` is fetched at every point: the buffer holds it on the rows inside the array. -/
theorem before_0 (c : Dev nD) (t : Fin cfg2.N) (d) :
    (dat V c).before 0 t d = win2_0.fill (grid2.coords t) d (iblk V c 0 t) := by
  unfold Dat.before; rw [if_pos (fetch2_0 t)]; unfold Dat.fetched Dat.blockOf iblk; rw [A_eq]

/-- The whole of `s` is fetched once and never moves: the buffer holds it at every point. -/
theorem before_1 (c : Dev nD) (t : Fin cfg2.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-- The output's buffer was written back at the point before: it holds anything. -/
theorem before_2 (c : Dev nD) (t : Fin cfg2.N) (d) : (dat V c).before 2 t d = d :=
  (dat V c).before_out_reset 2 rfl t
    (by
      by_cases h : t.val = 0
      · exact .inl h
      · exact .inr ⟨h, flush2_2 _⟩) d

/-! ### Rows inside the array do not see the rows past its end -/

/-- Two fillings of one block agree wherever the transfer moved the block. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- At every point the output's block and the block of `adj` are cut to the same number of rows, and the block of
    `adj` keeps all its 10000 columns. -/
theorem xsize_facts : ∀ t : Fin cfg2.N, win2_2.xsize (grid2.coords t) 0 = win2_0.xsize (grid2.coords t) 0
      ∧ win2_0.xsize (grid2.coords t) 1 = 10000 :=
  (by decide +kernel : ∀ t : Fin grid2.N, win2_2.xsize (grid2.coords t) 0 = win2_0.xsize (grid2.coords t) 0
      ∧ win2_0.xsize (grid2.coords t) 1 = 10000)

/-- Row p of the product reads row p of the left operand only: on the rows inside the array the body's value is the
    same whatever fills the buffer of `adj` past the array's end. -/
theorem pay_row_local (t : Fin cfg2.N) (d d' : S256x10000.Idx → EReal)
    (blk : (win2_0.xblock (grid2.coords t)).Idx → EReal) (s : Vec Ideal S10000x64 .bf16) :
    win2_2.cut (grid2.coords t) (k2_pay1 (F := Ideal) (win2_0.fill (grid2.coords t) d blk) s)
      = win2_2.cut (grid2.coords t) (k2_pay1 (F := Ideal) (win2_0.fill (grid2.coords t) d' blk) s) := by
  funext j
  have hp : (j 0).val < 256 := Nat.lt_of_lt_of_le (j 0).isLt (win2_2.xsize_le (grid2.coords t) 0)
  have hq : (j 1).val < 64 := Nat.lt_of_lt_of_le (j 1).isLt (win2_2.xsize_le (grid2.coords t) 1)
  have e : (win2_2.xinj (grid2.coords t) j : S256x64.Idx) = ValueIdx.ix2 (⟨(j 0).val, hp⟩ : Fin 256) (⟨(j 1).val, hq⟩ : Fin 64) := by
    funext a
    match a with
    | ⟨0, _⟩ => rfl
    | ⟨1, _⟩ => rfl
  show k2_pay1 (F := Ideal) (win2_0.fill (grid2.coords t) d blk) s (win2_2.xinj (grid2.coords t) j)
    = k2_pay1 (F := Ideal) (win2_0.fill (grid2.coords t) d' blk) s (win2_2.xinj (grid2.coords t) j)
  rw [e, pay_apply, pay_apply]
  refine Finset.sum_congr rfl fun k _ => ?_
  have hm : win2_0.moved (grid2.coords t) (ValueIdx.ix2 (⟨(j 0).val, hp⟩ : Fin 256) k) = true :=
    (win2_0.moved_iff _ _).mpr fun a => by
      have hx := xsize_facts t
      have hj : (j 0).val < win2_2.xsize (grid2.coords t) 0 := (j 0).isLt
      match a with
      | ⟨0, _⟩ =>
        show (j 0).val < win2_0.xsize (grid2.coords t) 0
        rw [← hx.1]; exact hj
      | ⟨1, _⟩ =>
        show k.val < win2_0.xsize (grid2.coords t) 1
        rw [hx.2]; exact k.isLt
  rw [fill_eq_of_moved win2_0 (grid2.coords t) d d' blk hm]

/-- The body obligation at every point, each cut window stated on the rows inside the array. -/
theorem body_obligation (c : Dev nD) : BodyObligationLoose (dat V c) (defs₀ (F := Ideal)) Variants.none () Set.univ := fun t => by
  rw [bigSep_W2, bigSep_W2]
  simp only
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩⟩
  rw [before_0 V c t d0, before_1 V c t d1, before_2 V c t d2]
  iapply (sound_kernel2 (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_0.fill (grid2.coords t) d0 (iblk V c 0 t)) (iblk V c 1 t) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · -- the block of `adj`: on the rows inside the array the buffer holds the block, as the zero-filled block does
    iexists d0
    rw [after_0]; unfold adjBlk
    change _ ⊢ owns (Val := Elt Ideal) (c : Thread nD τ) (stage2_0 (cfg2.slots t 0)) fullShare
      (win2_0.fill (grid2.coords t) d0 (win2_0.cut (grid2.coords t) (win2_0.fill (grid2.coords t) (fun _ => (0 : EReal)) (iblk V c 0 t))))
    rw [Window.cut_fill]
    try iexact H0
  isplitl [H1]
  · rw [after_1]; iexact H1
  · -- the output: the witness is the value the body computed from the buffer as it was; on the rows inside the
    -- array it is the value computed from the zero-filled block
    iexists k2_pay1 (win2_0.fill (grid2.coords t) d0 (iblk V c 0 t)) (iblk V c 1 t)
    rw [after_2]; unfold adjBlk
    change _ ⊢ owns (Val := Elt Ideal) (c : Thread nD τ) (stage2_2 (cfg2.slots t 2)) fullShare
      (win2_2.fill (grid2.coords t) (k2_pay1 (F := Ideal) (win2_0.fill (grid2.coords t) d0 (iblk V c 0 t)) (iblk V c 1 t))
        (win2_2.cut (grid2.coords t) (k2_pay1 (F := Ideal) (win2_0.fill (grid2.coords t) (fun _ => (0 : EReal)) (iblk V c 0 t)) (iblk V c 1 t))))
    have key := Window.fill_congr_cut win2_2 (grid2.coords t)
      (pay_row_local t d0 (fun _ => (0 : EReal)) (iblk V c 0 t) (iblk V c 1 t))
    erw [key]
    try iexact H2

/-! ### The output array

What point `t` writes back is the rows of its block inside the array of `adj · s`; the 40 blocks' rows, the last cut
to 16, are the array's 10000. -/

/-- The index maps over the grid: the output's block and the block of `adj` sit at row block `t` and column block 0;
    `s` is one block; the output's block keeps its 64 columns and ends at row `256 (t + 1)` or at the array's end. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ t.val * 256 + win2_2.xsize (grid2.coords t) (0 : Fin 2) = min (t.val * 256 + 256) 10000
    ∧ win2_2.xsize (grid2.coords t) (1 : Fin 2) = 64 :=
  (by decide +kernel : ∀ t : Fin grid2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ t.val * 256 + win2_2.xsize (grid2.coords t) (0 : Fin 2) = min (t.val * 256 + 256) 10000
    ∧ win2_2.xsize (grid2.coords t) (1 : Fin 2) = 64)

/-- What point `t` writes back: its block of `adj · s`, on the rows inside the array. -/
theorem flushed_eq (c : Dev nD) (t : Fin cfg2.N) :
    (dat V c).flushed 2 t
      = ((cfg2.win 2).blk t).view.read (Elt Ideal) (Cert.Spec.aggregate (V c main_arg1) (V c main_call0_v3)) := by
  show (cfg2.win 2).cut (grid2.coords t) ((dat V c).after 2 t) = _
  rw [after_2]
  funext y
  obtain ⟨e00, e01, e10, e11, e20, e21, -, -⟩ := idx_facts t
  have hx := xsize_facts t
  have hp : (y 0).val < 256 := Nat.lt_of_lt_of_le (y 0).isLt (win2_2.xsize_le (grid2.coords t) 0)
  have hq : (y 1).val < 64 := Nat.lt_of_lt_of_le (y 1).isLt (win2_2.xsize_le (grid2.coords t) 1)
  have e : (win2_2.xinj (grid2.coords t) y : S256x64.Idx) = ValueIdx.ix2 (⟨(y 0).val, hp⟩ : Fin 256) (⟨(y 1).val, hq⟩ : Fin 64) := by
    funext a
    match a with
    | ⟨0, _⟩ => rfl
    | ⟨1, _⟩ => rfl
  show k2_pay1 (F := Ideal) (adjBlk V c t) (iblk V c 1 t) (win2_2.xinj (grid2.coords t) y)
    = Cert.Spec.aggregate (V c main_arg1) (V c main_call0_v3) ((win2_2.blk t).view.emb y)
  rw [e, pay_apply]
  unfold Cert.Spec.aggregate
  refine Finset.sum_congr rfl fun k _ => ?_
  -- the row of `adj`: the buffer's row p is the array's row 256 t + p
  have hm : win2_0.moved (grid2.coords t) (ValueIdx.ix2 (⟨(y 0).val, hp⟩ : Fin 256) k) = true :=
    (win2_0.moved_iff _ _).mpr fun a => by
      have hj : (y 0).val < win2_2.xsize (grid2.coords t) 0 := (y 0).isLt
      match a with
      | ⟨0, _⟩ =>
        show (y 0).val < win2_0.xsize (grid2.coords t) 0
        rw [← hx.1]; exact hj
      | ⟨1, _⟩ =>
        show k.val < win2_0.xsize (grid2.coords t) 1
        rw [hx.2]; exact k.isLt
  have hA : adjBlk V c t (ValueIdx.ix2 (⟨(y 0).val, hp⟩ : Fin 256) k)
      = (V c main_arg1 : Cert.Spec.A10000x10000) (ValueIdx.ix2 ((win2_2.blk t).view.emb y 0) k) := by
    unfold adjBlk Window.fill
    rw [dif_pos hm]
    show (V c main_arg1 : Cert.Spec.A10000x10000) ((win2_0.blk t).view.emb _) = _
    congr 1
    funext a; apply Fin.ext
    match a with
    | ⟨0, _⟩ =>
      show win2_0.index t (0 : Fin 2) * 256 + 1 * (y 0).val = win2_2.index t (0 : Fin 2) * 256 + 1 * (y 0).val
      omega
    | ⟨1, _⟩ =>
      show win2_0.index t (1 : Fin 2) * 10000 + 1 * k.val = k.val
      omega
  -- the column of `s`: the one block is the whole array
  have hS : iblk V c 1 t (ValueIdx.ix2 k (⟨(y 1).val, hq⟩ : Fin 64))
      = (V c main_call0_v3 : Cert.Spec.A10000x64) (ValueIdx.ix2 k ((win2_2.blk t).view.emb y 1)) := by
    show (V c main_call0_v3 : Cert.Spec.A10000x64) ((win2_1.blk t).view.emb (ValueIdx.ix2 k (⟨(y 1).val, hq⟩ : Fin 64))) = _
    congr 1
    funext a; apply Fin.ext
    match a with
    | ⟨0, _⟩ =>
      show win2_1.index t (0 : Fin 2) * 10000 + 1 * k.val = k.val
      omega
    | ⟨1, _⟩ =>
      show win2_1.index t (1 : Fin 2) * 64 + 1 * (y 1).val = win2_2.index t (1 : Fin 2) * 64 + 1 * (y 1).val
      omega
  rw [hA, hS]

/-- An index of the array is in point `t`'s block iff each coordinate is in the block's range, cut at the array's end. -/
theorem mem_blk (t : Fin cfg2.N) (i : S10000x64.Idx) :
    i ∈ ((cfg2.win 2).blk t).view.set ↔ ∀ a : Fin 2, win2_2.index t a * S256x64.size a ≤ (i a).val
      ∧ (i a).val < win2_2.index t a * S256x64.size a + win2_2.xsize (grid2.coords t) a := by
  show i ∈ ((View.whole main_call0_v4).slice (win2_2.rect t)).set ↔ _
  rw [View.set_slice_whole, Rect.mem_set_unit]
  exact Iff.rfl

/-- Row r of the array lies in the block of point r / 256. -/
theorem cover (i : S10000x64.Idx) :
    ∃ t : Fin cfg2.N, (cfg2.win 2).flush t = true ∧ i ∈ ((cfg2.win 2).blk t).view.set := by
  have hi0 : (i 0).val < 10000 := (i 0).isLt
  have hi1 : (i 1).val < 64 := (i 1).isLt
  have hN : grid2.N = 40 := N_2
  have ht : (i 0).val / 256 < grid2.N := by rw [hN]; omega
  refine ⟨⟨(i 0).val / 256, ht⟩, flush2_2 _, ?_⟩
  rw [mem_blk]
  obtain ⟨-, -, -, -, e20, e21, x0, x1⟩ := idx_facts ⟨(i 0).val / 256, ht⟩
  have hv : (⟨(i 0).val / 256, ht⟩ : Fin cfg2.N).val = (i 0).val / 256 := rfl
  rw [hv] at e20 x0
  intro a
  match a with
  | ⟨0, _⟩ =>
    show win2_2.index ⟨(i 0).val / 256, ht⟩ (0 : Fin 2) * 256 ≤ (i 0).val
      ∧ (i 0).val < win2_2.index ⟨(i 0).val / 256, ht⟩ (0 : Fin 2) * 256 + win2_2.xsize (grid2.coords ⟨(i 0).val / 256, ht⟩) (0 : Fin 2)
    omega
  | ⟨1, _⟩ =>
    show win2_2.index ⟨(i 0).val / 256, ht⟩ (1 : Fin 2) * 64 ≤ (i 1).val
      ∧ (i 1).val < win2_2.index ⟨(i 0).val / 256, ht⟩ (1 : Fin 2) * 64 + win2_2.xsize (grid2.coords ⟨(i 0).val / 256, ht⟩) (1 : Fin 2)
    omega

/-- The output array after the last write-back: `adj · s` of the arrays the region was entered with. -/
theorem arrAt_out (c : Dev nD) :
    (dat V c).arrAt 2 cfg2.N = Cert.Spec.aggregate (V c main_arg1) (V c main_call0_v3) :=
  (dat V c).arrAt_eq_of_cover 2 _ (fun t _ => flushed_eq V c t) cover

end Cert.KernelIdeal.Reg2

end
-- ==== Proof.Reg3.lean ====
import proofs.«130511_g42314017800419_cont_8to1_b_959_3_alg».proof.Proof.Gen.KernelIdeal.Launch
import proofs.«130511_g42314017800419_cont_8to1_b_959_3_alg».proof.Proof.Gen.KernelIdeal.Skeleton
import proofs.«130511_g42314017800419_cont_8to1_b_959_3_alg».proof.Proof.Gen.KernelIdeal.Points
import proofs.«130511_g42314017800419_cont_8to1_b_959_3_alg».proof.Proof.Body
import proofs.«130511_g42314017800419_cont_8to1_b_959_3_alg».proof.Proof.Spec
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Body
open Idealize.ShloMosaic.ValueIdx
open scoped BigOperators

local notation "𝕄" => MT nD τ sig Unit (Elt Ideal) ℕ (UR sig nD τ) ℕ

/-! Region 3 over the extended reals: a 20 × 5 grid of blocks, 512 rows of `mu` against 2048 columns of its
    transpose; the last block row reaches 240 rows past `mu`'s end and the last block column 240 columns past
    the transpose's. Entry (p, q) of `mu_blk · mut_blk` reads row p of the one and column q of the other only,
    so the part of a block inside the result array does not depend on what fills the buffers past the arrays'
    ends. -/

variable (V : (c : Dev nD) → (b : Ref sig .tc) → Buf (Elt Ideal) ((c : Thread nD τ).loc b))

/-- Window `w`'s block at point `t`, its part inside the array, read off the array as the region finds it. -/
def iblk (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

/-- The block of `mu` at point `t` filled out to the staging buffer's 512 rows with zeros. -/
def muBlk (c : Dev nD) (t : Fin cfg3.N) : Vec Ideal S512x32 .f32 :=
  win3_0.fill (grid3.coords t) (fun _ => (0 : EReal)) (iblk V c 0 t)

/-- The block of the transpose at point `t` filled out to the staging buffer's 2048 columns with zeros. -/
def mutBlk (c : Dev nD) (t : Fin cfg3.N) : Vec Ideal S32x2048 .f32 :=
  win3_1.fill (grid3.coords t) (fun _ => (0 : EReal)) (iblk V c 1 t)

/-- The proof data: the arrays as the region finds them; after the body the inputs' buffers at their blocks and
    the output's at the body's value of them. -/
def dat (c : Dev nD) : Dat τ (Elt Ideal) Unit ℕ (UR sig nD τ) ℕ cfg3 c where
  A w := V c (Pipeline.arrRef spec3 w)
  after w t := match w with
    | ⟨0, _⟩ => muBlk V c t
    | ⟨1, _⟩ => mutBlk V c t
    | ⟨2, _⟩ => k3_pay1 (muBlk V c t) (mutBlk V c t)
  Φ _ := Pipeline.ΦA spec3 c
  q _ := fullShare
  owed _ := 0

theorem A_eq (c : Dev nD) (w : Fin cfg3.W) : (dat V c).A w = V c (Pipeline.arrRef spec3 w) := by
  dsimp only [dat]

/-! ## The dot's operand indices, axis by axis -/

theorem lhs_k3_0 (i : S512x2048.Idx) (q : dot_S512x32_S32x2048_S512x2048_1_0_0_1_n_n.contr.Idx) :
    (dot_S512x32_S32x2048_S512x2048_1_0_0_1_n_n.lhsIdx i q 0).val = (i 0).val := by
  unfold DotDims.lhsIdx
  rw [dif_neg (show ¬(0 : Fin S512x32.rank) ∈ dot_S512x32_S32x2048_S512x2048_1_0_0_1_n_n.lhsBatch by decide), dif_pos (show (0 : Fin S512x32.rank) ∈ dot_S512x32_S32x2048_S512x2048_1_0_0_1_n_n.lhsNonContracting by decide)]
  rfl
theorem lhs_k3_1 (i : S512x2048.Idx) (q : dot_S512x32_S32x2048_S512x2048_1_0_0_1_n_n.contr.Idx) :
    (dot_S512x32_S32x2048_S512x2048_1_0_0_1_n_n.lhsIdx i q 1).val = (q ⟨0, by decide⟩).val :=
  dot_S512x32_S32x2048_S512x2048_1_0_0_1_n_n.lhsIdx_val_of_single rfl i q
theorem rhs_k3_0 (i : S512x2048.Idx) (q : dot_S512x32_S32x2048_S512x2048_1_0_0_1_n_n.contr.Idx) :
    (dot_S512x32_S32x2048_S512x2048_1_0_0_1_n_n.rhsIdx i q 0).val = (q ⟨0, by decide⟩).val :=
  dot_S512x32_S32x2048_S512x2048_1_0_0_1_n_n.rhsIdx_val_of_single rfl i q
theorem rhs_k3_1 (i : S512x2048.Idx) (q : dot_S512x32_S32x2048_S512x2048_1_0_0_1_n_n.contr.Idx) :
    (dot_S512x32_S32x2048_S512x2048_1_0_0_1_n_n.rhsIdx i q 1).val = (i 1).val := by
  unfold DotDims.rhsIdx
  rw [dif_neg (show ¬(1 : Fin S32x2048.rank) ∈ dot_S512x32_S32x2048_S512x2048_1_0_0_1_n_n.rhsBatch by decide), dif_pos (show (1 : Fin S32x2048.rank) ∈ dot_S512x32_S32x2048_S512x2048_1_0_0_1_n_n.rhsNonContracting by decide)]
  rfl

/-- The body's value at entry (p, q): the sum over the 32 latent coordinates of row p of the one operand against
    column q of the other. Over the extended reals the two format changes and the two same-shape casts are the
    identity and the product into the zero accumulator is the plain sum. -/
theorem k3_pay1_apply (A : Vec Ideal S512x32 .f32) (B : Vec Ideal S32x2048 .f32) (p : Fin 512) (q : Fin 2048) :
    k3_pay1 (F := Ideal) A B (ix2 p q) = ∑ k : Fin 32, A (ix2 p k) * B (ix2 k q) := by
  unfold k3_pay1
  simp only [shapeCast_self, matmul]
  rw [Ideal.matmul_constant_zero_apply, ← Equiv.sum_comp (contrEquiv1 dot_S512x32_S32x2048_S512x2048_1_0_0_1_n_n 32 rfl rfl).symm]
  refine Finset.sum_congr rfl fun k _ => ?_
  have hk := contrEquiv1_symm_val dot_S512x32_S32x2048_S512x2048_1_0_0_1_n_n 32 rfl rfl k
  have el : dot_S512x32_S32x2048_S512x2048_1_0_0_1_n_n.lhsIdx (ix2 p q) ((contrEquiv1 dot_S512x32_S32x2048_S512x2048_1_0_0_1_n_n 32 rfl rfl).symm k) = ix2 p k := funext fun a => Fin.ext (by
    match a with
    | ⟨0, _⟩ => exact lhs_k3_0 _ _
    | ⟨1, _⟩ => exact (lhs_k3_1 _ _).trans hk)
  have er : dot_S512x32_S32x2048_S512x2048_1_0_0_1_n_n.rhsIdx (ix2 p q) ((contrEquiv1 dot_S512x32_S32x2048_S512x2048_1_0_0_1_n_n 32 rfl rfl).symm k) = ix2 k q := funext fun a => Fin.ext (by
    match a with
    | ⟨0, _⟩ => exact (rhs_k3_0 _ _).trans hk
    | ⟨1, _⟩ => exact rhs_k3_1 _ _)
  rw [truncf_apply, truncf_apply, el, er]

/-- Entry (p, q) reads row p of the first operand and column q of the second only. -/
theorem k3_pay1_congr (A A' : Vec Ideal S512x32 .f32) (B B' : Vec Ideal S32x2048 .f32) (p : Fin 512) (q : Fin 2048)
    (hA : ∀ k : Fin 32, A (ix2 p k) = A' (ix2 p k)) (hB : ∀ k : Fin 32, B (ix2 k q) = B' (ix2 k q)) :
    k3_pay1 (F := Ideal) A B (ix2 p q) = k3_pay1 (F := Ideal) A' B' (ix2 p q) := by
  rw [k3_pay1_apply, k3_pay1_apply]
  exact Finset.sum_congr rfl fun k _ => by rw [hA k, hB k]

/-! ## What the body finds in each staging buffer -/

/-- A window's cuts are a function of its block index. -/
theorem hclip_0 : ∀ t t' : Fin cfg3.N, (cfg3.win 0).index t = (cfg3.win 0).index t' →
    (cfg3.win 0).clip (cfg3.grid.coords t) = (cfg3.win 0).clip (cfg3.grid.coords t') := by
  intro t t' h
  funext a
  have ha := congrFun h a
  show Pipeline.Clip.of ((cfg3.win 0).index t a) _ _ = Pipeline.Clip.of ((cfg3.win 0).index t' a) _ _
  rw [ha]

/-- The block of `mu` is in its buffer at every point, fetched there or kept from the point before (the block row
    does not move within a row of the grid): on the rows inside the array the block, anything past them. -/
theorem before_0 (c : Dev nD) (t : Fin cfg3.N) (d) :
    (dat V c).before (0 : Fin 3) t d = win3_0.fill (grid3.coords t) d (iblk V c 0 t) := by
  rw [(dat V c).before_in_eq_fetched (0 : Fin 3) rfl (fun _ => rfl) hclip_0 (fun t => by
    dsimp only [dat]
    exact win3_0.cut_fill _ _ _) t d]
  rfl

/-- The transpose's block is fetched at every point. -/
theorem before_1 (c : Dev nD) (t : Fin cfg3.N) (d) :
    (dat V c).before (1 : Fin 3) t d = win3_1.fill (grid3.coords t) d (iblk V c 1 t) := by
  unfold Dat.before; rw [if_pos (fetch3_1 t)]; rfl

/-- The output's buffer is written back at every point: the body finds anything there. -/
theorem before_2 (c : Dev nD) (t : Fin cfg3.N) (d) : (dat V c).before (2 : Fin 3) t d = d := by
  refine (dat V c).before_out_reset (2 : Fin 3) rfl t ?_ d
  by_cases h : t.val = 0
  · exact .inl h
  · exact .inr ⟨h, flush3_2 _⟩

/-- Two fillings of one block agree wherever the transfer moves. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- The cuts of the three windows, decided over the grid: the output's rows are cut as `mu`'s, its columns as the
    transpose's, and neither input is cut along the latent axis. -/
theorem xs_facts : ∀ t : Fin cfg3.N, win3_0.xsize (grid3.coords t) (0 : Fin 2) = win3_2.xsize (grid3.coords t) (0 : Fin 2)
    ∧ win3_0.xsize (grid3.coords t) (1 : Fin 2) = 32
    ∧ win3_1.xsize (grid3.coords t) (0 : Fin 2) = 32
    ∧ win3_1.xsize (grid3.coords t) (1 : Fin 2) = win3_2.xsize (grid3.coords t) (1 : Fin 2) :=
  (by decide +kernel : ∀ t : Fin grid3.N, _)

/-- On the part of the output block inside the array the body's value does not depend on what fills the two
    input buffers past the arrays' ends. -/
theorem cut_pay (c : Dev nD) (t : Fin cfg3.N) (d0 : S512x32.Idx → Elt Ideal .f32) (d1 : S32x2048.Idx → Elt Ideal .f32) :
    win3_2.cut (grid3.coords t) (k3_pay1 (F := Ideal) (win3_0.fill (grid3.coords t) d0 (iblk V c 0 t)) (win3_1.fill (grid3.coords t) d1 (iblk V c 1 t)))
      = win3_2.cut (grid3.coords t) (k3_pay1 (F := Ideal) (muBlk V c t) (mutBlk V c t)) := by
  obtain ⟨e0, e1, e2, e3⟩ := xs_facts t
  funext j
  have hj0 : (j 0).val < win3_2.xsize (grid3.coords t) (0 : Fin 2) := (j 0).isLt
  have hj1 : (j 1).val < win3_2.xsize (grid3.coords t) (1 : Fin 2) := (j 1).isLt
  have hp : (j 0).val < 512 := lt_of_lt_of_le hj0 (win3_2.xsize_le _ 0)
  have hq : (j 1).val < 2048 := lt_of_lt_of_le hj1 (win3_2.xsize_le _ 1)
  have e : win3_2.xinj (grid3.coords t) j = ix2 (⟨(j 0).val, hp⟩ : Fin 512) (⟨(j 1).val, hq⟩ : Fin 2048) := by
    funext a; match a with | ⟨0, _⟩ => rfl | ⟨1, _⟩ => rfl
  show k3_pay1 (F := Ideal) _ _ (win3_2.xinj (grid3.coords t) j) = k3_pay1 (F := Ideal) _ _ (win3_2.xinj (grid3.coords t) j)
  rw [e]
  refine k3_pay1_congr _ _ _ _ _ _ (fun k => ?_) (fun k => ?_)
  · refine fill_eq_of_moved win3_0 _ _ _ _ _ ((win3_0.moved_iff _ _).mpr fun a => ?_)
    match a with
    | ⟨0, _⟩ => show (j 0).val < win3_0.xsize (grid3.coords t) (0 : Fin 2); omega
    | ⟨1, _⟩ => show k.val < win3_0.xsize (grid3.coords t) (1 : Fin 2); have := k.isLt; omega
  · refine fill_eq_of_moved win3_1 _ _ _ _ _ ((win3_1.moved_iff _ _).mpr fun a => ?_)
    match a with
    | ⟨0, _⟩ => show k.val < win3_1.xsize (grid3.coords t) (0 : Fin 2); have := k.isLt; omega
    | ⟨1, _⟩ => show (j 1).val < win3_1.xsize (grid3.coords t) (1 : Fin 2); omega

/-- What the body leaves, window by window: the proof data's `match` reduced. -/
theorem after_0 (c : Dev nD) (t : Fin cfg3.N) : (dat V c).after 0 t = muBlk V c t := by dsimp only [dat]
theorem after_1 (c : Dev nD) (t : Fin cfg3.N) : (dat V c).after 1 t = mutBlk V c t := by dsimp only [dat]
theorem after_2 (c : Dev nD) (t : Fin cfg3.N) :
    (dat V c).after 2 t = k3_pay1 (muBlk V c t) (mutBlk V c t) := by dsimp only [dat]

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns: each buffer stated on the part of its block inside the array. -/
def bodyPost (c : Dev nD) (t : Fin cfg3.N) : sProp 𝕄 :=
  iprop((dat V c).Φ t.succ ∗ (dat V c).owesAt () t.succ
    ∗ (∃ d, owns (c : Thread nD τ) (st3_0 t) fullShare (win3_0.fill (grid3.coords t) d (win3_0.cut (grid3.coords t) ((dat V c).after 0 t))))
    ∗ (∃ d, owns (c : Thread nD τ) (st3_1 t) fullShare (win3_1.fill (grid3.coords t) d (win3_1.cut (grid3.coords t) ((dat V c).after 1 t))))
    ∗ (∃ d, owns (c : Thread nD τ) (st3_2 t) fullShare (win3_2.fill (grid3.coords t) d (win3_2.cut (grid3.coords t) ((dat V c).after 2 t)))))

/-- The body at any point: the inputs' buffers hold their blocks filled out with anything, the output's holds
    anything; the body leaves the inputs as they were and the product in the output's, which inside the array is
    the product of the blocks filled out with zeros. -/
theorem sound_body (c : Dev nD) (t : Fin cfg3.N) :
    bodyPre V c t ⊢ wp frame (wpE (defs₀ (F := Ideal)) Variants.none c none) Set.univ (bodyAt3 t) (fun _ => bodyPost V c t) := by
  unfold bodyPre bodyPost bodyAt3
  simp only [before_0, before_1, before_2]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel3 c Set.univ (grid3.coords t) _ _ _ _ _ _
    (win3_0.fill (grid3.coords t) d0 (iblk V c 0 t)) (win3_1.fill (grid3.coords t) d1 (iblk V c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win3_0.cut (grid3.coords t) (muBlk V c t) = iblk V c 0 t := win3_0.cut_fill _ _ _
  have hy : win3_1.cut (grid3.coords t) (mutBlk V c t) = iblk V c 1 t := win3_1.cut_fill _ _ _
  isplitl [H0]
  · iexists d0; rw [hx]; iexact H0
  isplitl [H1]
  · iexists d1; rw [hy]; iexact H1
  · iexists k3_pay1 (F := Ideal) (win3_0.fill (grid3.coords t) d0 (iblk V c 0 t)) (win3_1.fill (grid3.coords t) d1 (iblk V c 1 t))
    rw [win3_2.fill_congr_cut (grid3.coords t) (cut_pay V c t d0 d1)]; iexact H2

/-- The body obligation at every point, each cut window stated on the part inside the array. -/
theorem body_obligation (c : Dev nD) : BodyObligationLoose (dat V c) (defs₀ (F := Ideal)) Variants.none () Set.univ := fun t => by
  rw [bigSep_W3, bigSep_W3]
  exact sound_body V c t

/-! ## The output array after the last write-back -/

/-- The three index maps and the output's cuts, decided over the grid: the output's block row is `mu`'s, its
    block column the transpose's; neither input moves along the latent axis; point `t` is block (t / 5, t % 5);
    and the part of a block inside the array ends at the block's end or at the array's, whichever comes first. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = win3_2.index t (1 : Fin 2)
    ∧ win3_2.index t (0 : Fin 2) = t.val / 5
    ∧ win3_2.index t (1 : Fin 2) = t.val % 5
    ∧ win3_2.index t (0 : Fin 2) * 512 + win3_2.xsize (grid3.coords t) (0 : Fin 2) = min ((win3_2.index t (0 : Fin 2) + 1) * 512) 10000
    ∧ win3_2.index t (1 : Fin 2) * 2048 + win3_2.xsize (grid3.coords t) (1 : Fin 2) = min ((win3_2.index t (1 : Fin 2) + 1) * 2048) 10000 :=
  (by decide +kernel : ∀ t : Fin grid3.N, _)

/-- The filled block of `mu` at a row inside the array is the array's row there. -/
theorem muBlk_apply (c : Dev nD) (t : Fin cfg3.N) (p : Fin 512) (k : Fin 32) (r : Fin 10000)
    (hp : p.val < win3_0.xsize (grid3.coords t) (0 : Fin 2))
    (hr : r.val = win3_0.index t (0 : Fin 2) * 512 + p.val) :
    muBlk V c t (ix2 p k) = (V c main_v0_1 : Cert.Spec.A10000x32) (ix2 r k) := by
  obtain ⟨x0, x1, x2, x3⟩ := xs_facts t
  obtain ⟨e0, e1, e2, e3, -⟩ := idx_facts t
  have hm : win3_0.moved (grid3.coords t) (ix2 p k) = true := (win3_0.moved_iff _ _).mpr fun a => by
    match a with
    | ⟨0, _⟩ => exact hp
    | ⟨1, _⟩ => show k.val < win3_0.xsize (grid3.coords t) (1 : Fin 2); have := k.isLt; omega
  unfold muBlk Window.fill
  rw [dif_pos hm]
  unfold iblk
  show (V c main_v0_1 : Cert.Spec.A10000x32) (((cfg3.win 0).blk t).view.emb _) = _
  refine congrArg _ ?_
  funext a; apply Fin.ext
  match a with
  | ⟨0, _⟩ => show win3_0.index t (0 : Fin 2) * 512 + 1 * p.val = r.val; omega
  | ⟨1, _⟩ => show win3_0.index t (1 : Fin 2) * 32 + 1 * k.val = k.val; omega

/-- The filled block of the transpose at a column inside the array is the array's column there. -/
theorem mutBlk_apply (c : Dev nD) (t : Fin cfg3.N) (k : Fin 32) (q : Fin 2048) (s : Fin 10000)
    (hq : q.val < win3_1.xsize (grid3.coords t) (1 : Fin 2))
    (hs : s.val = win3_1.index t (1 : Fin 2) * 2048 + q.val) :
    mutBlk V c t (ix2 k q) = (V c main_call0_v7 : Cert.Spec.A32x10000) (ix2 k s) := by
  obtain ⟨x0, x1, x2, x3⟩ := xs_facts t
  obtain ⟨e0, e1, e2, e3, -⟩ := idx_facts t
  have hm : win3_1.moved (grid3.coords t) (ix2 k q) = true := (win3_1.moved_iff _ _).mpr fun a => by
    match a with
    | ⟨0, _⟩ => show k.val < win3_1.xsize (grid3.coords t) (0 : Fin 2); have := k.isLt; omega
    | ⟨1, _⟩ => exact hq
  unfold mutBlk Window.fill
  rw [dif_pos hm]
  unfold iblk
  show (V c main_call0_v7 : Cert.Spec.A32x10000) (((cfg3.win 1).blk t).view.emb _) = _
  refine congrArg _ ?_
  funext a; apply Fin.ext
  match a with
  | ⟨0, _⟩ => show win3_1.index t (0 : Fin 2) * 32 + 1 * k.val = k.val; omega
  | ⟨1, _⟩ => show win3_1.index t (1 : Fin 2) * 2048 + 1 * q.val = s.val; omega

/-- What point `t` writes back is its block of `mu · mut` of the arrays the region was entered with. -/
theorem flushed_eq (c : Dev nD) (t : Fin cfg3.N) :
    (dat V c).flushed 2 t
      = ((cfg3.win 2).blk t).view.read (Elt Ideal) (Cert.Spec.decode (V c main_v0_1) (V c main_call0_v7)) := by
  show (cfg3.win 2).cut (grid3.coords t) ((dat V c).after 2 t) = _
  rw [after_2]
  obtain ⟨x0, x1, x2, x3⟩ := xs_facts t
  obtain ⟨e0, e1, e2, e3, e4, e5, e6, e7⟩ := idx_facts t
  funext j
  have hj0 : (j 0).val < win3_2.xsize (grid3.coords t) (0 : Fin 2) := (j 0).isLt
  have hj1 : (j 1).val < win3_2.xsize (grid3.coords t) (1 : Fin 2) := (j 1).isLt
  have hp : (j 0).val < 512 := lt_of_lt_of_le hj0 (win3_2.xsize_le _ 0)
  have hq : (j 1).val < 2048 := lt_of_lt_of_le hj1 (win3_2.xsize_le _ 1)
  have hr : win3_2.index t (0 : Fin 2) * 512 + (j 0).val < 10000 := by omega
  have hs : win3_2.index t (1 : Fin 2) * 2048 + (j 1).val < 10000 := by omega
  have e : win3_2.xinj (grid3.coords t) j = ix2 (⟨(j 0).val, hp⟩ : Fin 512) (⟨(j 1).val, hq⟩ : Fin 2048) := by
    funext a; match a with | ⟨0, _⟩ => rfl | ⟨1, _⟩ => rfl
  have er : ((cfg3.win 2).blk t).view.emb j
      = ix2 (⟨win3_2.index t (0 : Fin 2) * 512 + (j 0).val, hr⟩ : Fin 10000) (⟨win3_2.index t (1 : Fin 2) * 2048 + (j 1).val, hs⟩ : Fin 10000) := by
    funext a; apply Fin.ext
    match a with
    | ⟨0, _⟩ => show win3_2.index t (0 : Fin 2) * 512 + 1 * (j 0).val = win3_2.index t (0 : Fin 2) * 512 + (j 0).val; omega
    | ⟨1, _⟩ => show win3_2.index t (1 : Fin 2) * 2048 + 1 * (j 1).val = win3_2.index t (1 : Fin 2) * 2048 + (j 1).val; omega
  show k3_pay1 (F := Ideal) (muBlk V c t) (mutBlk V c t) (win3_2.xinj (grid3.coords t) j)
    = Cert.Spec.decode (V c main_v0_1) (V c main_call0_v7) (((cfg3.win 2).blk t).view.emb j)
  rw [e, er, k3_pay1_apply]
  unfold Cert.Spec.decode
  refine Finset.sum_congr rfl fun k _ => ?_
  rw [muBlk_apply V c t ⟨(j 0).val, hp⟩ k ⟨win3_2.index t (0 : Fin 2) * 512 + (j 0).val, hr⟩ (by show (j 0).val < _; omega)
      (by show win3_2.index t (0 : Fin 2) * 512 + (j 0).val = win3_0.index t (0 : Fin 2) * 512 + (j 0).val; omega),
    mutBlk_apply V c t k ⟨(j 1).val, hq⟩ ⟨win3_2.index t (1 : Fin 2) * 2048 + (j 1).val, hs⟩ (by show (j 1).val < _; omega)
      (by show win3_2.index t (1 : Fin 2) * 2048 + (j 1).val = win3_1.index t (1 : Fin 2) * 2048 + (j 1).val; omega)]

/-- An index of the array is in point `t`'s block iff each coordinate is in the block's range on its axis, the range
    ending where the block's part inside the array ends. -/
theorem mem_blk2 (t : Fin cfg3.N) (i : S10000x10000.Idx) :
    i ∈ ((cfg3.win 2).blk t).view.set ↔ ∀ a : Fin 2, win3_2.index t a * S512x2048.size a ≤ (i a).val
      ∧ (i a).val < win3_2.index t a * S512x2048.size a + win3_2.xsize (grid3.coords t) a := by
  show i ∈ ((View.whole main_v0_0).slice (win3_2.rect t)).set ↔ _
  rw [View.set_slice_whole, Rect.mem_set_unit]
  exact Iff.rfl

/-- Every entry (p, q) of the array lies in the block of point (p / 512) · 5 + q / 2048. -/
theorem cover (i : S10000x10000.Idx) :
    ∃ t : Fin cfg3.N, (cfg3.win 2).flush t = true ∧ i ∈ ((cfg3.win 2).blk t).view.set := by
  have hi0 : (i 0).val < 10000 := (i 0).isLt
  have hi1 : (i 1).val < 10000 := (i 1).isLt
  have hN : cfg3.N = 100 := N_3
  have ht : (i 0).val / 512 * 5 + (i 1).val / 2048 < cfg3.N := by omega
  obtain ⟨-, -, -, -, e4, e5, e6, e7⟩ := idx_facts ⟨(i 0).val / 512 * 5 + (i 1).val / 2048, ht⟩
  have e4' : win3_2.index ⟨(i 0).val / 512 * 5 + (i 1).val / 2048, ht⟩ (0 : Fin 2) = ((i 0).val / 512 * 5 + (i 1).val / 2048) / 5 := e4
  have e5' : win3_2.index ⟨(i 0).val / 512 * 5 + (i 1).val / 2048, ht⟩ (1 : Fin 2) = ((i 0).val / 512 * 5 + (i 1).val / 2048) % 5 := e5
  refine ⟨⟨(i 0).val / 512 * 5 + (i 1).val / 2048, ht⟩, flush3_2 _, ?_⟩
  rw [mem_blk2]
  intro a
  match a with
  | ⟨0, _⟩ =>
    show win3_2.index ⟨(i 0).val / 512 * 5 + (i 1).val / 2048, ht⟩ (0 : Fin 2) * 512 ≤ (i 0).val
      ∧ (i 0).val < win3_2.index ⟨(i 0).val / 512 * 5 + (i 1).val / 2048, ht⟩ (0 : Fin 2) * 512 + win3_2.xsize (grid3.coords ⟨(i 0).val / 512 * 5 + (i 1).val / 2048, ht⟩) (0 : Fin 2)
    omega
  | ⟨1, _⟩ =>
    show win3_2.index ⟨(i 0).val / 512 * 5 + (i 1).val / 2048, ht⟩ (1 : Fin 2) * 2048 ≤ (i 1).val
      ∧ (i 1).val < win3_2.index ⟨(i 0).val / 512 * 5 + (i 1).val / 2048, ht⟩ (1 : Fin 2) * 2048 + win3_2.xsize (grid3.coords ⟨(i 0).val / 512 * 5 + (i 1).val / 2048, ht⟩) (1 : Fin 2)
    omega

/-- The output array after the last write-back: `mu · mut` of the arrays the region was entered with. -/
theorem arrAt_out (c : Dev nD) :
    (dat V c).arrAt 2 cfg3.N = Cert.Spec.decode (V c main_v0_1) (V c main_call0_v7) :=
  (dat V c).arrAt_eq_of_cover (2 : Fin 3) _ (fun t _ => flushed_eq V c t) cover

end Cert.KernelIdeal.Reg3

end
-- ==== Proof.HostVals.lean ====
import proofs.«130511_g42314017800419_cont_8to1_b_959_3_alg».proof.Proof.Gen.KernelIdeal.Launch
import proofs.«130511_g42314017800419_cont_8to1_b_959_3_alg».proof.Proof.Gen.KernelIdeal.Skeleton
import proofs.«130511_g42314017800419_cont_8to1_b_959_3_alg».proof.Proof.Gen.KernelIdeal.Points
import proofs.«130511_g42314017800419_cont_8to1_b_959_3_alg».proof.Proof.Spec
import Idealize.ShloMosaic.Lib.Pipeline.Value
import Idealize.ShloMosaic.Lib.ValueIdx
import Idealize.ShloMosaic.Lib.ValueLayout

noncomputable section

namespace Cert.KernelIdeal.HostVals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! The kernel program's host operations between its regions, read index by index over the extended reals:
    the two heads' weights side by side, the two column bands of the latent array, the transpose. -/

/-- `[W2 | W3]`, its change of float format the identity over the extended reals. -/
theorem heads_eq (a b : (⟨S64x32, .f32⟩ : BufTy).Contents (Elt Ideal)) :
    (truncf (F := Ideal) .bf16 (concatenate S64x64 1 [⟨S64x32, a⟩, ⟨S64x32, b⟩] concatenates_S64x32_S64x32_S64x64_d1) bitsLt_bf16_f32
      : (⟨S64x64, .bf16⟩ : BufTy).Contents (Elt Ideal))
    = Cert.Spec.heads a b := by
  funext i
  -- over the extended reals the change of format reads through
  show concatenate S64x64 1 [⟨S64x32, a⟩, ⟨S64x32, b⟩] concatenates_S64x32_S64x32_S64x64_d1 i = Cert.Spec.heads a b i
  have hq : (i 1).val < 64 := (i 1).isLt
  unfold Cert.Spec.heads
  by_cases h : (i 1).val < 32
  · -- a column below 32 falls in the first piece, at the same coordinates
    rw [dif_pos h]
    exact concatenate_pair_apply_left (1 : Fin S64x64.rank) a b concatenates_S64x32_S64x32_S64x64_d1 i rfl
      (ix2 (i 0) ⟨(i 1).val, h⟩) (fun c => match c with
        | ⟨0, _⟩ => rfl
        | ⟨1, _⟩ => rfl)
  · -- a column from 32 on falls in the second piece, 32 columns to the left
    rw [dif_neg h]
    exact concatenate_pair_apply_right (1 : Fin S64x64.rank) a b concatenates_S64x32_S64x32_S64x64_d1 i rfl rfl
      (ix2 (i 0) ⟨(i 1).val - 32, by omega⟩) (fun c hc => match c, hc with
        | ⟨0, _⟩, _ => rfl
        | ⟨1, _⟩, hc => absurd rfl hc)
      (by show (i 1).val - 32 + 32 = (i 1).val; omega)

/-- Columns 0‥31 of the latent array. -/
theorem mu_eq (y : (⟨S10000x64, .f32⟩ : BufTy).Contents (Elt Ideal)) :
    extractStridedSlice S10000x32 ![0, 0] y slices_S10000x64_S10000x32_0_0 = Cert.Spec.headMu y := by
  funext i
  have hq : (i 1).val < 32 := (i 1).isLt
  unfold Cert.Spec.headMu
  -- both offsets are zero: each coordinate of the source index is the result's
  exact extractStridedSlice_apply ![0, 0] y slices_S10000x64_S10000x32_0_0 i
    (ix2 (i 0) ⟨(i 1).val, by omega⟩) (fun c => match c with
      | ⟨0, _⟩ => (Nat.zero_add _).symm
      | ⟨1, _⟩ => (Nat.zero_add _).symm)

/-- Columns 32‥63 of the latent array. -/
theorem logvar_eq (y : (⟨S10000x64, .f32⟩ : BufTy).Contents (Elt Ideal)) :
    extractStridedSlice S10000x32 ![0, 32] y slices_S10000x64_S10000x32_0_32 = Cert.Spec.headLogvar y := by
  funext i
  have hq : (i 1).val < 32 := (i 1).isLt
  unfold Cert.Spec.headLogvar
  -- the row is kept, the column moves 32 to the right
  exact extractStridedSlice_apply ![0, 32] y slices_S10000x64_S10000x32_0_32 i
    (ix2 (i 0) ⟨32 + (i 1).val, by omega⟩) (fun c => match c with
      | ⟨0, _⟩ => (Nat.zero_add _).symm
      | ⟨1, _⟩ => rfl)

/-- The transpose swaps the two coordinates. -/
theorem transposed_eq (z : (⟨S10000x32, .f32⟩ : BufTy).Contents (Elt Ideal)) :
    transpose S32x10000 [1, 0] z transposes_S10000x32_S32x10000_1_0 = Cert.Spec.transposed z := by
  funext i
  unfold Cert.Spec.transposed
  -- result axis 0 is source axis 1 and result axis 1 is source axis 0
  exact transpose_apply [1, 0] z transposes_S10000x32_S32x10000_1_0 i (ix2 (i 1) (i 0)) (fun c => match c with
    | ⟨0, _⟩ => rfl
    | ⟨1, _⟩ => rfl)

end Cert.KernelIdeal.HostVals

end
-- ==== Proof.IdealRun.lean ====
import proofs.«130511_g42314017800419_cont_8to1_b_959_3_alg».proof.Proof.Gen.KernelIdeal.Launch
import proofs.«130511_g42314017800419_cont_8to1_b_959_3_alg».proof.Proof.Gen.KernelIdeal.Skeleton
import proofs.«130511_g42314017800419_cont_8to1_b_959_3_alg».proof.Proof.Gen.KernelIdeal.Points
import proofs.«130511_g42314017800419_cont_8to1_b_959_3_alg».proof.Proof.Gen.KernelIdeal.Regions
import proofs.«130511_g42314017800419_cont_8to1_b_959_3_alg».proof.Proof.Reg0
import proofs.«130511_g42314017800419_cont_8to1_b_959_3_alg».proof.Proof.Reg0Value
import proofs.«130511_g42314017800419_cont_8to1_b_959_3_alg».proof.Proof.Reg1
import proofs.«130511_g42314017800419_cont_8to1_b_959_3_alg».proof.Proof.Reg2
import proofs.«130511_g42314017800419_cont_8to1_b_959_3_alg».proof.Proof.Reg3
import proofs.«130511_g42314017800419_cont_8to1_b_959_3_alg».proof.Proof.HostVals
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Tactic

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! The idealized kernel program's run over the extended reals: its four regions and two host stretches in
    order, each region entered with the arrays the items before it left, every array named. -/

variable (m : (ℓ : Loc nD τ sig) → Buf (Elt Ideal) ℓ) (ρ : Dev nD → PrngReg)

/-! ## The buffer contents at each boundary, a fold from the launch memory -/

/-- Core `c`'s buffers at launch (region 0's entry). -/
abbrev W0 : Dev nD → Valuation τ sig (Elt Ideal) := fun c b => m ((c : Dev nD), b)
abbrev V0 : (c : Dev nD) → (b : Ref sig .tc) → Buf (Elt Ideal) ((c : Thread nD τ).loc b) := fun c b => W0 m c b
/-- After region 0: its output array at what its write-backs leave. -/
def W1 (c : Dev nD) : Valuation τ sig (Elt Ideal) :=
  Pipeline.withArrays spec0 c (W0 m c) fun w => (Reg0.dat (F := Ideal) (V0 m) c).arrAt w cfg0.N
abbrev V1 : (c : Dev nD) → (b : Ref sig .tc) → Buf (Elt Ideal) ((c : Thread nD τ).loc b) := fun c b => W1 m c b
/-- After the first host stretch (region 1's entry). -/
abbrev W2 : Dev nD → Valuation τ sig (Elt Ideal) := fun c => StableHlo.after hostOps1 (W1 m c)
abbrev V2 : (c : Dev nD) → (b : Ref sig .tc) → Buf (Elt Ideal) ((c : Thread nD τ).loc b) := fun c b => W2 m c b
/-- After region 1 (region 2's entry). -/
def W3 (c : Dev nD) : Valuation τ sig (Elt Ideal) :=
  Pipeline.withArrays spec1 c (W2 m c) fun w => (Reg1.dat (V2 m) c).arrAt w cfg1.N
abbrev V3 : (c : Dev nD) → (b : Ref sig .tc) → Buf (Elt Ideal) ((c : Thread nD τ).loc b) := fun c b => W3 m c b
/-- After region 2. -/
def W4 (c : Dev nD) : Valuation τ sig (Elt Ideal) :=
  Pipeline.withArrays spec2 c (W3 m c) fun w => (Reg2.dat (V3 m) c).arrAt w cfg2.N
abbrev V4 : (c : Dev nD) → (b : Ref sig .tc) → Buf (Elt Ideal) ((c : Thread nD τ).loc b) := fun c b => W4 m c b
/-- After the second host stretch (region 3's entry). -/
abbrev W5 : Dev nD → Valuation τ sig (Elt Ideal) := fun c => StableHlo.after hostOps3 (W4 m c)
abbrev V5 : (c : Dev nD) → (b : Ref sig .tc) → Buf (Elt Ideal) ((c : Thread nD τ).loc b) := fun c b => W5 m c b
/-- After region 3: the end. -/
def W6 (c : Dev nD) : Valuation τ sig (Elt Ideal) :=
  Pipeline.withArrays spec3 c (W5 m c) fun w => (Reg3.dat (V5 m) c).arrAt w cfg3.N

/-- Every pipeline's proof data, each at its region's entry contents. -/
def pdats : (p : Fin 4) → (c : Dev nD) → Dat τ (Elt Ideal) Unit ℕ (UR sig nD τ) ℕ (Pipeline.pin (pcfgs (F := Ideal)) adm p) c
  | ⟨0, _⟩ => fun c => Reg0.dat (F := Ideal) (V0 m) c
  | ⟨1, _⟩ => fun c => Reg1.dat (V2 m) c
  | ⟨2, _⟩ => fun c => Reg2.dat (V3 m) c
  | ⟨3, _⟩ => fun c => Reg3.dat (V5 m) c

/-! ## Reading the fold one boundary back

A region changes its windows' arrays only, and of those only the output's; a host stretch changes only the
references its operations write. -/

theorem W1_arr (c : Dev nD) (w : Fin cfg0.W) :
    W1 m c (Proc.devRef .tc (Pipeline.arrRef spec0 w)) = (Reg0.dat (F := Ideal) (V0 m) c).arrAt w cfg0.N := by
  unfold W1; exact Pipeline.withArrays_arr spec0 launch0.win.arr_inj c _ _ w
theorem W1_off (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W1_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((Reg0.dat (F := Ideal) (V0 m) c).arrAt_in w hin _).trans (Reg0.A_eq (V0 m) c w))

theorem W2_off (c : Dev nD) (r : Ref sig .tc) (h : r ∉ hostOps1_W) :
    W2 m c (Proc.devRef .tc r) = W1 m c (Proc.devRef .tc r) :=
  StableHlo.after_of_writes_sub hostOps1 _ hostOps1_writes h

theorem W3_arr (c : Dev nD) (w : Fin cfg1.W) :
    W3 m c (Proc.devRef .tc (Pipeline.arrRef spec1 w)) = (Reg1.dat (V2 m) c).arrAt w cfg1.N := by
  unfold W3; exact Pipeline.withArrays_arr spec1 launch1.win.arr_inj c _ _ w
theorem W3_off (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((Reg1.dat (V2 m) c).arrAt_in w hin _).trans (Reg1.A_eq (V2 m) c w))

theorem W4_arr (c : Dev nD) (w : Fin cfg2.W) :
    W4 m c (Proc.devRef .tc (Pipeline.arrRef spec2 w)) = (Reg2.dat (V3 m) c).arrAt w cfg2.N := by
  unfold W4; exact Pipeline.withArrays_arr spec2 launch2.win.arr_inj c _ _ w
theorem W4_off (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
theorem W4_in (c : Dev nD) (w : Fin cfg2.W) (hin : (cfg2.win w).isOut = false) :
    W4 m c (Proc.devRef .tc (Pipeline.arrRef spec2 w)) = W3 m c (Proc.devRef .tc (Pipeline.arrRef spec2 w)) :=
  (W4_arr m c w).trans (((Reg2.dat (V3 m) c).arrAt_in w hin _).trans (Reg2.A_eq (V3 m) c w))

theorem W5_off (c : Dev nD) (r : Ref sig .tc) (h : r ∉ hostOps3_W) :
    W5 m c (Proc.devRef .tc r) = W4 m c (Proc.devRef .tc r) :=
  StableHlo.after_of_writes_sub hostOps3 _ hostOps3_writes h

theorem W6_arr (c : Dev nD) (w : Fin cfg3.W) :
    W6 m c (Proc.devRef .tc (Pipeline.arrRef spec3 w)) = (Reg3.dat (V5 m) c).arrAt w cfg3.N := by
  unfold W6; exact Pipeline.withArrays_arr spec3 launch3.win.arr_inj c _ _ w
theorem W6_off (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
theorem W6_in (c : Dev nD) (w : Fin cfg3.W) (hin : (cfg3.win w).isOut = false) :
    W6 m c (Proc.devRef .tc (Pipeline.arrRef spec3 w)) = W5 m c (Proc.devRef .tc (Pipeline.arrRef spec3 w)) :=
  (W6_arr m c w).trans (((Reg3.dat (V5 m) c).arrAt_in w hin _).trans (Reg3.A_eq (V5 m) c w))

/-! ## The state of a core between two items -/

abbrev 𝒱₀ : Variants := Variants.none
/-- No core waits on another here, so no level is assigned. -/
abbrev L : GSem nD τ sig → Finset Unit := fun _ => ∅
abbrev lv : GSem nD τ sig → Unit → ℕ := fun _ _ => 0

/-- What a core carries beside its buffers from one item to the next: its generator register, at some state,
    and the record that it owes nothing. -/
abbrev Idle (c : Dev nD) : sProp 𝕄 :=
  iprop((∃ r, prngReg c r) ∗ ∃ S, owes (c : Thread nD τ) (0 : CellTallies nD τ sig Unit) S)

/-- Core c between two items: every unscoped buffer whole at the contents W, and Idle. -/
abbrev Between (W : Valuation τ sig (Elt Ideal)) (c : Dev nD) : sProp 𝕄 :=
  iprop(StableHlo.held (c : Thread nD τ) (Pipeline.ucRefs τ sig) W ∗ Idle c)

/-! ## A region's entry and exit, said once for all four

The four regions' proof data differ in their arrays and in what the body computes, and in nothing else: each reads its
arrays off the contents the region is entered at, holds every array whole, keeps the class's invariant (the scoped
buffers no window stages, the generator register) at every point, owes nothing and records no wait of its own. From
those five facts alone the region's protocol follows. -/

/-- The five facts, of pipeline p on core c entered at the contents W. -/
structure Plain (p : Fin 4) (c : Dev nD) (W : Valuation τ sig (Elt Ideal)) : Prop where
  arr : ∀ w, (pdats m p c).A w = W (Pipeline.arrRef (Pipeline.pin (pcfgs (F := Ideal)) adm p).spec w)
  whole : ∀ w, (pdats m p c).q w = fullShare
  inv : ∀ t, (pdats m p c).Φ t = Pipeline.ΦA (Pipeline.pin (pcfgs (F := Ideal)) adm p).spec c
  owed : ∀ t, (pdats m p c).owed t = 0
  recd : ∀ t, (pdats m p c).recorded t = Set.univ

section Region

variable {p : Fin 4}

/-- A core that owes nothing owes what the proof data say it owes before the first point, -/
theorem owes_enter (c : Dev nD) (W : Valuation τ sig (Elt Ideal)) (h : Plain m p c W) :
    (iprop(∃ S, owes (c : Thread nD τ) (0 : CellTallies nD τ sig Unit) S) : sProp 𝕄) ⊢ (pdats m p c).owesAt () 0 := by
  unfold Pipeline.Dat.owesAt Pipeline.owesWithin
  rw [h.owed 0]
  iintro ⟨%S, HS⟩
  iexists S
  isplitr
  · ipureintro; intro x _; exact Or.inl (by rw [h.recd 0]; trivial)
  iexact HS

/-- and what they say it owes at any point is nothing. -/
theorem owes_leave (c : Dev nD) (W : Valuation τ sig (Elt Ideal)) (h : Plain m p c W) (t : Fin ((Pipeline.pin (pcfgs (F := Ideal)) adm p).N + 1)) :
    (pdats m p c).owesAt () t ⊢ (iprop(∃ S, owes (c : Thread nD τ) (0 : CellTallies nD τ sig Unit) S) : sProp 𝕄) := by
  unfold Pipeline.Dat.owesAt Pipeline.owesWithin
  rw [h.owed t]
  iintro ⟨%S, -, HS⟩
  iexists S
  iexact HS

-- a library lemma stated over the pinned configuration meets this module's data only when unification may unfold
-- plain definitions in a metavariable's type
set_option backward.isDefEq.respectTransparency.types false in
/-- ENTRY: the region's arrays are split out of the unscoped buffers at the entry contents; the rest of the buffers
    goes round the region; the generator register goes into the invariant; no table is prefetched. -/
theorem enter (lf : Pipeline.LaunchFacts (nD := nD) (τ := τ) cfgs p) (c : Dev nD) (W : Valuation τ sig (Elt Ideal)) (h : Plain m p c W) :
    iprop(Between W c ∗ Pipeline.ownSems0 (fun k : PEmpty => k.elim) c ∗ levAts L lv)
      ⊢ |={Set.univ}=> iprop((pdats m p c).arrays ((pdats m p c).arrAt · 0)
          ∗ Pipeline.prefHeld (pcfgs (F := Ideal) p).pre c (fun _ => fullShare) (adm p).1
          ∗ (pdats m p c).owesAt () 0 ∗ (∃ r, prngReg c r)
          ∗ Pipeline.unscopedRest (Ix := Unit) (Name := ℕ) (U := UR sig nD τ) (Lvl := ℕ) (Pipeline.pin (pcfgs (F := Ideal)) adm p).spec c (fun b => W b)) := by
  have hsplit := Pipeline.arrays_of_unscopedBufs (p := p) (pcfgs (F := Ideal)) adm (pdats m) lf.win lf.arr_whole c
    ((pdats m p c).share_full h.whole) (fun b => W b) h.arr
  rw [Pipeline.unscopedBufs_held] at hsplit
  have howes := owes_enter m c W h
  iintro ⟨⟨Hbufs, Hreg, Hnone⟩, -, -⟩
  ihave Hsp := hsplit $$ Hbufs
  icases Hsp with ⟨Harr, Hrest⟩
  imodintro
  isplitl [Harr]; · iexact Harr
  isplitr
  · unfold Pipeline.prefHeld; rw [show (Finset.univ : Finset (Fin 0)) = ∅ from rfl, BI.bigSep_empty]; iempintro
  isplitl [Hnone]; · iapply howes; iexact Hnone
  isplitl [Hreg]; · iexact Hreg
  iexact Hrest

/-- The invariant before the first point: the generator register beside the scoped buffers no window stages. -/
theorem inv_first (c : Dev nD) (W : Valuation τ sig (Elt Ideal)) (h : Plain m p c W) :
    iprop((∃ r, prngReg c r) ∗ Pipeline.prefHeld (pcfgs (F := Ideal) p).pre c (fun _ => fullShare) (adm p).1
        ∗ Pipeline.scopedRest (Pipeline.pin (pcfgs (F := Ideal)) adm p).spec c) ⊢ (pdats m p c).Φ 0 := by
  rw [h.inv 0]; unfold Pipeline.ΦA
  iintro ⟨Hreg, -, Hscr⟩
  isplitl [Hscr]; · iexact Hscr
  iexact Hreg

/-- The invariant after the last point gives both back; the kernel has no semaphore of its own. -/
theorem inv_last (c : Dev nD) (W : Valuation τ sig (Elt Ideal)) (h : Plain m p c W) :
    (pdats m p c).Φ (Fin.last (Pipeline.pin (pcfgs (F := Ideal)) adm p).N)
      ⊢ iprop((∃ r, prngReg c r) ∗ Pipeline.ownSems0 (fun k : PEmpty => k.elim) c
          ∗ Pipeline.scopedRest (Pipeline.pin (pcfgs (F := Ideal)) adm p).spec c) := by
  rw [Pipeline.ownSems0_none, h.inv]; unfold Pipeline.ΦA
  iintro ⟨Hscr, Hreg⟩
  isplitl [Hreg]; · iexact Hreg
  isplitr; · iempintro
  iexact Hscr

-- as for the entry
set_option backward.isDefEq.respectTransparency.types false in
/-- EXIT: the arrays as the last write-back leaves them and the buffers that went round the region are the unscoped
    buffers again, at any contents W' that has the arrays so and agrees with the entry contents elsewhere. -/
theorem leave (lf : Pipeline.LaunchFacts (nD := nD) (τ := τ) cfgs p) (c : Dev nD) (W W' : Valuation τ sig (Elt Ideal)) (h : Plain m p c W)
    (hF : ∀ w, (pdats m p c).arrAt w (Pipeline.pin (pcfgs (F := Ideal)) adm p).N = W' (Pipeline.arrRef (Pipeline.pin (pcfgs (F := Ideal)) adm p).spec w))
    (hoff : ∀ b : Ref sig .tc, b ∉ Finset.univ.image (Pipeline.arrRef (Pipeline.pin (pcfgs (F := Ideal)) adm p).spec) → W' b = W b) :
    iprop((pdats m p c).arrays ((pdats m p c).arrAt · (Pipeline.pin (pcfgs (F := Ideal)) adm p).N)
        ∗ (pdats m p c).owesAt () (Fin.last (Pipeline.pin (pcfgs (F := Ideal)) adm p).N) ∗ (∃ r, prngReg c r)
        ∗ Pipeline.unscopedRest (Ix := Unit) (Name := ℕ) (U := UR sig nD τ) (Lvl := ℕ) (Pipeline.pin (pcfgs (F := Ideal)) adm p).spec c (fun b => W b))
      ⊢ |={Set.univ}=> Between W' c := by
  have hjoin := Pipeline.unscopedBufs_of_arrays (p := p) (pcfgs (F := Ideal)) adm (Ix := Unit) (Name := ℕ) (U := UR sig nD τ) (Lvl := ℕ)
    lf.win lf.arr_whole c (pdats m) ((pdats m p c).share_full h.whole) (fun b => W b) (fun b => W' b)
    ((pdats m p c).arrAt · (Pipeline.pin (pcfgs (F := Ideal)) adm p).N) hF hoff
  rw [Pipeline.unscopedBufs_held] at hjoin
  have howes := owes_leave m c W h (Fin.last _)
  iintro ⟨Harr, Hnone, Hreg, Hrest⟩
  imodintro
  isplitl [Harr Hrest]
  · iapply hjoin; isplitl [Harr] <;> iassumption
  isplitl [Hreg]; · iexact Hreg
  iapply howes; iexact Hnone

-- as for the entry
set_option backward.isDefEq.respectTransparency.types false in
/-- Pipeline p as a segment of the program: entered with every unscoped buffer at W, left with them at W'. -/
def region (lf : Pipeline.LaunchFacts (nD := nD) (τ := τ) cfgs p) (W W' : Dev nD → Valuation τ sig (Elt Ideal))
    (hbody : ∀ c, BodyObligationLoose (pdats m p c) (defs₀ (F := Ideal)) 𝒱₀ () Set.univ)
    (hpl : ∀ c, Plain m p c (W c))
    (hF : ∀ c w, (pdats m p c).arrAt w (Pipeline.pin (pcfgs (F := Ideal)) adm p).N = W' c (Pipeline.arrRef (Pipeline.pin (pcfgs (F := Ideal)) adm p).spec w))
    (hoff : ∀ c, ∀ b : Ref sig .tc, b ∉ Finset.univ.image (Pipeline.arrRef (Pipeline.pin (pcfgs (F := Ideal)) adm p).spec) → W' c b = W c b) :
    Pipeline.RegionSeg (pcfgs (F := Ideal)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p fun c t => (hpl c).owed t
  pre c := Between (W c) c
  post c := Between (W' c) c
  X c := iprop(∃ r, prngReg c r)
  Y c := iprop(∃ r, prngReg c r)
  Z c := Pipeline.unscopedRest (Ix := Unit) (Name := ℕ) (U := UR sig nD τ) (Lvl := ℕ) (Pipeline.pin (pcfgs (F := Ideal)) adm p).spec c (fun b => W c b)
  hentry c := enter m lf c (W c) (hpl c)
  hin c := inv_first m c (W c) (hpl c)
  hout c := inv_last m c (W c) (hpl c)
  hexit c := leave m lf c (W c) (W' c) (hpl c) (hF c) (hoff c)

end Region

/-! ## The four regions and the two host stretches -/

set_option backward.isDefEq.respectTransparency.types false in
/-- Region 0, from the launch contents to W1. -/
def reg0 : Pipeline.RegionSeg (pcfgs (F := Ideal)) adm (pdats m) () defs₀ 𝒱₀ L lv 0 :=
  region m launch0 (W0 m) (W1 m) (fun c => (Reg0.body_obligation (F := Ideal) (V0 m) c).loose)
    (fun c => ⟨Reg0.A_eq (V0 m) c, fun _ => rfl, fun _ => rfl, fun _ => rfl, fun _ => rfl⟩)
    (fun c w => (W1_arr m c w).symm)
    (fun c b hb => W1_off m c b fun w e => hb (Finset.mem_image.mpr ⟨w, Finset.mem_univ _, e⟩))

set_option backward.isDefEq.respectTransparency.types false in
/-- Region 1, from W2 to W3. -/
def reg1 : Pipeline.RegionSeg (pcfgs (F := Ideal)) adm (pdats m) () defs₀ 𝒱₀ L lv 1 :=
  region m launch1 (W2 m) (W3 m) (fun c => Reg1.body_obligation (V2 m) c)
    (fun c => ⟨Reg1.A_eq (V2 m) c, fun _ => rfl, fun _ => rfl, fun _ => rfl, fun _ => rfl⟩)
    (fun c w => (W3_arr m c w).symm)
    (fun c b hb => W3_off m c b fun w e => hb (Finset.mem_image.mpr ⟨w, Finset.mem_univ _, e⟩))

set_option backward.isDefEq.respectTransparency.types false in
/-- Region 2, from W3 to W4. -/
def reg2 : Pipeline.RegionSeg (pcfgs (F := Ideal)) adm (pdats m) () defs₀ 𝒱₀ L lv 2 :=
  region m launch2 (W3 m) (W4 m) (fun c => Reg2.body_obligation (V3 m) c)
    (fun c => ⟨Reg2.A_eq (V3 m) c, fun _ => rfl, fun _ => rfl, fun _ => rfl, fun _ => rfl⟩)
    (fun c w => (W4_arr m c w).symm)
    (fun c b hb => W4_off m c b fun w e => hb (Finset.mem_image.mpr ⟨w, Finset.mem_univ _, e⟩))

set_option backward.isDefEq.respectTransparency.types false in
/-- Region 3, from W5 to the end. -/
def reg3 : Pipeline.RegionSeg (pcfgs (F := Ideal)) adm (pdats m) () defs₀ 𝒱₀ L lv 3 :=
  region m launch3 (W5 m) (W6 m) (fun c => Reg3.body_obligation (V5 m) c)
    (fun c => ⟨Reg3.A_eq (V5 m) c, fun _ => rfl, fun _ => rfl, fun _ => rfl, fun _ => rfl⟩)
    (fun c w => (W6_arr m c w).symm)
    (fun c b hb => W6_off m c b fun w e => hb (Finset.mem_image.mpr ⟨w, Finset.mem_univ _, e⟩))

/-- A host stretch as a segment: its operations run over the unscoped buffers from the contents W to
    StableHlo.after of them, Idle riding along. -/
abbrev stretch (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Idle

/-- The program's six items in order. -/
abbrev items : List (Pipeline.Seg (pcfgs (F := Ideal)) adm (pdats m) () defs₀ 𝒱₀ L lv) :=
  [ .region (reg0 m),
    .host (stretch hostOps1 hostOps1_sub hostOps1_fresh (W1 m)),
    .region (reg1 m),
    .region (reg2 m),
    .host (stretch hostOps3 hostOps3_sub hostOps3_fresh (W4 m)),
    .region (reg3 m) ]

/-- The printed program is the run of those items. -/
theorem main_items (c : Dev nD) : main (F := Ideal) c = Pipeline.Seg.run (items m) := (main_chain c).trans (by chain_rfl)

-- the launch theorem's implicit arguments are found by unifying its conclusion with this statement, which takes
-- unfolding plain definitions in a metavariable's type
set_option backward.isDefEq.respectTransparency.types false in
/-- THE RUN: every weakly fair execution of @main terminates, and every final memory holds each unscoped
    buffer at the last boundary's contents. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W6 m c b) := by
  refine Pipeline.θ_run_regions_kit (pcfgs (F := Ideal)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => Between (W0 m c) c)
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c => ?_⟩)
    (hinit := ?_)
    (QY := fun c s => ∀ b ∈ Pipeline.ucRefs τ sig, s.mem (((c : Thread nD τ)).1, b) = W6 m c b)
    (hfin := fun c s' => ?_) (hQ := fun _ h => h)
  · -- the launch element is the pipelines' own; no core has a ghost resource besides
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the last region leaves the buffers at W6, the register, and nothing owed
    show (Between (W6 m c) c : sProp 𝕄) ⊢ _
    iintro ⟨Hh, Hreg, Hnone⟩
    isplitl [Hh Hreg]
    · isplitl [Hh] <;> iassumption
    iexact Hnone
  · -- each core makes its first state from what the launch deals it
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, Hnone, -, Hreg, -⟩, -⟩
    imodintro
    isplitl [Hh]; · iexact Hh
    isplitl [Hreg]; · iexists _; iexact Hreg
    iexists ∅; iexact Hnone
  · -- every unscoped buffer is read off the final state
    iintro ⟨⟨Hh, -⟩, HSI⟩
    unfold StableHlo.held
    imodintro
    iapply (pointsTo_read_all (Pipeline.ucRefs τ sig) (fun b => (((c : Thread nD τ)).1, b)) (W6 m c) s')
    isplitl [Hh] <;> iassumption

/-! ## The arguments: no item writes one -/

theorem W1_arg1 (c : Dev nD) : W1 m c (Proc.devRef .tc main_arg1) = m ((c : Thread nD τ).loc main_arg1) :=
  (W1_off m c main_arg1 (by decide)).trans rfl
theorem W1_arg3 (c : Dev nD) : W1 m c (Proc.devRef .tc main_arg3) = m ((c : Thread nD τ).loc main_arg3) :=
  (W1_off m c main_arg3 (by decide)).trans rfl
theorem W1_arg4 (c : Dev nD) : W1 m c (Proc.devRef .tc main_arg4) = m ((c : Thread nD τ).loc main_arg4) :=
  (W1_off m c main_arg4 (by decide)).trans rfl
theorem W2_arg1 (c : Dev nD) : W2 m c (Proc.devRef .tc main_arg1) = m ((c : Thread nD τ).loc main_arg1) :=
  (W2_off m c main_arg1 (by decide)).trans (W1_arg1 m c)
theorem W3_arg1 (c : Dev nD) : W3 m c (Proc.devRef .tc main_arg1) = m ((c : Thread nD τ).loc main_arg1) :=
  (W3_in m c 0 rfl).trans (W2_arg1 m c)

/-! ## The intermediate arrays, boundary by boundary -/

/-- After region 0 the support array holds the product of x and W1. -/
theorem V1_v0 (c : Dev nD) : V1 m c main_call0_v0
    = Cert.Spec.support (m ((c : Thread nD τ).loc main_arg0)) (m ((c : Thread nD τ).loc main_arg2)) :=
  (W1_arr m c 2).trans (Reg0.arrAt_out (V0 m) c)

/-- The first host stretch leaves the support array alone, -/
theorem V2_v0 (c : Dev nD) : V2 m c main_call0_v0
    = Cert.Spec.support (m ((c : Thread nD τ).loc main_arg0)) (m ((c : Thread nD τ).loc main_arg2)) :=
  (W2_off m c main_call0_v0 (by decide)).trans (V1_v0 m c)

/-- and writes the two heads' weights side by side. -/
theorem V2_v2 (c : Dev nD) : V2 m c main_call0_v2
    = Cert.Spec.heads (m ((c : Thread nD τ).loc main_arg3)) (m ((c : Thread nD τ).loc main_arg4)) := by
  have h : V2 m c main_call0_v2
      = (truncf (F := Ideal) .bf16 (concatenate S64x64 1 [⟨S64x32, W1 m c (Proc.devRef .tc main_arg3)⟩, ⟨S64x32, W1 m c (Proc.devRef .tc main_arg4)⟩]
          concatenates_S64x32_S64x32_S64x64_d1) bitsLt_bf16_f32 : (⟨S64x64, .bf16⟩ : BufTy).Contents (Elt Ideal)) := by
    show StableHlo.after hostOps1 (W1 m c) (Proc.devRef .tc main_call0_v2) = _
    after_results
    rfl
  rw [h, W1_arg3, W1_arg4]
  exact HostVals.heads_eq _ _

/-- After region 1: the hidden layer through both heads' weights. -/
theorem V3_v3 (c : Dev nD) : V3 m c main_call0_v3
    = Cert.Spec.latentSupport (m ((c : Thread nD τ).loc main_arg0)) (m ((c : Thread nD τ).loc main_arg1)) (m ((c : Thread nD τ).loc main_arg2))
        (m ((c : Thread nD τ).loc main_arg3)) (m ((c : Thread nD τ).loc main_arg4)) := by
  have h := (W3_arr m c 3).trans (Reg1.arrAt_out (V2 m) c)
  rw [show V2 m c main_arg1 = _ from W2_arg1 m c, V2_v0 m c, V2_v2 m c] at h
  exact h

/-- After region 2: both heads aggregated over the graph. -/
theorem V4_v4 (c : Dev nD) : V4 m c main_call0_v4
    = Cert.Spec.latent (m ((c : Thread nD τ).loc main_arg0)) (m ((c : Thread nD τ).loc main_arg1)) (m ((c : Thread nD τ).loc main_arg2))
        (m ((c : Thread nD τ).loc main_arg3)) (m ((c : Thread nD τ).loc main_arg4)) := by
  have h := (W4_arr m c 2).trans (Reg2.arrAt_out (V3 m) c)
  rw [show V3 m c main_arg1 = _ from W3_arg1 m c, V3_v3 m c] at h
  exact h

/-- The second host stretch cuts the first head out of the latent array, -/
theorem V5_mu (c : Dev nD) : V5 m c main_v0_1
    = Cert.Spec.mu (m ((c : Thread nD τ).loc main_arg0)) (m ((c : Thread nD τ).loc main_arg1)) (m ((c : Thread nD τ).loc main_arg2))
        (m ((c : Thread nD τ).loc main_arg3)) (m ((c : Thread nD τ).loc main_arg4)) := by
  have h : V5 m c main_v0_1
      = extractStridedSlice S10000x32 ![0, 0] (V4 m c main_call0_v4) slices_S10000x64_S10000x32_0_0 := by
    show StableHlo.after hostOps3 (W4 m c) (Proc.devRef .tc main_v0_1) = _
    after_results
    rfl
  rw [h, V4_v4 m c, HostVals.mu_eq]
  rfl

/-- the second head, -/
theorem V5_lv (c : Dev nD) : V5 m c main_v0_2
    = Cert.Spec.logvar (m ((c : Thread nD τ).loc main_arg0)) (m ((c : Thread nD τ).loc main_arg1)) (m ((c : Thread nD τ).loc main_arg2))
        (m ((c : Thread nD τ).loc main_arg3)) (m ((c : Thread nD τ).loc main_arg4)) := by
  have h : V5 m c main_v0_2
      = extractStridedSlice S10000x32 ![0, 32] (V4 m c main_call0_v4) slices_S10000x64_S10000x32_0_32 := by
    show StableHlo.after hostOps3 (W4 m c) (Proc.devRef .tc main_v0_2) = _
    after_results
    rfl
  rw [h, V4_v4 m c, HostVals.logvar_eq]
  rfl

/-- and transposes the first head. -/
theorem V5_mut (c : Dev nD) : V5 m c main_call0_v7
    = Cert.Spec.transposed (Cert.Spec.mu (m ((c : Thread nD τ).loc main_arg0)) (m ((c : Thread nD τ).loc main_arg1)) (m ((c : Thread nD τ).loc main_arg2))
        (m ((c : Thread nD τ).loc main_arg3)) (m ((c : Thread nD τ).loc main_arg4))) := by
  have h : V5 m c main_call0_v7
      = transpose S32x10000 [1, 0] (extractStridedSlice S10000x32 ![0, 0] (V4 m c main_call0_v4) slices_S10000x64_S10000x32_0_0)
          transposes_S10000x32_S32x10000_1_0 := by
    show StableHlo.after hostOps3 (W4 m c) (Proc.devRef .tc main_call0_v7) = _
    after_results
    rfl
  rw [h, V4_v4 m c, HostVals.mu_eq, HostVals.transposed_eq]
  rfl

/-! ## The last boundary's contents, in closed form -/

theorem W6_recon (c : Dev nD) : W6 m c (Proc.devRef .tc main_v0_0)
    = Cert.Spec.recon (m ((c : Thread nD τ).loc main_arg0)) (m ((c : Thread nD τ).loc main_arg1)) (m ((c : Thread nD τ).loc main_arg2))
        (m ((c : Thread nD τ).loc main_arg3)) (m ((c : Thread nD τ).loc main_arg4)) := by
  have h := (W6_arr m c 2).trans (Reg3.arrAt_out (V5 m) c)
  rw [V5_mu m c, V5_mut m c] at h
  exact h
theorem W6_mu (c : Dev nD) : W6 m c (Proc.devRef .tc main_v0_1)
    = Cert.Spec.mu (m ((c : Thread nD τ).loc main_arg0)) (m ((c : Thread nD τ).loc main_arg1)) (m ((c : Thread nD τ).loc main_arg2))
        (m ((c : Thread nD τ).loc main_arg3)) (m ((c : Thread nD τ).loc main_arg4)) :=
  (W6_in m c 0 rfl).trans (V5_mu m c)
theorem W6_logvar (c : Dev nD) : W6 m c (Proc.devRef .tc main_v0_2)
    = Cert.Spec.logvar (m ((c : Thread nD τ).loc main_arg0)) (m ((c : Thread nD τ).loc main_arg1)) (m ((c : Thread nD τ).loc main_arg2))
        (m ((c : Thread nD τ).loc main_arg3)) (m ((c : Thread nD τ).loc main_arg4)) :=
  (W6_off m c main_v0_2 (by decide)).trans (V5_lv m c)
theorem W6_arg0 (c : Dev nD) : W6 m c (Proc.devRef .tc main_arg0) = m ((c : Thread nD τ).loc main_arg0) :=
  (W6_off m c main_arg0 (by decide)).trans <| (W5_off m c main_arg0 (by decide)).trans <| (W4_off m c main_arg0 (by decide)).trans <|
    (W3_off m c main_arg0 (by decide)).trans <| (W2_off m c main_arg0 (by decide)).trans <| (W1_in m c 0 rfl).trans rfl
theorem W6_arg1 (c : Dev nD) : W6 m c (Proc.devRef .tc main_arg1) = m ((c : Thread nD τ).loc main_arg1) :=
  (W6_off m c main_arg1 (by decide)).trans <| (W5_off m c main_arg1 (by decide)).trans <| (W4_in m c 0 rfl).trans <| W3_arg1 m c
theorem W6_arg2 (c : Dev nD) : W6 m c (Proc.devRef .tc main_arg2) = m ((c : Thread nD τ).loc main_arg2) :=
  (W6_off m c main_arg2 (by decide)).trans <| (W5_off m c main_arg2 (by decide)).trans <| (W4_off m c main_arg2 (by decide)).trans <|
    (W3_off m c main_arg2 (by decide)).trans <| (W2_off m c main_arg2 (by decide)).trans <| (W1_in m c 1 rfl).trans rfl
theorem W6_arg3 (c : Dev nD) : W6 m c (Proc.devRef .tc main_arg3) = m ((c : Thread nD τ).loc main_arg3) :=
  (W6_off m c main_arg3 (by decide)).trans <| (W5_off m c main_arg3 (by decide)).trans <| (W4_off m c main_arg3 (by decide)).trans <|
    (W3_off m c main_arg3 (by decide)).trans <| (W2_off m c main_arg3 (by decide)).trans <| W1_arg3 m c
theorem W6_arg4 (c : Dev nD) : W6 m c (Proc.devRef .tc main_arg4) = m ((c : Thread nD τ).loc main_arg4) :=
  (W6_off m c main_arg4 (by decide)).trans <| (W5_off m c main_arg4 (by decide)).trans <| (W4_off m c main_arg4 (by decide)).trans <|
    (W3_off m c main_arg4 (by decide)).trans <| (W2_off m c main_arg4 (by decide)).trans <| W1_arg4 m c

end Cert.KernelIdeal.Run

end
-- ==== Proof.RefValue.lean ====
import proofs.«130511_g42314017800419_cont_8to1_b_959_3_alg».proof.Proof.Gen.ReferenceIdeal.Run
import proofs.«130511_g42314017800419_cont_8to1_b_959_3_alg».proof.Proof.Gen.ReferenceIdeal.Read
import proofs.«130511_g42314017800419_cont_8to1_b_959_3_alg».proof.Proof.Spec
import Idealize.ShloMosaic.Lib.ValueIdx
import Idealize.ShloMosaic.PureOps.Ideal.Laws

/-!
  The reference program's three results, read index by index over the extended reals, are the
  auto-encoder's whole-array functions of `Spec`: each `dot_general` is the sum over its one contracted
  axis, `relu` is the larger of its argument and zero, the transpose swaps the two coordinates; a head's
  32 columns of `h · [W2 | W3]` are `h · W2` (columns 0‥31) and `h · W3` (columns 32‥63).
-/

noncomputable section

namespace Cert.RefValue

open Cert.ReferenceIdeal Cert.ReferenceIdeal.Gen Cert.ReferenceIdeal.Read
open Idealize.ShloMosaic Idealize.ShloMosaic.ValueIdx

/-! ## The shared trunk: support, aggregation, hidden layer -/

/-- The support `x · W1`: the first product's element is the sum over the 128 input features. -/
theorem support_eq (x0 : (⟨S10000x128, .f32⟩ : BufTy).Contents (Elt Ideal)) (x2 : (⟨S128x64, .f32⟩ : BufTy).Contents (Elt Ideal)) :
    val_main_v0 (F := Ideal) x0 x2 = Cert.Spec.support x0 x2 := by
  funext i
  rw [val_main_v0_apply]
  unfold Cert.Spec.support
  refine Finset.sum_congr rfl fun k _ => ?_
  have el : lidx_main_v0 i k = ix2 (i 0) k :=
    funext fun a => match a with | ⟨0, _⟩ => rfl | ⟨1, _⟩ => rfl
  have er : ridx_main_v0 i k = ix2 k (i 1) :=
    funext fun a => match a with | ⟨0, _⟩ => rfl | ⟨1, _⟩ => rfl
  rw [el, er]
  rfl

/-- The pre-activation `adj · (x · W1)`: the sum over the 10000 neighbours. -/
theorem preact_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) :
    val_main_v1 (F := Ideal) x0 x1 x2 = Cert.Spec.aggregate x1 (Cert.Spec.support x0 x2) := by
  funext i
  rw [val_main_v1_apply, support_eq]
  unfold Cert.Spec.aggregate
  refine Finset.sum_congr rfl fun k _ => ?_
  have el : lidx_main_v1 i k = ix2 (i 0) k :=
    funext fun a => match a with | ⟨0, _⟩ => rfl | ⟨1, _⟩ => rfl
  have er : ridx_main_v1 i k = ix2 k (i 1) :=
    funext fun a => match a with | ⟨0, _⟩ => rfl | ⟨1, _⟩ => rfl
  rw [el, er]
  rfl

/-- The hidden layer: `relu` is the larger of the pre-activation and the zero the constant word denotes. -/
theorem hidden_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) :
    val_main_v2 (F := Ideal) x0 x1 x2 = Cert.Spec.hidden x1 (Cert.Spec.support x0 x2) := by
  funext i
  rw [val_main_v2_apply, val_main_call0_v0_apply, val_main_call0_cst_apply, preact_eq]
  show max (Cert.Spec.aggregate x1 (Cert.Spec.support x0 x2) i) (Ideal.ofBits .f32 0x00000000#32) = _
  rw [Ideal.ofBits_zero_f32]
  rfl

/-! ## The two heads: a column of `[W2 | W3]` is a column of `W2` or of `W3` -/

/-- Column `q < 32` of the side-by-side weights is `W2`'s column `q`. -/
theorem heads_lo (w2 w3 : Cert.Spec.A64x32) (k : Fin 64) (q : Fin 32) (hq : q.val < 64) :
    Cert.Spec.heads w2 w3 (ix2 k ⟨q.val, hq⟩) = w2 (ix2 k q) := by
  unfold Cert.Spec.heads
  rw [dif_pos (show ((ix2 k (⟨q.val, hq⟩ : Fin 64)) 1).val < 32 from q.isLt)]

/-- Column `32 + q` of the side-by-side weights is `W3`'s column `q`. -/
theorem heads_hi (w2 w3 : Cert.Spec.A64x32) (k : Fin 64) (q : Fin 32) (hq : 32 + q.val < 64) :
    Cert.Spec.heads w2 w3 (ix2 k ⟨32 + q.val, hq⟩) = w3 (ix2 k q) := by
  unfold Cert.Spec.heads
  rw [dif_neg (show ¬ ((ix2 k (⟨32 + q.val, hq⟩ : Fin 64)) 1).val < 32 from Nat.not_lt.mpr (Nat.le_add_right 32 q.val))]
  refine congrArg w3 (funext fun a => ?_)
  match a with
  | ⟨0, _⟩ => rfl
  | ⟨1, _⟩ => exact Fin.ext (Nat.add_sub_cancel_left (n := 32) (m := q.val))

/-- `h · W2` at row `p`, column `q` is column `q` of `h · [W2 | W3]`. -/
theorem proj_lo (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 x4 : (⟨S64x32, .f32⟩ : BufTy).Contents (Elt Ideal))
    (p : Fin 10000) (q : Fin 32) (hq : q.val < 64) :
    val_main_v3 (F := Ideal) x0 x1 x2 x3 (ix2 p q) = Cert.Spec.latentSupport x0 x1 x2 x3 x4 (ix2 p ⟨q.val, hq⟩) := by
  rw [val_main_v3_apply, hidden_eq]
  unfold Cert.Spec.latentSupport Cert.Spec.project
  refine Finset.sum_congr rfl fun k _ => ?_
  have el : lidx_main_v3 (ix2 p q) k = ix2 p k :=
    funext fun a => match a with | ⟨0, _⟩ => rfl | ⟨1, _⟩ => rfl
  have er : ridx_main_v3 (ix2 p q) k = ix2 k q :=
    funext fun a => match a with | ⟨0, _⟩ => rfl | ⟨1, _⟩ => rfl
  rw [el, er]
  exact congrArg₂ (· * ·) rfl (heads_lo x3 x4 k q hq).symm

/-- `h · W3` at row `p`, column `q` is column `32 + q` of `h · [W2 | W3]`. -/
theorem proj_hi (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 x4 : (⟨S64x32, .f32⟩ : BufTy).Contents (Elt Ideal))
    (p : Fin 10000) (q : Fin 32) (hq : 32 + q.val < 64) :
    val_main_v5 (F := Ideal) x0 x1 x2 x4 (ix2 p q) = Cert.Spec.latentSupport x0 x1 x2 x3 x4 (ix2 p ⟨32 + q.val, hq⟩) := by
  rw [val_main_v5_apply, hidden_eq]
  unfold Cert.Spec.latentSupport Cert.Spec.project
  refine Finset.sum_congr rfl fun k _ => ?_
  have el : lidx_main_v5 (ix2 p q) k = ix2 p k :=
    funext fun a => match a with | ⟨0, _⟩ => rfl | ⟨1, _⟩ => rfl
  have er : ridx_main_v5 (ix2 p q) k = ix2 k q :=
    funext fun a => match a with | ⟨0, _⟩ => rfl | ⟨1, _⟩ => rfl
  rw [el, er]
  exact congrArg₂ (· * ·) rfl (heads_hi x3 x4 k q hq).symm

/-! ## The three results -/

/-- The first head, `adj · (relu (adj · (x · W1)) · W2)`, is `Spec.mu` (whatever `W3` is). -/
theorem mu_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 x4 : (⟨S64x32, .f32⟩ : BufTy).Contents (Elt Ideal)) :
    val_main_v4 (F := Ideal) x0 x1 x2 x3 = Cert.Spec.mu x0 x1 x2 x3 x4 := by
  funext i
  rw [val_main_v4_apply]
  unfold Cert.Spec.mu Cert.Spec.headMu Cert.Spec.latent Cert.Spec.aggregate
  refine Finset.sum_congr rfl fun k _ => ?_
  have el : lidx_main_v4 i k = ix2 (i 0) k :=
    funext fun a => match a with | ⟨0, _⟩ => rfl | ⟨1, _⟩ => rfl
  have er : ridx_main_v4 i k = ix2 k (i 1) :=
    funext fun a => match a with | ⟨0, _⟩ => rfl | ⟨1, _⟩ => rfl
  exact congrArg₂ (· * ·) (congrArg x1 el)
    ((congrArg (val_main_v3 (F := Ideal) x0 x1 x2 x3) er).trans (proj_lo x0 x1 x2 x3 x4 k (i 1) _))

/-- The second head, `adj · (relu (adj · (x · W1)) · W3)`, is `Spec.logvar` (whatever `W2` is). -/
theorem logvar_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 x4 : (⟨S64x32, .f32⟩ : BufTy).Contents (Elt Ideal)) :
    val_main_v6 (F := Ideal) x0 x1 x2 x4 = Cert.Spec.logvar x0 x1 x2 x3 x4 := by
  funext i
  rw [val_main_v6_apply]
  unfold Cert.Spec.logvar Cert.Spec.headLogvar Cert.Spec.latent Cert.Spec.aggregate
  refine Finset.sum_congr rfl fun k _ => ?_
  have el : lidx_main_v6 i k = ix2 (i 0) k :=
    funext fun a => match a with | ⟨0, _⟩ => rfl | ⟨1, _⟩ => rfl
  have er : ridx_main_v6 i k = ix2 k (i 1) :=
    funext fun a => match a with | ⟨0, _⟩ => rfl | ⟨1, _⟩ => rfl
  exact congrArg₂ (· * ·) (congrArg x1 el)
    ((congrArg (val_main_v5 (F := Ideal) x0 x1 x2 x4) er).trans (proj_hi x0 x1 x2 x3 x4 k (i 1) _))

/-- The decoder `mu · muᵀ` is `Spec.recon`. -/
theorem recon_eq (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 x4 : (⟨S64x32, .f32⟩ : BufTy).Contents (Elt Ideal)) :
    val_main_v8 (F := Ideal) x0 x1 x2 x3 = Cert.Spec.recon x0 x1 x2 x3 x4 := by
  funext i
  rw [val_main_v8_apply]
  unfold Cert.Spec.recon Cert.Spec.decode Cert.Spec.transposed
  refine Finset.sum_congr rfl fun k _ => ?_
  rw [val_main_v7_apply, mu_eq x0 x1 x2 x3 x4]
  have el : lidx_main_v8 i k = ix2 (i 0) k :=
    funext fun a => match a with | ⟨0, _⟩ => rfl | ⟨1, _⟩ => rfl
  have er : idx_main_v7 (ridx_main_v8 i k) = ix2 (i 1) k :=
    funext fun a => match a with | ⟨0, _⟩ => rfl | ⟨1, _⟩ => rfl
  rw [el, er]
  rfl

end Cert.RefValue

end
-- ==== Proof.lean ====
/-
  The graph auto-encoder `recon, mu, logvar = decoder(adj · (relu (adj · (x · W1)) · [W2 | W3]))` as four pipelined
  kernels against its plain reference, over the extended reals.

  Both programs compute the same chain of matrix products term by term: every product is the sum over its one
  contracted axis, every change of float format is the identity there, and the kernel's two heads ride side by
  side as the 64 columns of `h · [W2 | W3]`, whose first 32 are `h · W2` and last 32 `h · W3`. No law of the
  extended reals beyond the identity of those sums is used, so finiteness of the inputs is never opened.
  The kernels stream `adj` in blocks of 256 rows and the decoder in 512 × 2048 blocks; the last block of each
  reaches past its array's end. A row of a product reads only the same row of its left factor (and a column only
  the same column of its right factor), so the part of a block inside the array never depends on what lies past the
  end, and the blocks piece the whole products together (`Reg0Value`, `Reg1`, `Reg2`, `Reg3`, `IdealRun`).
  The word-level program's frame says nothing of those contents at all (`KRegions`, `KFrame`).
-/
import proofs.«130511_g42314017800419_cont_8to1_b_959_3_alg».proof.Defs
import proofs.«130511_g42314017800419_cont_8to1_b_959_3_alg».proof.Proof.Gen.Kernel
import proofs.«130511_g42314017800419_cont_8to1_b_959_3_alg».proof.Proof.Gen.KernelIdeal
import proofs.«130511_g42314017800419_cont_8to1_b_959_3_alg».proof.Proof.Gen.ReferenceIdeal
import proofs.«130511_g42314017800419_cont_8to1_b_959_3_alg».proof.Proof.Gen.Pre_finite_inputs
import proofs.«130511_g42314017800419_cont_8to1_b_959_3_alg».proof.Proof.Gen.ReferenceIdeal.Run
import proofs.«130511_g42314017800419_cont_8to1_b_959_3_alg».proof.Proof.Gen.ReferenceIdeal.Read
import proofs.«130511_g42314017800419_cont_8to1_b_959_3_alg».proof.Proof.KFrame
import proofs.«130511_g42314017800419_cont_8to1_b_959_3_alg».proof.Proof.IdealRun
import proofs.«130511_g42314017800419_cont_8to1_b_959_3_alg».proof.Proof.RefValue
import Idealize.ShloMosaic.Adequacy
import Idealize.ShloMosaic.Init

noncomputable section

namespace Cert.Proof

open Idealize.ShloMosaic Idealize.ShloMosaic.TcCoe Idealize.SL.Sem

/-- An unscoped buffer of the idealized kernel program is among those its run reads at the end. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_k : Cert.frame_Kernel (hKernel := Cert.Kernel.Gen.facts) (hPre_finite_inputs := Cert.Pre_finite_inputs.Gen.facts) :=
  fun m ρ _ => Cert.Kernel.Frame.frame (F := Bits) m ρ

theorem frame_ki : Cert.frame_KernelIdeal (hKernelIdeal := Cert.KernelIdeal.Gen.facts) (hPre_finite_inputs := Cert.Pre_finite_inputs.Gen.facts) :=
  fun m ρ _ => (θ_run Cert.KernelIdeal.defs _ _).mono
    (fun r h c => ⟨(h c _ (mem_uc Cert.KernelIdeal.main_arg0 (by decide))).trans (Cert.KernelIdeal.Run.W6_arg0 m c),
      (h c _ (mem_uc Cert.KernelIdeal.main_arg1 (by decide))).trans (Cert.KernelIdeal.Run.W6_arg1 m c),
      (h c _ (mem_uc Cert.KernelIdeal.main_arg2 (by decide))).trans (Cert.KernelIdeal.Run.W6_arg2 m c),
      (h c _ (mem_uc Cert.KernelIdeal.main_arg3 (by decide))).trans (Cert.KernelIdeal.Run.W6_arg3 m c),
      (h c _ (mem_uc Cert.KernelIdeal.main_arg4 (by decide))).trans (Cert.KernelIdeal.Run.W6_arg4 m c)⟩)
    (Cert.KernelIdeal.Run.run m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Both programs end with the decoder's matrix, the first head and the second head at the auto-encoder's
    functions of the arguments; the reference's are read at the kernel program's arguments, on which the two
    memories agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.recon (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.mu (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.logvar (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    ?_, ?_⟩
  · exact (θ_run Cert.KernelIdeal.defs _ _).mono
      (fun r h c => ⟨(h c _ (mem_uc Cert.KernelIdeal.main_v0_0 (by decide))).trans (Cert.KernelIdeal.Run.W6_recon m c),
        (h c _ (mem_uc Cert.KernelIdeal.main_v0_1 (by decide))).trans (Cert.KernelIdeal.Run.W6_mu m c),
        (h c _ (mem_uc Cert.KernelIdeal.main_v0_2 (by decide))).trans (Cert.KernelIdeal.Run.W6_logvar m c),
        (h c _ (mem_uc Cert.KernelIdeal.main_arg0 (by decide))).trans (Cert.KernelIdeal.Run.W6_arg0 m c),
        (h c _ (mem_uc Cert.KernelIdeal.main_arg1 (by decide))).trans (Cert.KernelIdeal.Run.W6_arg1 m c),
        (h c _ (mem_uc Cert.KernelIdeal.main_arg2 (by decide))).trans (Cert.KernelIdeal.Run.W6_arg2 m c),
        (h c _ (mem_uc Cert.KernelIdeal.main_arg3 (by decide))).trans (Cert.KernelIdeal.Run.W6_arg3 m c),
        (h c _ (mem_uc Cert.KernelIdeal.main_arg4 (by decide))).trans (Cert.KernelIdeal.Run.W6_arg4 m c)⟩)
      (Cert.KernelIdeal.Run.run m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v8_eq,
        Cert.RefValue.recon_eq _ _ _ _ (m' ((c.tc : Thread Cert.ReferenceIdeal.nD Cert.ReferenceIdeal.τ).loc Cert.ReferenceIdeal.main_arg4)),
        (hagree c).1, (hagree c).2.1, (hagree c).2.2.1, (hagree c).2.2.2.1, (hagree c).2.2.2.2]
    · rw [(h c).2.1, Cert.ReferenceIdeal.Read.val_main_v4_eq,
        Cert.RefValue.mu_eq _ _ _ _ (m' ((c.tc : Thread Cert.ReferenceIdeal.nD Cert.ReferenceIdeal.τ).loc Cert.ReferenceIdeal.main_arg4)),
        (hagree c).1, (hagree c).2.1, (hagree c).2.2.1, (hagree c).2.2.2.1, (hagree c).2.2.2.2]
    · rw [(h c).2.2.1, Cert.ReferenceIdeal.Read.val_main_v6_eq,
        Cert.RefValue.logvar_eq _ _ _ (m' ((c.tc : Thread Cert.ReferenceIdeal.nD Cert.ReferenceIdeal.τ).loc Cert.ReferenceIdeal.main_arg3)) _,
        (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
